-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S64 .f32) (main_arg7 : FVec F S64x2 .f32) (main_arg8 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x2 .f32 := Host.absf main_arg7
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : IVec S100000 32) (main_arg3 : FVec F S128x64 .f32) (main_arg4 : FVec F S64 .f32) (main_arg5 : FVec F S64x64 .f32) (main_arg6 : FVec F S64 .f32) (main_arg7 : FVec F S64x2 .f32) (main_arg8 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x64 : Shape := ⟨2, ![100000, 64]⟩
abbrev S4000x128 : Shape := ⟨2, ![4000, 128]⟩
abbrev S4000x1 : Shape := ⟨2, ![4000, 1]⟩
abbrev S4000x64 : Shape := ⟨2, ![4000, 64]⟩
abbrev S3300000x64 : Shape := ⟨2, ![3300000, 64]⟩
abbrev S1x64 : Shape := ⟨2, ![1, 64]⟩
abbrev S102400x64 : Shape := ⟨2, ![102400, 64]⟩
abbrev S102400x1 : Shape := ⟨2, ![102400, 1]⟩
abbrev S102400 : Shape := ⟨1, ![102400]⟩
abbrev S256x64 : Shape := ⟨2, ![256, 64]⟩
abbrev S4096 : Shape := ⟨1, ![4096]⟩
abbrev S4096x64 : Shape := ⟨2, ![4096, 64]⟩
abbrev S4096x1 : Shape := ⟨2, ![4096, 1]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S1x2 : Shape := ⟨2, ![1, 2]⟩
abbrev S256x2 : Shape := ⟨2, ![256, 2]⟩

abbrev nBuf : Space → Nat
  | .hbm => 87
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x2, .f32⟩
  | .hbm, ⟨8, _⟩ => ⟨S2, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S100000, .i32⟩
  | .hbm, ⟨14, _⟩ => ⟨S3300000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x64, .bf16⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000x64, .bf16⟩
  | .hbm, ⟨41, _⟩ => ⟨S3300000x64, .f32⟩
  | .hbm, ⟨42, _⟩ => ⟨S_, .f32⟩
  | .hbm, ⟨43, _⟩ => ⟨S100000x64, .f32⟩
  | .hbm, ⟨44, _⟩ => ⟨S3300000x1, .i32⟩
  | .hbm, ⟨45, _⟩ => ⟨S100000x64, .f32⟩
  | .hbm, ⟨46, _⟩ => ⟨S1x64, .f32⟩
  | .hbm, ⟨47, _⟩ => ⟨S100000x64, .bf16⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x64, .bf16⟩
  | .hbm, ⟨57, _⟩ => ⟨S3300000x64, .f32⟩
  | .hbm, ⟨58, _⟩ => ⟨S_, .f32⟩
  | .hbm, ⟨59, _⟩ => ⟨S100000x64, .f32⟩
  | .hbm, ⟨60, _⟩ => ⟨S3300000x1, .i32⟩
  | .hbm, ⟨61, _⟩ => ⟨S100000x64, .f32⟩
  | .hbm, ⟨62, _⟩ => ⟨S_, .i32⟩
  | .hbm, ⟨63, _⟩ => ⟨S_, .f32⟩
  | .hbm, ⟨64, _⟩ => ⟨S102400x64, .f32⟩
  | .hbm, ⟨65, _⟩ => ⟨S_, .i32⟩
  | .hbm, ⟨66, _⟩ => ⟨S_, .f32⟩
  | .hbm, ⟨67, _⟩ => ⟨S102400x1, .f32⟩
  | .hbm, ⟨68, _⟩ => ⟨S_, .i32⟩
  | .hbm, ⟨69, _⟩ => ⟨S_, .i32⟩
  | .hbm, ⟨70, _⟩ => ⟨S102400, .i32⟩
  | .hbm, ⟨71, _⟩ => ⟨S1x64, .f32⟩
  | .hbm, ⟨72, _⟩ => ⟨S256x64, .f32⟩
  | .hbm, ⟨73, _⟩ => ⟨S_, .f32⟩
  | .hbm, ⟨74, _⟩ => ⟨S100000, .f32⟩
  | .hbm, ⟨75, _⟩ => ⟨S_, .f32⟩
  | .hbm, ⟨76, _⟩ => ⟨S256, .f32⟩
  | .hbm, ⟨77, _⟩ => ⟨S100000x1, .i32⟩
  | .hbm, ⟨78, _⟩ => ⟨S256, .f32⟩
  | .hbm, ⟨79, _⟩ => ⟨S_, .f32⟩
  | .hbm, ⟨80, _⟩ => ⟨S256, .f32⟩
  | .hbm, ⟨81, _⟩ => ⟨S256, .f32⟩
  | .hbm, ⟨82, _⟩ => ⟨S256x1, .f32⟩
  | .hbm, ⟨83, _⟩ => ⟨S256x64, .f32⟩
  | .hbm, ⟨84, _⟩ => ⟨S256x64, .f32⟩
  | .hbm, ⟨85, _⟩ => ⟨S1x2, .f32⟩
  | .hbm, ⟨86, _⟩ => ⟨S256x2, .f32⟩
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S4000x1, .f32⟩
  | .local _ .vmem, ⟨4, _⟩ => ⟨S4000x1, .f32⟩
  | .local _ .vmem, ⟨5, _⟩ => ⟨S4000x64, .bf16⟩
  | .local _ .vmem, ⟨6, _⟩ => ⟨S4000x64, .bf16⟩
  | .local _ .vmem, ⟨7, _⟩ => ⟨S4000x64, .f32⟩
  | .local _ .vmem, ⟨8, _⟩ => ⟨S4000x64, .f32⟩
  | .local _ .vmem, ⟨9, _⟩ => ⟨S4000x1, .f32⟩
  | .local _ .vmem, ⟨10, _⟩ => ⟨S4000x1, .f32⟩
  | .local _ .vmem, ⟨11, _⟩ => ⟨S1x64, .f32⟩
  | .local _ .vmem, ⟨12, _⟩ => ⟨S64x64, .f32⟩
  | .local _ .vmem, ⟨13, _⟩ => ⟨S4000x64, .bf16⟩
  | .local _ .vmem, ⟨14, _⟩ => ⟨S4000x64, .bf16⟩
  | .local _ .vmem, ⟨15, _⟩ => ⟨S4096, .i32⟩
  | .local _ .vmem, ⟨16, _⟩ => ⟨S4096, .i32⟩
  | .local _ .vmem, ⟨17, _⟩ => ⟨S4096x64, .f32⟩
  | .local _ .vmem, ⟨18, _⟩ => ⟨S4096x64, .f32⟩
  | .local _ .vmem, ⟨19, _⟩ => ⟨S4096x1, .f32⟩
  | .local _ .vmem, ⟨20, _⟩ => ⟨S4096x1, .f32⟩
  | .local _ .vmem, ⟨21, _⟩ => ⟨S1x64, .f32⟩
  | .local _ .vmem, ⟨22, _⟩ => ⟨S256x64, .f32⟩
  | .local _ .vmem, ⟨23, _⟩ => ⟨S256x64, .f32⟩
  | .local _ .vmem, ⟨24, _⟩ => ⟨S64x2, .f32⟩
  | .local _ .vmem, ⟨25, _⟩ => ⟨S1x2, .f32⟩
  | .local _ .vmem, ⟨26, _⟩ => ⟨S256x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_call1_v0 : Ref sig .tc := ⟨.hbm, 63, rfl⟩
abbrev main_v41 : Ref sig .tc := ⟨.hbm, 64, rfl⟩
abbrev main_c_9 : Ref sig .tc := ⟨.hbm, 65, rfl⟩
abbrev main_call2_v0 : Ref sig .tc := ⟨.hbm, 66, rfl⟩
abbrev main_v42 : Ref sig .tc := ⟨.hbm, 67, rfl⟩
abbrev main_c_10 : Ref sig .tc := ⟨.hbm, 68, rfl⟩
abbrev main_call3_v0 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_11 : Ref sig .tc := ⟨.hbm, 73, rfl⟩
abbrev main_v46 : Ref sig .tc := ⟨.hbm, 74, rfl⟩
abbrev main_cst_12 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_13 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc3_stg0_0 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc3_sem0_0 : DmaSem sig := 23
abbrev cc3_sem1_0 : DmaSem sig := 24
abbrev cc3_sem2_0 : DmaSem sig := 25
abbrev cc3_sem3_0 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 1 → Nat :=
  let arg0 : BitVec 32 := BitVec.ofNat 32 (i 0).val
  let c0_i32 : BitVec 32 := 0#32
  ![arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4096 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S256x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S64x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x64_S64x64_0_0 : ∀ a, (![0, 0] : Fin 2 → Nat) a + S64x64.size a ≤ S64x64.size a
  h_S64x64 : 0 < S64x64.numel
  pads_S100000x64_S102400x64_024000_000 : S100000x64.Pads (![0, 0] : Fin 2 → Nat) ![2400, 0] ![0, 0] S102400x64
  h_S_ : 0 < S_.numel
  pads_S100000x1_S102400x1_024000_000 : S100000x1.Pads (![0, 0] : Fin 2 → Nat) ![2400, 0] ![0, 0] S102400x1
  pads_S100000_S102400_024000 : S100000.Pads (![0] : Fin 1 → Nat) ![2400] ![0] S102400
  inb_S256x64_S256x64_0_0 : ∀ a, (![0, 0] : Fin 2 → Nat) a + S256x64.size a ≤ S256x64.size a
  h_S256x64 : 0 < S256x64.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  broadcasts_S4096x1_S4096x64 : S4096x1.Broadcasts S4096x64
  broadcasts_S1x64_S4096x64 : S1x64.Broadcasts S4096x64
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  iota_S256x4096_d0_w32 : S256x4096.Iotas .tc 32 [0]
  broadcasts_S1x4096_S256x4096 : S1x4096.Broadcasts S256x4096
  natLt_1_32 : 1 < 32
  shapeCasts_S256x64_S256x64 : S256x64.ShapeCasts S256x64
  bcast_S_S256 : S_.BroadcastsInDim S256 (![] : Fin 0 → Fin S256.rank)
  bcast_S100000_S100000x1_0 : S100000.BroadcastsInDim S100000x1 (![0] : Fin 1 → Fin S100000x1.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  shapeCasts_S2_S1x2 : S2.ShapeCasts S1x2
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S256x2 : S1x2.Broadcasts S256x2
  inb_S256x2_S256x2_0_0 : ∀ a, (![0, 0] : Fin 2 → Nat) a + S256x2.size a ≤ S256x2.size a
  h_S256x2 : 0 < S256x2.numel
  scatter_S100000_S3300000x1_S3300000_n_0_0_1_wf : ScatterDims.WF S100000 S3300000x1 S3300000 [] [0] [0] 1
  dot_S4000x128_S128x64_S4000x64_1_0_0_1_n_n_wf : DotDims.WF S4000x128 S128x64 S4000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S4000x64_S64x64_S4000x64_1_0_0_1_n_n_wf : DotDims.WF S4000x64 S64x64 S4000x64 [1] [0] [0] [1] [] []
  dot_S256x4096_S4096x64_S256x64_1_0_0_1_n_n_wf : DotDims.WF S256x4096 S4096x64 S256x64 [1] [0] [0] [1] [] []
  scatter_S256_S100000x1_S100000_n_0_0_1_wf : ScatterDims.WF S256 S100000x1 S100000 [] [0] [0] 1
  dot_S256x64_S64x2_S256x2_1_0_0_1_n_n_wf : DotDims.WF S256x64 S64x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .bf16 = 32 ∨ (Rect.block (s := S100000x64) S4000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S100000x64.size a
  hwx1_4 : ∀ i : grid1.Coords, EltTy.bits .bf16 = 32 ∨ (Rect.block (s := S100000x64) S4000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096.size a ≤ S102400.size a
  hwx2_0 : ∀ i : grid2.Coords, EltTy.bits .i32 = 32 ∨ (Rect.block (s := S102400) S4096.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x64.size a ≤ S102400x64.size a
  hwx2_1 : ∀ i : grid2.Coords, EltTy.bits .f32 = 32 ∨ (Rect.block (s := S102400x64) S4096x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x1.size a ≤ S102400x1.size a
  hwx2_2 : ∀ i : grid2.Coords, EltTy.bits .f32 = 32 ∨ (Rect.block (s := S102400x1) S4096x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x64.size a ≤ S256x64.size a
  hwx2_4 : ∀ i : grid2.Coords, EltTy.bits .f32 = 32 ∨ (Rect.block (s := S256x64) S256x64.size (cc2_transform_4 i) (hinb2_4 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S256x64.size a ≤ S256x64.size a
  hwx3_0 : ∀ i : grid3.Coords, EltTy.bits .f32 = 32 ∨ (Rect.block (s := S256x64) S256x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x2.size a ≤ S64x2.size a
  hwx3_1 : ∀ i : grid3.Coords, EltTy.bits .f32 = 32 ∨ (Rect.block (s := S64x2) S64x2.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2.size a ≤ S1x2.size a
  hwx3_2 : ∀ i : grid3.Coords, EltTy.bits .f32 = 32 ∨ (Rect.block (s := S1x2) S1x2.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S256x2.size a ≤ S256x2.size a
  hwx3_3 : ∀ i : grid3.Coords, EltTy.bits .f32 = 32 ∨ (Rect.block (s := S256x2) S256x2.size (cc3_transform_3 i) (hinb3_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x2_S256x2_1_0_0_1_n_n : DotDims S256x64 S64x2 S256x2 where
  lhsContracting := [1]
  rhsContracting := [0]
  lhsNonContracting := [0]
  rhsNonContracting := [1]
  lhsBatch := []
  rhsBatch := []
  wf := dot_S256x64_S64x2_S256x2_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S4096x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S4096x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S256x64.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v54) S256x64.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S256x2.size cc3_transform_3 reads3_3 true false 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x3200000 : Shape := ⟨2, ![1, 3200000]⟩
abbrev S3200000 : Shape := ⟨1, ![3200000]⟩
abbrev S100000x64 : Shape := ⟨2, ![100000, 64]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩
abbrev S256x2 : Shape := ⟨2, ![256, 2]⟩
abbrev S1x2 : Shape := ⟨2, ![1, 2]⟩

abbrev nBuf : Space → Nat
  | .hbm => 151
  | .vmem => 0
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x2, .f32⟩
  | 8 => ⟨S2, .f32⟩
  | 9 => ⟨S1x3200000, .i32⟩
  | 10 => ⟨S3200000, .i32⟩
  | 11 => ⟨S1x3200000, .i32⟩
  | 12 => ⟨S3200000, .i32⟩
  | 13 => ⟨S100000x64, .f32⟩
  | 14 => ⟨S100000, .i32⟩
  | 15 => ⟨S3300000, .i32⟩
  | 16 => ⟨S3300000, .i32⟩
  | 17 => ⟨S_, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S3300000, .i32⟩
  | 33 => ⟨S3300000, .i1⟩
  | 34 => ⟨S_, .i32⟩
  | 35 => ⟨S3300000, .i32⟩
  | 36 => ⟨S3300000, .i32⟩
  | 37 => ⟨S3300000, .i32⟩
  | 38 => ⟨S3300000x1, .i32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S3300000, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x64, .f32⟩
  | 59 => ⟨S3300000x1, .f32⟩
  | 60 => ⟨S3300000x64, .f32⟩
  | 61 => ⟨S3300000x64, .f32⟩
  | 62 => ⟨S_, .f32⟩
  | 63 => ⟨S100000x64, .f32⟩
  | 64 => ⟨S3300000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S100000, .i32⟩
  | 74 => ⟨S3300000, .i32⟩
  | 75 => ⟨S3300000, .i32⟩
  | 76 => ⟨S_, .f32⟩
  | 77 => ⟨S3300000, .f32⟩
  | 78 => ⟨S_, .f32⟩
  | 79 => ⟨S100000, .f32⟩
  | 80 => ⟨S3300000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S3300000, .i32⟩
  | 92 => ⟨S3300000, .i1⟩
  | 93 => ⟨S_, .i32⟩
  | 94 => ⟨S3300000, .i32⟩
  | 95 => ⟨S3300000, .i32⟩
  | 96 => ⟨S3300000, .i32⟩
  | 97 => ⟨S3300000x1, .i32⟩
  | 98 => ⟨S3300000, .f32⟩
  | 99 => ⟨S_, .i32⟩
  | 100 => ⟨S3300000, .i32⟩
  | 101 => ⟨S3300000, .i1⟩
  | 102 => ⟨S_, .i32⟩
  | 103 => ⟨S3300000, .i32⟩
  | 104 => ⟨S3300000, .i32⟩
  | 105 => ⟨S3300000, .i32⟩
  | 106 => ⟨S3300000x1, .i32⟩
  | 107 => ⟨S3300000, .f32⟩
  | 108 => ⟨S3300000, .f32⟩
  | 109 => ⟨S_, .i32⟩
  | 110 => ⟨S3300000, .i32⟩
  | 111 => ⟨S3300000, .i1⟩
  | 112 => ⟨S_, .i32⟩
  | 113 => ⟨S3300000, .i32⟩
  | 114 => ⟨S3300000, .i32⟩
  | 115 => ⟨S3300000, .i32⟩
  | 116 => ⟨S3300000x1, .i32⟩
  | 117 => ⟨S3300000x64, .f32⟩
  | 118 => ⟨S3300000x1, .f32⟩
  | 119 => ⟨S3300000x64, .f32⟩
  | 120 => ⟨S3300000x64, .f32⟩
  | 121 => ⟨S_, .f32⟩
  | 122 => ⟨S100000x64, .f32⟩
  | 123 => ⟨S3300000x1, .i32⟩
  | 124 => ⟨S100000x64, .f32⟩
  | 125 => ⟨S1x64, .f32⟩
  | 126 => ⟨S100000x64, .f32⟩
  | 127 => ⟨S100000x64, .f32⟩
  | _ => ⟨S100000x128, .f32⟩

abbrev hbmTy0_1 (i : Nat) : BufTy := match i % 128 with
  | 0 => ⟨S_, .f32⟩
  | 1 => ⟨S100000x64, .f32⟩
  | 2 => ⟨S100000x64, .f32⟩
  | 3 => ⟨S_, .f32⟩
  | 4 => ⟨S256x64, .f32⟩
  | 5 => ⟨S100000x1, .i32⟩
  | 6 => ⟨S256x64, .f32⟩
  | 7 => ⟨S_, .f32⟩
  | 8 => ⟨S100000, .f32⟩
  | 9 => ⟨S_, .f32⟩
  | 10 => ⟨S256, .f32⟩
  | 11 => ⟨S100000x1, .i32⟩
  | 12 => ⟨S256, .f32⟩
  | 13 => ⟨S_, .f32⟩
  | 14 => ⟨S256, .f32⟩
  | 15 => ⟨S256, .f32⟩
  | 16 => ⟨S256x1, .f32⟩
  | 17 => ⟨S256x64, .f32⟩
  | 18 => ⟨S256x64, .f32⟩
  | 19 => ⟨S256x2, .f32⟩
  | 20 => ⟨S1x2, .f32⟩
  | 21 => ⟨S256x2, .f32⟩
  | 22 => ⟨S256x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_15 : Ref sig .tc := ⟨.hbm, 99, rfl⟩
abbrev main_v67 : Ref sig .tc := ⟨.hbm, 100, rfl⟩
abbrev main_v68 : Ref sig .tc := ⟨.hbm, 101, rfl⟩
abbrev main_c_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_c_18 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_19 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_call3_cst : Ref sig .tc := ⟨.hbm, 128, rfl⟩
abbrev main_call3_v0 : Ref sig .tc := ⟨.hbm, 129, rfl⟩
abbrev main_v91 : Ref sig .tc := ⟨.hbm, 130, rfl⟩
abbrev main_cst_20 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_21 : Ref sig .tc := ⟨.hbm, 135, rfl⟩
abbrev main_v95 : Ref sig .tc := ⟨.hbm, 136, rfl⟩
abbrev main_cst_22 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_23 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  dot_S100000x128_S128x64_S100000x64_1_0_0_1_n_n_wf : DotDims.WF S100000x128 S128x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x2_S256x2_1_0_0_1_n_n_wf : DotDims.WF S256x64 S64x2 S256x2 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x2_S256x2_1_0_0_1_n_n : DotDims S256x64 S64x2 S256x2 where
  lhsContracting := [1]
  rhsContracting := [0]
  lhsNonContracting := [0]
  rhsNonContracting := [1]
  lhsBatch := []
  rhsBatch := []
  wf := dot_S256x64_S64x2_S256x2_1_0_0_1_n_n_wf

class Facts : Prop extends Facts₀ where

variable [Facts]
-- ==== Proof.Spec.lean ====
/-
  The mathematics of the certificate, as whole-array functions over the extended reals.

  A two-layer graph convolution followed by a mean pool and a linear head.  With `A` the edge list
  extended by one self loop per node, `deg v` the number of edges of `A` that end in `v`, and
  `dinv v = deg v ^ (-1/2)` where `deg v > 0` (zero elsewhere), one layer sends node features `h` to

      relu ( Σ_{e ∈ A, tgt e = v}  h (src e) · (dinv (src e) · dinv v)  +  b ).

  The kernel splits the edge weight: it scales every row by its own `dinv` BEFORE the rows are
  gathered along the edges, sums the gathered rows per target, and scales the sum by `dinv v`
  once more afterwards:

      relu ( dinv v · Σ_{e ∈ A, tgt e = v} (h (src e) · dinv (src e))  +  b ).

  The two agree on the extended reals because `dinv v` is a non-negative real number (never an
  infinity), and multiplication by such a number distributes over every extended-real sum.

  This file only NAMES the pieces; the programs' values are proved equal to them elsewhere.
-/
import proofs.«401887_j19069654794648_2_alg».proof.Proof.Gen.KernelIdeal
import Idealize.ShloMosaic.PureOps.Ideal
import Idealize.ShloMosaic.Lib.ValueIdx

noncomputable section

namespace Cert.Gcn

open Idealize.ShloMosaic Idealize.ShloMosaic.ValueIdx Cert.KernelIdeal Cert.KernelIdeal.Facts₀
open scoped BigOperators

/-- A function of two coordinates as a function of a rank-2 index. -/
abbrev unc2 {n0 n1 : Nat} {α : Type} (f : Fin n0 → Fin n1 → α) : (⟨2, ![n0, n1]⟩ : Shape).Idx → α :=
  fun i => f (i 0) (i 1)

theorem unc2_ix2 {n0 n1 : Nat} {α : Type} (f : Fin n0 → Fin n1 → α) (a : Fin n0) (b : Fin n1) :
    unc2 f (ix2 a b) = f a b := rfl

/-! ## The graph: edge sources and targets with the self loops appended, as the programs index with them -/

/-- Row 0 of the edge list followed by `0, 1, …, N-1`: the source of every edge of `A`. -/
def srcs (e : IVec S2x3200000 32) : IVec S3300000 32 :=
  concatenate S3300000 0 [⟨S3200000, shapeCast S3200000 (extractStridedSlice S1x3200000 ![0, 0] e slices_S2x3200000_S1x3200000_0_0) shapeCasts_S1x3200000_S3200000⟩, ⟨S100000, iotaInDim S100000 32 0⟩] concatenates_S3200000_S100000_S3300000_d0

/-- Row 1 of the edge list followed by `0, 1, …, N-1`: the target of every edge of `A`. -/
def tgts (e : IVec S2x3200000 32) : IVec S3300000 32 :=
  concatenate S3300000 0 [⟨S3200000, shapeCast S3200000 (extractStridedSlice S1x3200000 ![1, 0] e slices_S2x3200000_S1x3200000_1_0) shapeCasts_S1x3200000_S3200000⟩, ⟨S100000, iotaInDim S100000 32 0⟩] concatenates_S3200000_S100000_S3300000_d0

/-- A list of node numbers as a one-column array of index vectors. -/
def col (v : IVec S3300000 32) : IVec S3300000x1 32 :=
  broadcastInDim S3300000x1 ![0] bcast_S3300000_S3300000x1_0 v

/-- A negative node number counts from the end: `v < 0 ↦ v + N`. -/
def wrap (v : IVec S3300000 32) : IVec S3300000 32 :=
  select (cmpi .slt v (broadcastInDim S3300000 ![] bcast_S_S3300000 (constantI S_ 32 0#32)))
    (addi v (broadcastInDim S3300000 ![] bcast_S_S3300000 (constantI S_ 32 100000#32))) v

/-- `deg v`: the number of edges of `A` whose target is `v`. -/
def deg (e : IVec S2x3200000 32) : FVec Ideal S100000 .f32 :=
  Host.scatterAdd scatter_S100000_S3300000x1_S3300000_n_0_0_1
    (broadcastInDim S100000 ![] bcast_S_S100000 (constant S_ .f32 0x00000000#32))
    (col (tgts e))
    (broadcastInDim S3300000 ![] bcast_S_S3300000 (constant S_ .f32 0x3F800000#32))

/-- `dinv v = deg v ^ (-1/2)` where `deg v > 0`, else `0`. -/
def dinv (e : IVec S2x3200000 32) : FVec Ideal S100000 .f32 :=
  select (cmpf .ogt (deg e) (broadcastInDim S100000 ![] bcast_S_S100000 (constant S_ .f32 0x00000000#32)))
    (Host.rsqrt (deg e))
    (broadcastInDim S100000 ![] bcast_S_S100000 (constant S_ .f32 0x00000000#32))

/-- `dinv` as a column. -/
def dcol (e : IVec S2x3200000 32) : FVec Ideal S100000x1 .f32 :=
  shapeCast S100000x1 (dinv e) shapeCasts_S100000_S100000x1

/-! ## The kernel's four dense stages, each as a function of whole arrays -/

/-- Stage one: `(x · W) r q · d r`. -/
def lin1 (x : FVec Ideal S100000x128 .f32) (w : FVec Ideal S128x64 .f32) (d : FVec Ideal S100000x1 .f32) :
    FVec Ideal S100000x64 .bf16 :=
  unc2 fun r q => (∑ k : Fin 128, x (ix2 r k) * w (ix2 k q)) * d (ix2 r 0)

/-- The activation a layer ends in: `relu (d r · a r k + b k)`. -/
def act (a : FVec Ideal S100000x64 .f32) (d : FVec Ideal S100000x1 .f32) (b : FVec Ideal S1x64 .f32) :
    FVec Ideal S100000x64 .f32 :=
  unc2 fun r k => max (d (ix2 r 0) * a (ix2 r k) + b (ix2 0 k)) 0

/-- Stage two: the first layer's activation, times the second weight matrix, scaled by `d r`. -/
def mid (a : FVec Ideal S100000x64 .f32) (d : FVec Ideal S100000x1 .f32) (b : FVec Ideal S1x64 .f32)
    (w : FVec Ideal S64x64 .f32) : FVec Ideal S100000x64 .bf16 :=
  unc2 fun r q => (∑ k : Fin 64, max (d (ix2 r 0) * a (ix2 r k) + b (ix2 0 k)) 0 * w (ix2 k q)) * d (ix2 r 0)

/-- `1` where a node's graph number is `g`, else `0`. -/
def onehot (b : BitVec 32) (g : Fin 256) : EReal := if b = BitVec.ofNat 32 g.val then 1 else 0

/-- Stage three: per graph `g`, the sum over the (padded) nodes of the second layer's activation. -/
def poolSum (bt : IVec S102400 32) (a : FVec Ideal S102400x64 .f32) (d : FVec Ideal S102400x1 .f32)
    (b : FVec Ideal S1x64 .f32) : FVec Ideal S256x64 .f32 :=
  unc2 fun g q => ∑ n : Fin 102400, onehot (bt (ix1 n)) g * max (d (ix2 n 0) * a (ix2 n q) + b (ix2 0 q)) 0

/-- Stage four: `p · Wl + bl`. -/
def head (p : FVec Ideal S256x64 .f32) (w : FVec Ideal S64x2 .f32) (b : FVec Ideal S1x2 .f32) :
    FVec Ideal S256x2 .f32 :=
  unc2 fun g q => (∑ k : Fin 64, p (ix2 g k) * w (ix2 k q)) + b (ix2 0 q)

/-! ## What happens between the dense stages: gather along the edges, sum per target -/

/-- Rows of `hp` gathered at the edges' sources and summed into the edges' targets. -/
def agg (hp : FVec Ideal S100000x64 .bf16) (e : IVec S2x3200000 32) : FVec Ideal S100000x64 .f32 :=
  Host.scatterAdd scatter_S100000x64_S3300000x1_S3300000x64_1_0_0_1
    (broadcastInDim S100000x64 ![] bcast_S_S100000x64 (constant S_ .f32 0x00000000#32))
    (col (tgts e))
    (extf .f32 (Host.gather gather_S100000x64_S3300000x1_S3300000x64_1_0_n_n_0_1_164 hp (col (wrap (srcs e)))) bitsLt_bf16_f32)

/-- The number of nodes of each graph. -/
def cnt (bt : IVec S100000 32) : FVec Ideal S256 .f32 :=
  Host.scatterAdd scatter_S256_S100000x1_S100000_n_0_0_1
    (broadcastInDim S256 ![] bcast_S_S256 (constant S_ .f32 0x00000000#32))
    (broadcastInDim S100000x1 ![0] bcast_S100000_S100000x1_0 bt)
    (broadcastInDim S100000 ![] bcast_S_S100000 (constant S_ .f32 0x3F800000#32))

/-- `max (cnt g) 1`, spread over the feature axis. -/
def cntb (bt : IVec S100000 32) : FVec Ideal S256x64 .f32 :=
  broadcastInDim S256x64 ![0, 1] bcast_S256x1_S256x64_0_1 (broadcastInDim S256x1 ![0] bcast_S256_S256x1_0
    (maximumf (cnt bt) (broadcastInDim S256 ![] bcast_S_S256 (constant S_ .f32 0x3F800000#32))))

/-- The node axis padded from 100000 to 102400: graph numbers with `-1`. -/
def padB (bt : IVec S100000 32) : IVec S102400 32 :=
  pad S102400 ![0] ![2400] ![0] bt (id (constantI S_ 32 4294967295#32)) pads_S100000_S102400_024000 h_S_
/-- … features with `0`. -/
def padA (a : FVec Ideal S100000x64 .f32) : FVec Ideal S102400x64 .f32 :=
  pad S102400x64 ![0, 0] ![2400, 0] ![0, 0] a (sitofp .f32 (constantI S_ 32 0#32)) pads_S100000x64_S102400x64_024000_000 h_S_
/-- … the `dinv` column with `0`. -/
def padD (d : FVec Ideal S100000x1 .f32) : FVec Ideal S102400x1 .f32 :=
  pad S102400x1 ![0, 0] ![2400, 0] ![0, 0] d (sitofp .f32 (constantI S_ 32 0#32)) pads_S100000x1_S102400x1_024000_000 h_S_

/-- A bias vector as a one-row array. -/
def row64 (b : FVec Ideal S64 .f32) : FVec Ideal S1x64 .f32 := shapeCast S1x64 b shapeCasts_S64_S1x64
def row2 (b : FVec Ideal S2 .f32) : FVec Ideal S1x2 .f32 := shapeCast S1x2 b shapeCasts_S2_S1x2

/-! ## The kernel program's result, stage after stage -/

def hp1 (x : FVec Ideal S100000x128 .f32) (e : IVec S2x3200000 32) (w1 : FVec Ideal S128x64 .f32) : FVec Ideal S100000x64 .bf16 :=
  lin1 x w1 (dcol e)
def agg1 (x : FVec Ideal S100000x128 .f32) (e : IVec S2x3200000 32) (w1 : FVec Ideal S128x64 .f32) : FVec Ideal S100000x64 .f32 :=
  agg (hp1 x e w1) e
def hp2 (x : FVec Ideal S100000x128 .f32) (e : IVec S2x3200000 32) (w1 : FVec Ideal S128x64 .f32) (b1 : FVec Ideal S64 .f32)
    (w2 : FVec Ideal S64x64 .f32) : FVec Ideal S100000x64 .bf16 :=
  mid (agg1 x e w1) (dcol e) (row64 b1) w2
def agg2 (x : FVec Ideal S100000x128 .f32) (e : IVec S2x3200000 32) (w1 : FVec Ideal S128x64 .f32) (b1 : FVec Ideal S64 .f32)
    (w2 : FVec Ideal S64x64 .f32) : FVec Ideal S100000x64 .f32 :=
  agg (hp2 x e w1 b1 w2) e
def sums (x : FVec Ideal S100000x128 .f32) (e : IVec S2x3200000 32) (bt : IVec S100000 32) (w1 : FVec Ideal S128x64 .f32)
    (b1 : FVec Ideal S64 .f32) (w2 : FVec Ideal S64x64 .f32) (b2 : FVec Ideal S64 .f32) : FVec Ideal S256x64 .f32 :=
  poolSum (padB bt) (padA (agg2 x e w1 b1 w2)) (padD (dcol e)) (row64 b2)
def pooled (x : FVec Ideal S100000x128 .f32) (e : IVec S2x3200000 32) (bt : IVec S100000 32) (w1 : FVec Ideal S128x64 .f32)
    (b1 : FVec Ideal S64 .f32) (w2 : FVec Ideal S64x64 .f32) (b2 : FVec Ideal S64 .f32) : FVec Ideal S256x64 .f32 :=
  Host.divf (sums x e bt w1 b1 w2 b2) (cntb bt)
/-- The kernel program's result as a function of its nine arguments. -/
def kernelOut (x : FVec Ideal S100000x128 .f32) (e : IVec S2x3200000 32) (bt : IVec S100000 32) (w1 : FVec Ideal S128x64 .f32)
    (b1 : FVec Ideal S64 .f32) (w2 : FVec Ideal S64x64 .f32) (b2 : FVec Ideal S64 .f32) (wl : FVec Ideal S64x2 .f32)
    (bl : FVec Ideal S2 .f32) : FVec Ideal S256x2 .f32 :=
  head (pooled x e bt w1 b1 w2 b2) wl (row2 bl)

end Cert.Gcn

end
-- ==== Proof.R0.lean ====
/-
  The first dense stage as ONE function of whole arrays.  The call walks 25 row blocks of 4000 rows; block `t`
  of the result is the product of block `t` of `x` with the whole of `W`, each row scaled by its own entry of the
  column `d`.  The blocks tile the 100000 rows, so the array after the call is `lin1 x W d`.
-/
import proofs.«401887_j19069654794648_2_alg».proof.Proof.Gen.KernelIdeal.Frame
import proofs.«401887_j19069654794648_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Idealize.ShloMosaic Idealize.ShloMosaic.TcCoe Idealize.SL.Sem Idealize.ShloMosaic.ValueIdx
open Cert.KernelIdeal Cert.KernelIdeal.Gen
open Idealize.ShloMosaic.Pipeline (Dat Cfg Window)
open scoped BigOperators

/-! ## One entry of a block's product

The stage multiplies a block of 4000 rows of `x` (cast to the narrow format, which changes nothing over the
extended reals) with the whole of `W` into a zero accumulator, and scales row `p` by the block's entry `d p`. -/

/-- The product's left operand index on its row axis is the output's row. -/
theorem lhs_lin1_0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
/-- The left operand index on its column axis is the summation index. -/
theorem lhs_lin1_1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
/-- The right operand index on its row axis is the summation index. -/
theorem rhs_lin1_0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
/-- The right operand index on its column axis is the output's column. -/
theorem rhs_lin1_1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- The block product into a zero accumulator, entry `(p, q)`: the sum over `k` of `a p k · b k q`. -/
theorem matmul_lin1_apply (a : FVec Ideal S4000x128 .bf16) (b : FVec Ideal S128x64 .bf16) (p : Fin 4000) (q : Fin 64) :
    matmul dot_S4000x128_S128x64_S4000x64_1_0_0_1_n_n none a b (constant (F := Ideal) S4000x64 .f32 0x00000000#32) (ix2 p q)
      = ∑ k : Fin 128, a (ix2 p k) * b (ix2 k q) := by
  refine (Ideal.matmul_constant_zero_apply dot_S4000x128_S128x64_S4000x64_1_0_0_1_n_n none a b (ix2 p q)).trans ?_
  rw [← Equiv.sum_comp (ValueIdx.contrEquiv1 dot_S4000x128_S128x64_S4000x64_1_0_0_1_n_n 128 rfl rfl).symm]
  refine Finset.sum_congr rfl fun k _ => ?_
  have hk := ValueIdx.contrEquiv1_symm_val dot_S4000x128_S128x64_S4000x64_1_0_0_1_n_n 128 rfl rfl k
  have el : dot_S4000x128_S128x64_S4000x64_1_0_0_1_n_n.lhsIdx (ix2 p q) ((ValueIdx.contrEquiv1 dot_S4000x128_S128x64_S4000x64_1_0_0_1_n_n 128 rfl rfl).symm k) = ix2 p k := funext fun a => Fin.ext (by
    match a with
    | ⟨0, _⟩ => exact lhs_lin1_0 _ _
    | ⟨1, _⟩ => exact (lhs_lin1_1 _ _).trans hk)
  have er : dot_S4000x128_S128x64_S4000x64_1_0_0_1_n_n.rhsIdx (ix2 p q) ((ValueIdx.contrEquiv1 dot_S4000x128_S128x64_S4000x64_1_0_0_1_n_n 128 rfl rfl).symm k) = ix2 k q := funext fun a => Fin.ext (by
    match a with
    | ⟨0, _⟩ => exact (rhs_lin1_0 _ _).trans hk
    | ⟨1, _⟩ => exact rhs_lin1_1 _ _)
  rw [el, er]

/-- The column `d` spread over the 64 columns, entry `(p, q)`: `d p`. -/
theorem spread_lin1_apply (d : FVec Ideal S4000x1 .f32) (p : Fin 4000) (q : Fin 64) :
    broadcastTo S4000x64 (shapeCast S4000x1 d shapeCasts_S4000x1_S4000x1) broadcasts_S4000x1_S4000x64 (ix2 p q) = d (ix2 p 0) := by
  rw [shapeCast_self]
  refine broadcastTo_apply d broadcasts_S4000x1_S4000x64 (ix2 p q) (ix2 p 0) fun a => ?_
  match a with
  | ⟨0, _⟩ => rfl
  | ⟨1, _⟩ => rfl

/-- What the body stores, entry `(p, q)` of the block: `(Σ_k x p k · w k q) · d p`. -/
theorem pay_lin1_apply (x0 : FVec Ideal S4000x128 .f32) (x1 : FVec Ideal S128x64 .f32) (x2 : FVec Ideal S4000x1 .f32) (p : Fin 4000) (q : Fin 64) :
    k0_pay1 (F := Ideal) x0 x1 x2 (ix2 p q) = (∑ k : Fin 128, x0 (ix2 p k) * x1 (ix2 k q)) * x2 (ix2 p 0) := by
  unfold k0_pay1
  show matmul dot_S4000x128_S128x64_S4000x64_1_0_0_1_n_n none (truncf .bf16 x0 bitsLt_bf16_f32) (truncf .bf16 x1 bitsLt_bf16_f32)
        (constant (F := Ideal) S4000x64 .f32 0x00000000#32) (ix2 p q)
      * broadcastTo S4000x64 (shapeCast S4000x1 x2 shapeCasts_S4000x1_S4000x1) broadcasts_S4000x1_S4000x64 (ix2 p q) = _
  rw [spread_lin1_apply x2 p q, matmul_lin1_apply (truncf .bf16 x0 bitsLt_bf16_f32) (truncf .bf16 x1 bitsLt_bf16_f32) p q]
  rfl

-- the TensorCore's buffer contents when the region is entered
variable (V : (c : Dev nD) → (b : Ref sig .tc) → Buf (Elt Ideal) ((c : Thread nD τ).loc b))

/-! ## From blocks to the array

Grid point `t` (of 25) holds rows `4000 t … 4000 t + 3999` of `x`, of the column `d` and of the result, and the whole of
`W`.  So entry `(p, q)` of what point `t` writes back is entry `(4000 t + p, q)` of `lin1 x W d`, and since every row
`r < 100000` lies in block `r / 4000`, the blocks fill the array. -/

theorem zero_offsets_lin1 : (![0, 0] : Fin 2 → Nat) = fun _ => 0 :=
  funext fun a => match a with | ⟨0, _⟩ => rfl | ⟨1, _⟩ => rfl

/-- The arrays the call reads, at their literal shapes. -/
abbrev lin1_x (c : Dev nD) : FVec Ideal S100000x128 .f32 := V c main_arg0
abbrev lin1_w (c : Dev nD) : FVec Ideal S128x64 .f32 := V c main_arg3
abbrev lin1_d (c : Dev nD) : FVec Ideal S100000x1 .f32 := V c main_v15
/-- Their blocks at point `t`, at their literal shapes. -/
abbrev lin1_xblk (c : Dev nD) (t : Fin cfg0.N) : FVec Ideal S4000x128 .f32 := iblk0 V c 0 t
abbrev lin1_wblk (c : Dev nD) (t : Fin cfg0.N) : FVec Ideal S128x64 .f32 := iblk0 V c 1 t
abbrev lin1_dblk (c : Dev nD) (t : Fin cfg0.N) : FVec Ideal S4000x1 .f32 := iblk0 V c 2 t

/-- The index maps over the 25 points: the blocks of `x`, of `d` and of the result are row block `t`, column block 0;
    the block of `W` is always block (0, 0). -/
theorem block_index_lin1 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of `x`'s block at point `t` is row `4000 t + p` of `x`. -/
theorem xblk_apply (c : Dev nD) (t : Fin cfg0.N) (p : Fin 4000) (k : Fin 128) (r : Fin 100000) (hr : r.val = t.val * 4000 + p.val) :
    lin1_xblk V c t (ix2 p k) = lin1_x V c (ix2 r k) := by
  obtain ⟨e00, e01, -⟩ := block_index_lin1 t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 4000 + 1 * p.val = r.val; omega
  | ⟨1, _⟩ => show win0_0.index t (1 : Fin 2) * 128 + 1 * k.val = k.val; omega

/-- `W`'s block at every point is `W`. -/
theorem wblk_apply (c : Dev nD) (t : Fin cfg0.N) (k : Fin 128) (q : Fin 64) :
    lin1_wblk V c t (ix2 k q) = lin1_w V c (ix2 k q) := by
  obtain ⟨-, -, e10, e11, -⟩ := block_index_lin1 t
  show V c main_arg3 (((cfg0.win 1).blk t).view.emb (ix2 k q)) = V c main_arg3 (ix2 k q)
  refine congrArg (V c main_arg3) (funext fun a => Fin.ext ?_)
  match a with
  | ⟨0, _⟩ => show win0_1.index t (0 : Fin 2) * 128 + 1 * k.val = k.val; omega
  | ⟨1, _⟩ => show win0_1.index t (1 : Fin 2) * 64 + 1 * q.val = q.val; omega

/-- Row `p` of `d`'s block at point `t` is row `4000 t + p` of `d`. -/
theorem dblk_apply (c : Dev nD) (t : Fin cfg0.N) (p : Fin 4000) (r : Fin 100000) (hr : r.val = t.val * 4000 + p.val) :
    lin1_dblk V c t (ix2 p 0) = lin1_d V c (ix2 r 0) := by
  obtain ⟨-, -, -, -, e20, e21, -⟩ := block_index_lin1 t
  show V c main_v15 (((cfg0.win 2).blk t).view.emb (ix2 p 0)) = V c main_v15 (ix2 r 0)
  refine congrArg (V c main_v15) (funext fun a => Fin.ext ?_)
  match a with
  | ⟨0, _⟩ => show win0_2.index t (0 : Fin 2) * 4000 + 1 * p.val = r.val; omega
  | ⟨1, _⟩ => show win0_2.index t (1 : Fin 2) * 1 + 1 * 0 = 0; omega

/-- What point `t` writes back is block `t` of `lin1 x W d`. -/
theorem flushed_lin1 (c : Dev nD) (t : Fin cfg0.N) :
    (dat0 (F := Ideal) V c).flushed 3 t
      = ((cfg0.win 3).blk t).view.read (Elt Ideal) (Cert.Gcn.lin1 (V c main_arg0) (V c main_arg3) (V c main_v15)) := by
  show (cfg0.win 3).cut (grid0.coords t) ((dat0 (F := Ideal) V c).after 3 t) = _
  rw [after0_3]
  unfold out0_3
  rw [View.canon_unit_zero zero_offsets_lin1]
  simp only [View.ld_unit_zero (S := S4000x128) zero_offsets_lin1, View.ld_unit_zero (S := S128x64) zero_offsets_lin1,
    View.ld_unit_zero (S := S4000x1) zero_offsets_lin1]
  obtain ⟨-, -, -, -, -, -, e30, e31⟩ := block_index_lin1 t
  have hN : cfg0.N = 25 := N_0
  have ht : t.val < 25 := lt_of_lt_of_eq t.isLt hN
  refine funext fun (j : S4000x64.Idx) => ?_
  obtain ⟨p, q, rfl⟩ : ∃ (p : Fin 4000) (q : Fin 64), j = ix2 p q := ⟨j 0, j 1, eq_ix2 j⟩
  have hp : p.val < 4000 := p.isLt
  have hr : ∃ r : Fin 100000, r.val = t.val * 4000 + p.val := ⟨⟨t.val * 4000 + p.val, by omega⟩, rfl⟩
  obtain ⟨r, hr⟩ := hr
  have h3 : ((cfg0.win 3).blk t).view.emb (ix2 p q) = ix2 r q := by
    refine funext fun a => Fin.ext ?_
    match a with
    | ⟨0, _⟩ => show win0_3.index t (0 : Fin 2) * 4000 + 1 * p.val = r.val; omega
    | ⟨1, _⟩ => show win0_3.index t (1 : Fin 2) * 64 + 1 * q.val = q.val; omega
  show k0_pay1 (F := Ideal) (lin1_xblk V c t) (lin1_wblk V c t) (lin1_dblk V c t) (ix2 p q)
      = Cert.Gcn.lin1 (lin1_x V c) (lin1_w V c) (lin1_d V c) (((cfg0.win 3).blk t).view.emb (ix2 p q))
  rw [h3]
  refine (pay_lin1_apply (lin1_xblk V c t) (lin1_wblk V c t) (lin1_dblk V c t) p q).trans ?_
  show (∑ k : Fin 128, lin1_xblk V c t (ix2 p k) * lin1_wblk V c t (ix2 k q)) * lin1_dblk V c t (ix2 p 0)
      = (∑ k : Fin 128, lin1_x V c (ix2 r k) * lin1_w V c (ix2 k q)) * lin1_d V c (ix2 r 0)
  rw [dblk_apply V c t p r hr]
  refine congrArg (· * lin1_d V c (ix2 r 0)) (Finset.sum_congr rfl fun k _ => ?_)
  rw [xblk_apply V c t p k r hr, wblk_apply V c t k q]

/-- An index of the result lies in point `t`'s block iff each coordinate lies in the block's range on its axis. -/
theorem mem_blk_lin1 (t : Fin cfg0.N) (i : S100000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v16).slice (win0_3.rect t)).set ↔ _
  rw [View.set_slice_whole, Rect.mem_set_unit]
  exact Iff.rfl

/-- Row `r` of the result lies in the block of point `r / 4000`. -/
theorem cover_lin1 (i : S100000x64.Idx) :
    ∃ t : Fin cfg0.N, (cfg0.win 3).flush t = true ∧ i ∈ ((cfg0.win 3).blk t).view.set := by
  have hN : cfg0.N = 25 := N_0
  have hi0 : (i 0).val < 100000 := (i 0).isLt
  have hi1 : (i 1).val < 64 := (i 1).isLt
  have hq : (i 0).val / 4000 < 25 := by omega
  obtain ⟨t, ht⟩ : ∃ t : Fin cfg0.N, t.val = (i 0).val / 4000 := ⟨⟨(i 0).val / 4000, lt_of_lt_of_eq hq hN.symm⟩, rfl⟩
  obtain ⟨-, -, -, -, -, -, e30, e31⟩ := block_index_lin1 t
  refine ⟨t, flush0_3 t, ?_⟩
  rw [mem_blk_lin1]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 64 ≤ (i 1).val ∧ (i 1).val < win0_3.index t (1 : Fin 2) * 64 + 64; omega

/-- The result array after the first call: `(x · W) r q · d r` at every index. -/
theorem region0_value (c : Dev nD) :
    (dat0 (F := Ideal) V c).arrAt 3 cfg0.N = Cert.Gcn.lin1 (V c main_arg0) (V c main_arg3) (V c main_v15) :=
  (dat0 (F := Ideal) V c).arrAt_eq_of_cover 3 (Cert.Gcn.lin1 (V c main_arg0) (V c main_arg3) (V c main_v15))
    (fun t _ => flushed_lin1 V c t) cover_lin1

end Cert.KernelIdeal.KV

end
-- ==== Proof.R1.lean ====
/-
  The second dense stage as ONE function of whole arrays.  Block `t` (4000 rows) of the result is
  `relu (d r · a r k + b k)` of block `t` of the summed messages, times the whole second weight matrix, each row scaled
  by `d r`.  The 25 blocks tile the rows, so the array after the call is `mid a d b W`.
-/
import proofs.«401887_j19069654794648_2_alg».proof.Proof.Gen.KernelIdeal.Frame
import proofs.«401887_j19069654794648_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Idealize.ShloMosaic Idealize.ShloMosaic.TcCoe Idealize.SL.Sem Idealize.ShloMosaic.ValueIdx
open Cert.KernelIdeal Cert.KernelIdeal.Gen
open Idealize.ShloMosaic.Pipeline (Dat Cfg Window)
open scoped BigOperators

-- the TensorCore's buffer contents when the region is entered
variable (V : (c : Dev nD) → (b : Ref sig .tc) → Buf (Elt Ideal) ((c : Thread nD τ).loc b))

/-! ## The contraction of the block's matrix product, axis by axis -/

theorem lhs_mid_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem lhs_mid_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
theorem rhs_mid_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
theorem rhs_mid_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- A block's matrix product into the zero accumulator, at an index: the sum over the 64 columns of the left factor. -/
theorem matmul_mid_apply (l : FVec Ideal S4000x64 .bf16) (r : FVec Ideal S64x64 .bf16) (p : Fin 4000) (q : Fin 64) :
    FloatOps.matmul dot_S4000x64_S64x64_S4000x64_1_0_0_1_n_n none l r (constant S4000x64 .f32 0x00000000#32) (ix2 p q)
      = ∑ k : Fin 64, l (ix2 p k) * r (ix2 k q) := by
  rw [Ideal.matmul_constant_zero_apply, ← Equiv.sum_comp (ValueIdx.contrEquiv1 dot_S4000x64_S64x64_S4000x64_1_0_0_1_n_n 64 rfl rfl).symm]
  refine Finset.sum_congr rfl fun k _ => ?_
  have hk := ValueIdx.contrEquiv1_symm_val dot_S4000x64_S64x64_S4000x64_1_0_0_1_n_n 64 rfl rfl k
  have el : dot_S4000x64_S64x64_S4000x64_1_0_0_1_n_n.lhsIdx (ix2 p q) ((ValueIdx.contrEquiv1 dot_S4000x64_S64x64_S4000x64_1_0_0_1_n_n 64 rfl rfl).symm k) = ix2 p k := funext fun a => Fin.ext (by
    match a with
    | ⟨0, _⟩ => exact lhs_mid_0 _ _
    | ⟨1, _⟩ => exact (lhs_mid_1 _ _).trans hk)
  have er : dot_S4000x64_S64x64_S4000x64_1_0_0_1_n_n.rhsIdx (ix2 p q) ((ValueIdx.contrEquiv1 dot_S4000x64_S64x64_S4000x64_1_0_0_1_n_n 64 rfl rfl).symm k) = ix2 k q := funext fun a => Fin.ext (by
    match a with
    | ⟨0, _⟩ => exact (rhs_mid_0 _ _).trans hk
    | ⟨1, _⟩ => exact rhs_mid_1 _ _)
  rw [el, er]

/-- The column `d` spread over the 64 features, at an index. -/
theorem mid_bcast_col_apply (x : FVec Ideal S4000x1 .f32) (p : Fin 4000) (q : Fin 64) :
    broadcastTo S4000x64 x broadcasts_S4000x1_S4000x64 (ix2 p q) = x (ix2 p 0) :=
  broadcastTo_apply x broadcasts_S4000x1_S4000x64 (ix2 p q) (ix2 p 0) (fun a => by
    match a with
    | ⟨0, _⟩ => rfl
    | ⟨1, _⟩ => rfl)

/-- The bias row spread over the 4000 rows, at an index. -/
theorem mid_bcast_row_apply (x : FVec Ideal S1x64 .f32) (p : Fin 4000) (q : Fin 64) :
    broadcastTo S4000x64 x broadcasts_S1x64_S4000x64 (ix2 p q) = x (ix2 0 q) :=
  broadcastTo_apply x broadcasts_S1x64_S4000x64 (ix2 p q) (ix2 0 q) (fun a => by
    match a with
    | ⟨0, _⟩ => rfl
    | ⟨1, _⟩ => rfl)

/-- The body's arithmetic on one block, at an index. -/
theorem mid_pay_apply (x0 : Vec Ideal S4000x64 .f32) (x1 : Vec Ideal S4000x1 .f32) (x2 : Vec Ideal S1x64 .f32) (x3 : Vec Ideal S64x64 .f32)
    (p : Fin 4000) (q : Fin 64) :
    k1_pay1 x0 x1 x2 x3 (ix2 p q)
      = (∑ k : Fin 64, max (x1 (ix2 p 0) * x0 (ix2 p k) + x2 (ix2 0 k)) 0 * x3 (ix2 k q)) * x1 (ix2 p 0) := by
  unfold k1_pay1
  simp only [shapeCast_self]
  rw [truncf_apply, mulf_apply, mid_bcast_col_apply]
  refine congrArg (· * x1 (ix2 p 0)) ?_
  refine (matmul_mid_apply _ _ p q).trans ?_
  refine Finset.sum_congr rfl fun k _ => ?_
  rw [truncf_apply, truncf_apply, maximumf_apply, addf_apply, mulf_apply, mid_bcast_col_apply, mid_bcast_row_apply, broadcast_apply]
  exact congrArg (fun z => max (x1 (ix2 p 0) * x0 (ix2 p k) + x2 (ix2 0 k)) z * x3 (ix2 k q)) Ideal.ofBits_zero_f32

/-! ## From the blocks to the array -/

theorem mid_hz : (![0, 0] : Fin 2 → Nat) = fun _ => 0 := funext fun a => by fin_cases a <;> rfl

/-- The windows' index maps at every grid point: windows 0, 1 and 4 sit at row block `t`, windows 2 and 3 at
    block (0, 0). -/
theorem mid_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- One block of the stage from the blocks of its operands: block `n` holds rows `4000 n + p`. -/
theorem mid_block_eq (A : FVec Ideal S100000x64 .f32) (D : FVec Ideal S100000x1 .f32) (B : FVec Ideal S1x64 .f32) (W : FVec Ideal S64x64 .f32)
    (x0 : Vec Ideal S4000x64 .f32) (x1 : Vec Ideal S4000x1 .f32) (x2 : Vec Ideal S1x64 .f32) (x3 : Vec Ideal S64x64 .f32)
    (n : Nat)
    (h0 : ∀ (p : Fin 4000) (k : Fin 64) (r : Fin 100000), r.val = n * 4000 + p.val → x0 (ix2 p k) = A (ix2 r k))
    (h1 : ∀ (p : Fin 4000) (r : Fin 100000), r.val = n * 4000 + p.val → x1 (ix2 p 0) = D (ix2 r 0))
    (h2 : ∀ k : Fin 64, x2 (ix2 0 k) = B (ix2 0 k))
    (h3 : ∀ (k q : Fin 64), x3 (ix2 k q) = W (ix2 k q))
    (j : S4000x64.Idx) (i : S100000x64.Idx) (hi0 : (i 0).val = n * 4000 + (j 0).val) (hi1 : (i 1).val = (j 1).val) :
    k1_pay1 x0 x1 x2 x3 j = Cert.Gcn.mid A D B W i := by
  obtain ⟨p, q, rfl⟩ : ∃ (p : Fin 4000) (q : Fin 64), j = ix2 p q := ⟨j 0, j 1, eq_ix2 j⟩
  obtain ⟨r, q', rfl⟩ : ∃ (r : Fin 100000) (q' : Fin 64), i = ix2 r q' := ⟨i 0, i 1, eq_ix2 i⟩
  have hr : r.val = n * 4000 + p.val := hi0
  obtain rfl : q' = q := Fin.ext hi1
  rw [mid_pay_apply]
  unfold Cert.Gcn.mid
  rw [Cert.Gcn.unc2_ix2, h1 p r hr]
  refine congrArg (· * D (ix2 r 0)) (Finset.sum_congr rfl fun k _ => ?_)
  rw [h0 p k r hr, h2 k, h3 k _]

/-- Window 0's block at point `t` is rows `4000 t …` of the summed messages. -/
theorem mid_blk0_apply (c : Dev nD) (t : Fin cfg1.N) (p : Fin 4000) (k : Fin 64) (r : Fin 100000) (hr : r.val = t.val * 4000 + p.val) :
    (iblk1 V c 0 t : Vec Ideal S4000x64 .f32) (ix2 p k) = (V c main_v27 : FVec Ideal S100000x64 .f32) (ix2 r k) := by
  obtain ⟨e0, e1, -⟩ := mid_idx_facts t
  unfold iblk1
  rw [View.read_apply]
  show V c main_v27 _ = V c main_v27 _
  congr 1
  funext a
  apply Fin.ext
  match a with
  | ⟨0, _⟩ => show win1_0.index t (0 : Fin 2) * 4000 + 1 * p.val = r.val; rw [e0, hr]; omega
  | ⟨1, _⟩ => show win1_0.index t (1 : Fin 2) * 64 + 1 * k.val = k.val; rw [e1]; omega

/-- Window 1's block at point `t` is rows `4000 t …` of the column. -/
theorem mid_blk1_apply (c : Dev nD) (t : Fin cfg1.N) (p : Fin 4000) (r : Fin 100000) (hr : r.val = t.val * 4000 + p.val) :
    (iblk1 V c 1 t : Vec Ideal S4000x1 .f32) (ix2 p 0) = (V c main_v15 : FVec Ideal S100000x1 .f32) (ix2 r 0) := by
  obtain ⟨-, -, e0, e1, -⟩ := mid_idx_facts t
  unfold iblk1
  rw [View.read_apply]
  show V c main_v15 _ = V c main_v15 _
  congr 1
  funext a
  apply Fin.ext
  match a with
  | ⟨0, _⟩ => show win1_1.index t (0 : Fin 2) * 4000 + 1 * p.val = r.val; rw [e0, hr]; omega
  | ⟨1, _⟩ => show win1_1.index t (1 : Fin 2) * 1 + 1 * 0 = 0; rw [e1]

/-- Window 2's block is the whole bias row at every point. -/
theorem mid_blk2_apply (c : Dev nD) (t : Fin cfg1.N) (k : Fin 64) :
    (iblk1 V c 2 t : Vec Ideal S1x64 .f32) (ix2 0 k) = (V c main_v28 : FVec Ideal S1x64 .f32) (ix2 0 k) := by
  obtain ⟨-, -, -, -, e0, e1, -⟩ := mid_idx_facts t
  unfold iblk1
  rw [View.read_apply]
  show V c main_v28 _ = V c main_v28 _
  congr 1
  funext a
  apply Fin.ext
  match a with
  | ⟨0, _⟩ => show win1_2.index t (0 : Fin 2) * 1 + 1 * 0 = 0; rw [e0]
  | ⟨1, _⟩ => show win1_2.index t (1 : Fin 2) * 64 + 1 * k.val = k.val; rw [e1]; omega

/-- Window 3's block is the whole weight matrix at every point. -/
theorem mid_blk3_apply (c : Dev nD) (t : Fin cfg1.N) (k q : Fin 64) :
    (iblk1 V c 3 t : Vec Ideal S64x64 .f32) (ix2 k q) = (V c main_arg5 : FVec Ideal S64x64 .f32) (ix2 k q) := by
  obtain ⟨-, -, -, -, -, -, e0, e1, -⟩ := mid_idx_facts t
  unfold iblk1
  rw [View.read_apply]
  show V c main_arg5 _ = V c main_arg5 _
  congr 1
  funext a
  apply Fin.ext
  match a with
  | ⟨0, _⟩ => show win1_3.index t (0 : Fin 2) * 64 + 1 * k.val = k.val; rw [e0]; omega
  | ⟨1, _⟩ => show win1_3.index t (1 : Fin 2) * 64 + 1 * q.val = q.val; rw [e1]; omega

/-- What point `t` writes back is block `t` of the stage of the arrays as the call finds them. -/
theorem mid_flushed_eq (c : Dev nD) (t : Fin cfg1.N) :
    (dat1 V c).flushed 4 t = ((cfg1.win 4).blk t).view.read (Elt Ideal)
      (Cert.Gcn.mid (V c main_v27) (V c main_v15) (V c main_v28) (V c main_arg5)) := by
  show (cfg1.win 4).cut (grid1.coords t) ((dat1 V c).after 4 t) = _
  rw [after1_4]
  unfold out1_4
  rw [View.canon_unit_zero mid_hz]
  simp only [View.ld_unit_zero (S := S4000x64) mid_hz, View.ld_unit_zero (S := S4000x1) mid_hz, View.ld_unit_zero (S := S1x64) mid_hz, View.ld_unit_zero (S := S64x64) mid_hz]
  obtain ⟨-, -, -, -, -, -, -, -, e0, e1⟩ := mid_idx_facts t
  funext j
  show k1_pay1 (iblk1 V c 0 t) (iblk1 V c 1 t) (iblk1 V c 2 t) (iblk1 V c 3 t) j
    = Cert.Gcn.mid (V c main_v27) (V c main_v15) (V c main_v28) (V c main_arg5) (((cfg1.win 4).blk t).view.emb j)
  refine mid_block_eq (V c main_v27) (V c main_v15) (V c main_v28) (V c main_arg5)
    (iblk1 V c 0 t) (iblk1 V c 1 t) (iblk1 V c 2 t) (iblk1 V c 3 t) t.val
    (fun p k r hr => mid_blk0_apply V c t p k r hr) (fun p r hr => mid_blk1_apply V c t p r hr)
    (fun k => mid_blk2_apply V c t k) (fun k q => mid_blk3_apply V c t k q)
    j (((cfg1.win 4).blk t).view.emb j) ?_ ?_
  · show win1_4.index t (0 : Fin 2) * 4000 + 1 * (j 0).val = t.val * 4000 + (j 0).val
    rw [e0]; omega
  · show win1_4.index t (1 : Fin 2) * 64 + 1 * (j 1).val = (j 1).val
    rw [e1]; omega

/-- An index of the array is in point `t`'s block iff each coordinate is in the block's range on its axis. -/
theorem mid_mem_blk (t : Fin cfg1.N) (i : S100000x64.Idx) :
    i ∈ ((cfg1.win 4).blk t).view.set ↔ ∀ a : Fin 2, win1_4.index t a * S4000x64.size a ≤ (i a).val ∧ (i a).val < win1_4.index t a * S4000x64.size a + S4000x64.size a := by
  show i ∈ ((View.whole main_v29).slice (win1_4.rect t)).set ↔ _
  rw [View.set_slice_whole, Rect.mem_set_unit]
  exact Iff.rfl

/-- The 25 blocks tile the rows: row `r` is in the block of point `r / 4000`. -/
theorem mid_cover (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 25 := N_1
  have ht : (i 0).val / 4000 < cfg1.N := (by omega : (i 0).val / 4000 < 25).trans_eq hN.symm
  obtain ⟨-, -, -, -, -, -, -, -, e0, e1⟩ := mid_idx_facts ⟨(i 0).val / 4000, ht⟩
  refine ⟨⟨(i 0).val / 4000, ht⟩, flush1_4 _, ?_⟩
  rw [mid_mem_blk]
  intro a
  match a with
  | ⟨0, _⟩ =>
    show win1_4.index ⟨(i 0).val / 4000, ht⟩ (0 : Fin 2) * 4000 ≤ (i 0).val ∧ (i 0).val < win1_4.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win1_4.index ⟨(i 0).val / 4000, ht⟩ (1 : Fin 2) * 64 ≤ (i 1).val ∧ (i 1).val < win1_4.index ⟨(i 0).val / 4000, ht⟩ (1 : Fin 2) * 64 + 64
    rw [e1]
    omega

/-- The result array after the second call. -/
theorem region1_value (c : Dev nD) :
    (dat1 (F := Ideal) V c).arrAt 4 cfg1.N = Cert.Gcn.mid (V c main_v27) (V c main_v15) (V c main_v28) (V c main_arg5) :=
  (dat1 V c).arrAt_eq_of_cover 4 (Cert.Gcn.mid (V c main_v27) (V c main_v15) (V c main_v28) (V c main_arg5))
    (fun t _ => mid_flushed_eq V c t) mid_cover

end Cert.KernelIdeal.KV

end
-- ==== Proof.Tiles.lean ====
/-
  A sum over 102400 consecutive numbers, taken 25 blocks of 4096 at a time.
-/
import Mathlib.Algebra.BigOperators.Fin
import Mathlib.Algebra.BigOperators.Intervals

namespace Cert.Gcn

open scoped BigOperators

/-- The same over initial segments of the naturals, up to any number of whole blocks. -/
theorem sum_tiles_range {M : Type} [AddCommMonoid M] (f : ℕ → M) (T : ℕ) :
    ∑ n ∈ Finset.range (T * 4096), f n = ∑ s ∈ Finset.range T, ∑ y ∈ Finset.range 4096, f (s * 4096 + y) := by
  induction T with
  | zero => rw [Nat.zero_mul, Finset.sum_range_zero, Finset.sum_range_zero]
  | succ T ih =>
    -- the first `T` blocks, then the block that starts at `4096 T`
    rw [Nat.succ_mul, Finset.sum_range_add, ih]
    exact (Finset.sum_range_succ (fun s => ∑ y ∈ Finset.range 4096, f (s * 4096 + y)) T).symm

/-- A function of the first 102400 numbers, continued by zero. -/
def past {M : Type} [AddCommMonoid M] (f : Fin 102400 → M) : ℕ → M :=
  fun n => if h : n < 102400 then f ⟨n, h⟩ else 0

theorem past_of_lt {M : Type} [AddCommMonoid M] (f : Fin 102400 → M) (n : ℕ) (h : n < 102400) :
    past f n = f ⟨n, h⟩ := dif_pos h

/-- Block by block: `n = 4096 s + y`. -/
theorem sum_tiles {M : Type} [AddCommMonoid M] (f : Fin 102400 → M) :
    ∑ n : Fin 102400, f n = ∑ s : Fin 25, ∑ y : Fin 4096, f ⟨s.val * 4096 + y.val, by have := s.isLt; have := y.isLt; omega⟩ := by
  calc ∑ n : Fin 102400, f n
      = ∑ n : Fin 102400, past f n.val := Finset.sum_congr rfl fun n _ => (past_of_lt f n.val n.isLt).symm
    _ = ∑ n ∈ Finset.range (25 * 4096), past f n := (Finset.sum_range (past f)).symm
    _ = ∑ s ∈ Finset.range 25, ∑ y ∈ Finset.range 4096, past f (s * 4096 + y) := sum_tiles_range (past f) 25
    _ = ∑ s : Fin 25, ∑ y : Fin 4096, past f (s.val * 4096 + y.val) := by
        rw [Finset.sum_range]
        exact Finset.sum_congr rfl fun s _ => Finset.sum_range fun y => past f (s.val * 4096 + y)
    _ = ∑ s : Fin 25, ∑ y : Fin 4096, f ⟨s.val * 4096 + y.val, by have := s.isLt; have := y.isLt; omega⟩ :=
        Finset.sum_congr rfl fun s _ => Finset.sum_congr rfl fun y _ => past_of_lt f _ _

end Cert.Gcn
-- ==== Proof.R2.lean ====
/-
  The pooling stage as ONE function of whole arrays.  The call walks 25 blocks of 4096 (padded) nodes and keeps ONE
  256 × 64 result block across them: the first point clears it, and every point adds, per graph `g`, the sum over its
  4096 nodes of `onehot (graph of node) g · relu (d n · a n q + b q)`.  After the last point the block holds the sum
  over all 102400 padded nodes: `poolSum`.

  The one-hot factor is a comparison of the row number `g` with the node's graph number, widened and converted: the
  extended real `1` where they agree and `0` elsewhere.  The product with the 4096 × 64 activations into a zero
  accumulator is a sum over the 4096 nodes.  What the block holds after point `n` is, entry by entry, the sum of the
  addends of points `0 … n` (induction on the point); at the last point the 25 sums of 4096 terms are one sum over the
  102400 nodes, `n = 4096 s + y`.  The block is written back once, after the last point, and it is the whole array.
-/
import proofs.«401887_j19069654794648_2_alg».proof.Proof.Gen.KernelIdeal.Frame
import proofs.«401887_j19069654794648_2_alg».proof.Proof.Spec
import proofs.«401887_j19069654794648_2_alg».proof.Proof.Tiles
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Idealize.ShloMosaic Idealize.ShloMosaic.TcCoe Idealize.SL.Sem Idealize.ShloMosaic.ValueIdx
open Cert.KernelIdeal Cert.KernelIdeal.Gen
open Idealize.ShloMosaic.Pipeline (Dat Cfg Window)
open scoped BigOperators

section Pieces
variable {F : FTy → Type} [FloatOps F]

theorem pool_hz2 : (![0, 0] : Fin 2 → Nat) = fun _ => 0 := funext fun a => by fin_cases a <;> rfl
theorem pool_hz1 : (![0] : Fin 1 → Nat) = fun _ => 0 := funext fun a => by fin_cases a; rfl

/-- A later point: the block's one covering store holds the payload of the four input blocks and of what the block held. -/
theorem pool_out_B (c : Dev nD) (i : grid2.Coords) (a1 : Memref sig .tc .vmem S4096 .i32) (h1 : a1.IsWhole)
    (a2 : Memref sig .tc .vmem S4096x64 .f32) (h2 : a2.IsWhole) (a3 : Memref sig .tc .vmem S4096x1 .f32) (h3 : a3.IsWhole)
    (a4 : Memref sig .tc .vmem S1x64 .f32) (h4 : a4.IsWhole) (a5 : Memref sig .tc .vmem S256x64 .f32) (h5 : a5.IsWhole)
    (hc : ¬cond2_0 i) (x0 : Vec F S4096 .i32) (x1 : Vec F S4096x64 .f32) (x2 : Vec F S4096x1 .f32) (x3 : Vec F S1x64 .f32)
    (xo : Vec F S256x64 .f32) :
    out2_B_4 c i a1 h1 a2 h2 a3 h3 a4 h4 a5 h5 hc x0 x1 x2 x3 xo = k2_pay2 x2 x1 x3 x0 xo := by
  unfold out2_B_4
  rw [View.read_writes_eq_canon _ _ _ (cover2_B_4 c i a1 h1 a2 h2 a3 h3 a4 h4 a5 h5 hc x0 x1 x2 x3 xo)]
  unfold kernelRun2_B
  dsimp only
  sl_unfold_words
  rw [View.canon_unit_zero pool_hz2]
  simp only [View.readAt_eq_ld, h1.read_unread, h2.read_unread, h3.read_unread, h4.read_unread, h5.read_unread,
    View.ld_unit_zero (S := S4096) pool_hz1, View.ld_unit_zero (S := S4096x64) pool_hz2, View.ld_unit_zero (S := S4096x1) pool_hz2,
    View.ld_unit_zero (S := S1x64) pool_hz2, View.ld_unit_zero (S := S256x64) pool_hz2]

/-- The first point: the block is cleared, read back, and the same payload stored over the cleared block. -/
theorem pool_out_A (c : Dev nD) (i : grid2.Coords) (a1 : Memref sig .tc .vmem S4096 .i32) (h1 : a1.IsWhole)
    (a2 : Memref sig .tc .vmem S4096x64 .f32) (h2 : a2.IsWhole) (a3 : Memref sig .tc .vmem S4096x1 .f32) (h3 : a3.IsWhole)
    (a4 : Memref sig .tc .vmem S1x64 .f32) (h4 : a4.IsWhole) (a5 : Memref sig .tc .vmem S256x64 .f32) (h5 : a5.IsWhole)
    (hc : cond2_0 i) (x0 : Vec F S4096 .i32) (x1 : Vec F S4096x64 .f32) (x2 : Vec F S4096x1 .f32) (x3 : Vec F S1x64 .f32) :
    out2_A_4 c i a1 h1 a2 h2 a3 h3 a4 h4 a5 h5 hc x0 x1 x2 x3 = k2_pay2 x2 x1 x3 x0 (k2_pay1 (F := F)) := by
  unfold out2_A_4
  rw [View.read_writes_eq_canon _ _ _ (cover2_A_4 c i a1 h1 a2 h2 a3 h3 a4 h4 a5 h5 hc x0 x1 x2 x3)]
  unfold kernelRun2_A
  dsimp only
  sl_unfold_words
  rw [View.canon_cons_unit_zero (S := S256x64) pool_hz2, View.readCov_unit_zero (S := S256x64) _ pool_hz2]
  simp only [View.readAt_eq_ld, h1.read_unread, h2.read_unread, h3.read_unread, h4.read_unread,
    View.ld_unit_zero (S := S4096) pool_hz1, View.ld_unit_zero (S := S4096x64) pool_hz2, View.ld_unit_zero (S := S4096x1) pool_hz2,
    View.ld_unit_zero (S := S1x64) pool_hz2]
end Pieces

section Payload

/-- A column spread over many columns reads, at `(p, c)`, the column's entry at `p`. -/
theorem pool_bcast_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs_pool_0 (i : S256x64.Idx) (q : dot_S256x4096_S4096x64_S256x64_1_0_0_1_n_n.contr.Idx) :
    (dot_S256x4096_S4096x64_S256x64_1_0_0_1_n_n.lhsIdx i q 0).val = (i 0).val := by
  unfold DotDims.lhsIdx
  rw [dif_neg (show ¬(0 : Fin S256x4096.rank) ∈ dot_S256x4096_S4096x64_S256x64_1_0_0_1_n_n.lhsBatch by decide), dif_pos (show (0 : Fin S256x4096.rank) ∈ dot_S256x4096_S4096x64_S256x64_1_0_0_1_n_n.lhsNonContracting by decide)]
  rfl
theorem lhs_pool_1 (i : S256x64.Idx) (q : dot_S256x4096_S4096x64_S256x64_1_0_0_1_n_n.contr.Idx) :
    (dot_S256x4096_S4096x64_S256x64_1_0_0_1_n_n.lhsIdx i q 1).val = (q ⟨0, by decide⟩).val :=
  dot_S256x4096_S4096x64_S256x64_1_0_0_1_n_n.lhsIdx_val_of_single rfl i q
theorem rhs_pool_0 (i : S256x64.Idx) (q : dot_S256x4096_S4096x64_S256x64_1_0_0_1_n_n.contr.Idx) :
    (dot_S256x4096_S4096x64_S256x64_1_0_0_1_n_n.rhsIdx i q 0).val = (q ⟨0, by decide⟩).val :=
  dot_S256x4096_S4096x64_S256x64_1_0_0_1_n_n.rhsIdx_val_of_single rfl i q
theorem rhs_pool_1 (i : S256x64.Idx) (q : dot_S256x4096_S4096x64_S256x64_1_0_0_1_n_n.contr.Idx) :
    (dot_S256x4096_S4096x64_S256x64_1_0_0_1_n_n.rhsIdx i q 1).val = (i 1).val := by
  unfold DotDims.rhsIdx
  rw [dif_neg (show ¬(1 : Fin S4096x64.rank) ∈ dot_S256x4096_S4096x64_S256x64_1_0_0_1_n_n.rhsBatch by decide), dif_pos (show (1 : Fin S4096x64.rank) ∈ dot_S256x4096_S4096x64_S256x64_1_0_0_1_n_n.rhsNonContracting by decide)]
  rfl

/-- The compare-widen-convert chain on two words is the indicator of their equality. -/
theorem pool_onehot_word (w : BitVec 32) (g : Fin 256) :
    (FloatOps.sitofp (F := Ideal) .f32 ((IntOp.cmpi .eq (BitVec.ofNat 32 g.val) w).setWidth 32) : EReal) = Cert.Gcn.onehot w g := by
  unfold Cert.Gcn.onehot
  by_cases h : w = BitVec.ofNat 32 g.val
  · subst h
    rw [if_pos rfl]
    have e : IntOp.cmpi .eq (BitVec.ofNat 32 g.val) (BitVec.ofNat 32 g.val) = 1#1 := by
      simp [IntOp.cmpi]
    rw [e]
    show (((BitVec.setWidth 32 1#1).toInt : ℝ) : EReal) = 1
    rw [show (BitVec.setWidth 32 1#1).toInt = 1 from by decide]
    simp
  · rw [if_neg h]
    have e : IntOp.cmpi .eq (BitVec.ofNat 32 g.val) w = 0#1 := by
      have hb : (BitVec.ofNat 32 g.val == w) = false := beq_eq_false_iff_ne.mpr fun e => h e.symm
      simp only [IntOp.cmpi, hb]
      rfl
    rw [e]
    show (((BitVec.setWidth 32 0#1).toInt : ℝ) : EReal) = 0
    rw [show (BitVec.setWidth 32 0#1).toInt = 0 from by decide]
    simp

/-- The stored payload at `(g, q)`: what the block held there, plus the sum over the point's 4096 nodes of the
    indicator "node `k` belongs to graph `g`" times the node's activation `relu (d k · a k q + b q)`. -/
theorem pool_pay_apply (v3 : FVec Ideal S4096x1 .f32) (v5 : FVec Ideal S4096x64 .f32) (v9 : FVec Ideal S1x64 .f32)
    (v15 : IVec S4096 32) (v26 : FVec Ideal S256x64 .f32) (g : Fin 256) (q : Fin 64) :
    k2_pay2 (F := Ideal) v3 v5 v9 v15 v26 (ix2 g q)
      = v26 (ix2 g q) + ∑ k : Fin 4096, Cert.Gcn.onehot (v15 (ix1 k)) g
          * max (v3 (ix2 k 0) * v5 (ix2 k q) + v9 (ix2 0 q)) 0 := by
  unfold k2_pay2
  dsimp only
  refine (addf_apply _ _ _).trans ?_
  refine congrArg₂ (· + ·) (congrFun (shapeCast_self v26 _) _) ?_
  refine (Ideal.matmul_constant_zero_apply dot_S256x4096_S4096x64_S256x64_1_0_0_1_n_n none _ _ (ix2 g q)).trans ?_
  rw [← Equiv.sum_comp (ValueIdx.contrEquiv1 dot_S256x4096_S4096x64_S256x64_1_0_0_1_n_n 4096 rfl rfl).symm]
  refine Finset.sum_congr rfl fun k _ => ?_
  have hk := ValueIdx.contrEquiv1_symm_val dot_S256x4096_S4096x64_S256x64_1_0_0_1_n_n 4096 rfl rfl k
  have el : dot_S256x4096_S4096x64_S256x64_1_0_0_1_n_n.lhsIdx (ix2 g q) ((ValueIdx.contrEquiv1 dot_S256x4096_S4096x64_S256x64_1_0_0_1_n_n 4096 rfl rfl).symm k) = ix2 g k := funext fun a => Fin.ext (by
    match a with
    | ⟨0, _⟩ => exact lhs_pool_0 _ _
    | ⟨1, _⟩ => exact (lhs_pool_1 _ _).trans hk)
  have er : dot_S256x4096_S4096x64_S256x64_1_0_0_1_n_n.rhsIdx (ix2 g q) ((ValueIdx.contrEquiv1 dot_S256x4096_S4096x64_S256x64_1_0_0_1_n_n 4096 rfl rfl).symm k) = ix2 k q := funext fun a => Fin.ext (by
    match a with
    | ⟨0, _⟩ => exact (rhs_pool_0 _ _).trans hk
    | ⟨1, _⟩ => exact rhs_pool_1 _ _)
  rw [el, er]
  refine congrArg₂ (· * ·) ?_ ?_
  · -- the indicator: row `g` of the iota is the word of `g`, column `k` of the spread row is node `k`'s graph number
    have hi : iota .tc S256x4096 32 [0] iota_S256x4096_d0_w32 (ix2 g k) = BitVec.ofNat 32 g.val :=
      iota_single_apply .tc S256x4096 32 0 iota_S256x4096_d0_w32 (ix2 g k)
    have hb : broadcastTo S256x4096 (shapeCast S1x4096 (shapeCast S4096 v15 shapeCasts_S4096_S4096) shapeCasts_S4096_S1x4096)
        broadcasts_S1x4096_S256x4096 (ix2 g k) = v15 (ix1 k) :=
      (broadcastTo_1b_ab_apply _ _ g k).trans ((shapeCast_a_1a_apply _ _ 0 k).trans (congrFun (shapeCast_self v15 _) _))
    refine Eq.trans ?_ (pool_onehot_word (v15 (ix1 k)) g)
    show FloatOps.sitofp (F := Ideal) .f32 ((IntOp.cmpi .eq (iota .tc S256x4096 32 [0] iota_S256x4096_d0_w32 (ix2 g k))
      (broadcastTo S256x4096 (shapeCast S1x4096 (shapeCast S4096 v15 shapeCasts_S4096_S4096) shapeCasts_S4096_S1x4096)
        broadcasts_S1x4096_S256x4096 (ix2 g k))).setWidth 32) = _
    rw [hi, hb]
  · -- the activation of node `k`
    have h3 : broadcastTo S4096x64 (shapeCast S4096x1 v3 shapeCasts_S4096x1_S4096x1) broadcasts_S4096x1_S4096x64 (ix2 k q)
        = v3 (ix2 k 0) :=
      (pool_bcast_col_apply _ _ k q).trans (congrFun (shapeCast_self v3 _) _)
    have h5 : shapeCast S4096x64 v5 shapeCasts_S4096x64_S4096x64 (ix2 k q) = v5 (ix2 k q) := congrFun (shapeCast_self v5 _) _
    have h9 : broadcastTo S4096x64 (shapeCast S1x64 v9 shapeCasts_S1x64_S1x64) broadcasts_S1x64_S4096x64 (ix2 k q)
        = v9 (ix2 0 q) :=
      (broadcastTo_1b_ab_apply _ _ k q).trans (congrFun (shapeCast_self v9 _) _)
    show max (broadcastTo S4096x64 (shapeCast S4096x1 v3 shapeCasts_S4096x1_S4096x1) broadcasts_S4096x1_S4096x64 (ix2 k q)
        * shapeCast S4096x64 v5 shapeCasts_S4096x64_S4096x64 (ix2 k q)
        + broadcastTo S4096x64 (shapeCast S1x64 v9 shapeCasts_S1x64_S1x64) broadcasts_S1x64_S4096x64 (ix2 k q))
      (Ideal.ofBits .f32 0x00000000#32) = _
    rw [h3, h5, h9, Ideal.ofBits_zero_f32]

/-- The cleared block is zero everywhere. -/
theorem pool_clear_apply (j : S256x64.Idx) : k2_pay1 (F := Ideal) j = 0 := by
  show Ideal.ofBits .f32 0x00000000#32 = 0
  exact Ideal.ofBits_zero_f32

end Payload

-- the TensorCore's buffer contents when the region is entered
variable (V : (c : Dev nD) → (b : Ref sig .tc) → Buf (Elt Ideal) ((c : Thread nD τ).loc b))

section Blocks

/-- The four arrays the call reads, by their literal types: graph numbers, features, the scaling column, the bias row. -/
abbrev pool_bt (c : Dev nD) : IVec S102400 32 := V c main_v43
abbrev pool_a (c : Dev nD) : FVec Ideal S102400x64 .f32 := V c main_v41
abbrev pool_d (c : Dev nD) : FVec Ideal S102400x1 .f32 := V c main_v42
abbrev pool_b (c : Dev nD) : FVec Ideal S1x64 .f32 := V c main_v44

/-- Their blocks at a point, by their literal types. -/
abbrev pool_btblk (c : Dev nD) (t : Fin cfg2.N) : IVec S4096 32 := iblk2 V c 0 t
abbrev pool_ablk (c : Dev nD) (t : Fin cfg2.N) : FVec Ideal S4096x64 .f32 := iblk2 V c 1 t
abbrev pool_dblk (c : Dev nD) (t : Fin cfg2.N) : FVec Ideal S4096x1 .f32 := iblk2 V c 2 t
abbrev pool_bblk (c : Dev nD) (t : Fin cfg2.N) : FVec Ideal S1x64 .f32 := iblk2 V c 3 t

/-- Point `t` stages block `t` of the three node-indexed arrays, and the one block of the bias row and of the result. -/
theorem pool_idx_0 : ∀ t : Fin cfg2.N, win2_0.index t 0 = t.val :=
  (by decide +kernel : ∀ t : Fin grid2.N, win2_0.index t 0 = t.val)
theorem pool_idx_1 : ∀ t : Fin cfg2.N, win2_1.index t 0 = t.val ∧ win2_1.index t 1 = 0 :=
  (by decide +kernel : ∀ t : Fin grid2.N, win2_1.index t 0 = t.val ∧ win2_1.index t 1 = 0)
theorem pool_idx_2 : ∀ t : Fin cfg2.N, win2_2.index t 0 = t.val ∧ win2_2.index t 1 = 0 :=
  (by decide +kernel : ∀ t : Fin grid2.N, win2_2.index t 0 = t.val ∧ win2_2.index t 1 = 0)
theorem pool_idx_3 : ∀ t : Fin cfg2.N, win2_3.index t 0 = 0 ∧ win2_3.index t 1 = 0 :=
  (by decide +kernel : ∀ t : Fin grid2.N, win2_3.index t 0 = 0 ∧ win2_3.index t 1 = 0)
theorem pool_idx_4 : ∀ t : Fin cfg2.N, win2_4.index t 0 = 0 ∧ win2_4.index t 1 = 0 :=
  (by decide +kernel : ∀ t : Fin grid2.N, win2_4.index t 0 = 0 ∧ win2_4.index t 1 = 0)

/-- Entry `y` of the graph-number block at point `t` is node `4096 t + y`'s. -/
theorem pool_btblk_apply (c : Dev nD) (t : Fin cfg2.N) (y : Fin 4096) (n : Fin 102400) (hn : n.val = t.val * 4096 + y.val) :
    pool_btblk V c t (ix1 y) = pool_bt V c (ix1 n) := by
  unfold pool_btblk pool_bt iblk2
  rw [View.read_apply]
  show V c main_v43 _ = V c main_v43 _
  congr 1
  funext a
  apply Fin.ext
  match a with
  | ⟨0, _⟩ => show win2_0.index t 0 * 4096 + 1 * y.val = n.val; rw [pool_idx_0 t, hn]; omega

/-- Row `y` of the feature block at point `t` is node `4096 t + y`'s row. -/
theorem pool_ablk_apply (c : Dev nD) (t : Fin cfg2.N) (y : Fin 4096) (q : Fin 64) (n : Fin 102400) (hn : n.val = t.val * 4096 + y.val) :
    pool_ablk V c t (ix2 y q) = pool_a V c (ix2 n q) := by
  unfold pool_ablk pool_a iblk2
  rw [View.read_apply]
  show V c main_v41 _ = V c main_v41 _
  congr 1
  funext a
  apply Fin.ext
  match a with
  | ⟨0, _⟩ => show win2_1.index t 0 * 4096 + 1 * y.val = n.val; rw [(pool_idx_1 t).1, hn]; omega
  | ⟨1, _⟩ => show win2_1.index t 1 * 64 + 1 * q.val = q.val; rw [(pool_idx_1 t).2]; omega

/-- Row `y` of the scaling block at point `t` is node `4096 t + y`'s. -/
theorem pool_dblk_apply (c : Dev nD) (t : Fin cfg2.N) (y : Fin 4096) (n : Fin 102400) (hn : n.val = t.val * 4096 + y.val) :
    pool_dblk V c t (ix2 y 0) = pool_d V c (ix2 n 0) := by
  unfold pool_dblk pool_d iblk2
  rw [View.read_apply]
  show V c main_v42 _ = V c main_v42 _
  congr 1
  funext a
  apply Fin.ext
  match a with
  | ⟨0, _⟩ => show win2_2.index t 0 * 4096 + 1 * y.val = n.val; rw [(pool_idx_2 t).1, hn]; omega
  | ⟨1, _⟩ => show win2_2.index t 1 * 1 + 1 * 0 = 0; rw [(pool_idx_2 t).2]

/-- The bias block is the bias row at every point. -/
theorem pool_bblk_apply (c : Dev nD) (t : Fin cfg2.N) (q : Fin 64) :
    pool_bblk V c t (ix2 0 q) = pool_b V c (ix2 0 q) := by
  unfold pool_bblk pool_b iblk2
  rw [View.read_apply]
  show V c main_v44 _ = V c main_v44 _
  congr 1
  funext a
  apply Fin.ext
  match a with
  | ⟨0, _⟩ => show win2_3.index t 0 * 1 + 1 * 0 = 0; rw [(pool_idx_3 t).1]
  | ⟨1, _⟩ => show win2_3.index t 1 * 64 + 1 * q.val = q.val; rw [(pool_idx_3 t).2]; omega

end Blocks

section Invariant

/-- Node number `4096 s + y`, read modulo the node count so that a point's addend is a function of every natural. -/
def pool_node (s : ℕ) (y : Fin 4096) : Fin 102400 := ⟨(s * 4096 + y.val) % 102400, Nat.mod_lt _ (by decide)⟩

theorem pool_node_val (s : ℕ) (hs : s < 25) (y : Fin 4096) : (pool_node s y).val = s * 4096 + y.val := by
  show (s * 4096 + y.val) % 102400 = _
  have := y.isLt
  omega

/-- What point `s` adds at `(g, q)`: over its 4096 nodes, the indicator of graph `g` times the node's activation. -/
def pool_addend (c : Dev nD) (s : ℕ) (g : Fin 256) (q : Fin 64) : EReal :=
  ∑ y : Fin 4096, Cert.Gcn.onehot (pool_bt V c (ix1 (pool_node s y))) g
    * max (pool_d V c (ix2 (pool_node s y) 0) * pool_a V c (ix2 (pool_node s y) q) + pool_b V c (ix2 0 q)) 0

/-- The same sum written over the point's staged blocks. -/
theorem pool_addend_eq (c : Dev nD) (t : Fin cfg2.N) (g : Fin 256) (q : Fin 64) :
    (∑ k : Fin 4096, Cert.Gcn.onehot (pool_btblk V c t (ix1 k)) g
      * max (pool_dblk V c t (ix2 k 0) * pool_ablk V c t (ix2 k q) + pool_bblk V c t (ix2 0 q)) 0) = pool_addend V c t.val g q := by
  have hN : t.val < 25 := lt_of_lt_of_eq t.isLt (show cfg2.N = 25 from N_2)
  unfold pool_addend
  refine Finset.sum_congr rfl fun k _ => ?_
  have hn := pool_node_val t.val hN k
  rw [pool_btblk_apply V c t k (pool_node t.val k) hn, pool_dblk_apply V c t k (pool_node t.val k) hn,
    pool_ablk_apply V c t k q (pool_node t.val k) hn, pool_bblk_apply V c t q]

/-- The first point leaves its own addend: the block was cleared. -/
theorem pool_step_A (c : Dev nD) (t : Fin cfg2.N) (h0 : t.val % 25 = 0) (g : Fin 256) (q : Fin 64) :
    (outsAt2 V c t.val t.isLt : FVec Ideal S256x64 .f32) (ix2 g q) = pool_addend V c t.val g q := by
  rw [outsAt2_A V c t h0]
  refine (congrFun (pool_out_A (F := Ideal) c (grid2.coords t) (ms2_0 t) (hs2_0 t) (ms2_1 t) (hs2_1 t) (ms2_2 t) (hs2_2 t)
    (ms2_3 t) (hs2_3 t) (ms2_4 t) (hs2_4 t) ((hcond2_0 t).mpr h0) (iblk2 V c 0 t) (iblk2 V c 1 t) (iblk2 V c 2 t)
    (iblk2 V c 3 t)) (ix2 g q)).trans ?_
  refine (pool_pay_apply (pool_dblk V c t) (pool_ablk V c t) (pool_bblk V c t) (pool_btblk V c t) (k2_pay1 (F := Ideal)) g q).trans ?_
  rw [pool_clear_apply, zero_add]
  exact pool_addend_eq V c t g q

/-- Every later point adds its addend to what the point before left. -/
theorem pool_step_B (c : Dev nD) (t : Fin cfg2.N) (h0 : ¬t.val % 25 = 0) (g : Fin 256) (q : Fin 64) :
    (outsAt2 V c t.val t.isLt : FVec Ideal S256x64 .f32) (ix2 g q)
      = (outsAt2 V c (t.val - 1) (Nat.lt_of_le_of_lt (Nat.sub_le _ _) t.isLt) : FVec Ideal S256x64 .f32) (ix2 g q)
        + pool_addend V c t.val g q := by
  rw [outsAt2_B V c t h0]
  refine (congrFun (pool_out_B (F := Ideal) c (grid2.coords t) (ms2_0 t) (hs2_0 t) (ms2_1 t) (hs2_1 t) (ms2_2 t) (hs2_2 t)
    (ms2_3 t) (hs2_3 t) (ms2_4 t) (hs2_4 t) (fun h => h0 ((hcond2_0 t).mp h)) (iblk2 V c 0 t) (iblk2 V c 1 t) (iblk2 V c 2 t)
    (iblk2 V c 3 t) (outsAt2 V c (t.val - 1) (Nat.lt_of_le_of_lt (Nat.sub_le _ _) t.isLt))) (ix2 g q)).trans ?_
  refine (pool_pay_apply (pool_dblk V c t) (pool_ablk V c t) (pool_bblk V c t) (pool_btblk V c t)
    (outsAt2 V c (t.val - 1) (Nat.lt_of_le_of_lt (Nat.sub_le _ _) t.isLt)) g q).trans ?_
  exact congrArg (_ + ·) (pool_addend_eq V c t g q)

/-- After point `n` the block holds the addends of points `0 … n`: by induction on the point. -/
theorem pool_outsAt_apply (c : Dev nD) : ∀ (n : ℕ) (hn : n < cfg2.N) (g : Fin 256) (q : Fin 64),
    (outsAt2 V c n hn : FVec Ideal S256x64 .f32) (ix2 g q) = ∑ s ∈ Finset.range (n + 1), pool_addend V c s g q
  | 0, hn, g, q => by
    rw [Finset.sum_range_one]
    exact pool_step_A V c ⟨0, hn⟩ (Nat.zero_mod _) g q
  | n + 1, hn, g, q => by
    have hN : n + 1 < 25 := lt_of_lt_of_eq hn (show cfg2.N = 25 from N_2)
    have hB : ¬(⟨n + 1, hn⟩ : Fin cfg2.N).val % 25 = 0 := by dsimp only; omega
    rw [Finset.sum_range_succ, ← pool_outsAt_apply c n (Nat.lt_of_succ_lt hn) g q]
    exact pool_step_B V c ⟨n + 1, hn⟩ hB g q

end Invariant

section Final

/-- The last point, the one that writes the block back. -/
abbrev pool_last : Fin cfg2.N := ⟨24, by rw [show cfg2.N = 25 from N_2]; decide⟩

/-- The pooled sums over the region's four arrays. -/
abbrev pool_result (c : Dev nD) : FVec Ideal S256x64 .f32 :=
  Cert.Gcn.poolSum (pool_bt V c) (pool_a V c) (pool_d V c) (pool_b V c)

/-- After the last point the block holds the sum over all 102400 nodes, 25 blocks of 4096 taken together. -/
theorem pool_outsAt_last (c : Dev nD) : (outsAt2 V c pool_last.val pool_last.isLt : FVec Ideal S256x64 .f32) = pool_result V c := by
  funext j
  obtain ⟨g, q, rfl⟩ : ∃ (g : Fin 256) (q : Fin 64), j = ix2 g q := ⟨j 0, j 1, eq_ix2 j⟩
  refine (pool_outsAt_apply V c pool_last.val pool_last.isLt g q).trans ?_
  show ∑ s ∈ Finset.range 25, pool_addend V c s g q
    = ∑ n : Fin 102400, Cert.Gcn.onehot (pool_bt V c (ix1 n)) g
        * max (pool_d V c (ix2 n 0) * pool_a V c (ix2 n q) + pool_b V c (ix2 0 q)) 0
  rw [Finset.sum_range, Cert.Gcn.sum_tiles]
  refine Finset.sum_congr rfl fun s _ => ?_
  unfold pool_addend
  refine Finset.sum_congr rfl fun y _ => ?_
  have e : pool_node s.val y = ⟨s.val * 4096 + y.val, by have := s.isLt; have := y.isLt; omega⟩ :=
    Fin.ext (pool_node_val s.val s.isLt y)
  rw [e]

/-- The one write-back, at the last point: the block is the whole 256 × 64 array. -/
theorem pool_flushed_eq (c : Dev nD) (t : Fin cfg2.N) (hf : (cfg2.win 4).flush t = true) :
    (dat2 V c).flushed 4 t = ((cfg2.win 4).blk t).view.read (Elt Ideal) (pool_result V c) := by
  have hN : cfg2.N = 25 := N_2
  have h24 : t.val = 24 := by have := (flush2_4 t).mp hf; have := t.isLt; omega
  obtain rfl : t = pool_last := Fin.ext h24
  show (cfg2.win 4).cut (grid2.coords pool_last) ((dat2 V c).after 4 pool_last) = _
  rw [after2_4, pool_outsAt_last]
  have hz' : (fun a => win2_4.index pool_last a * main_v45.ty.shape.size a) = fun _ => 0 :=
    funext fun a => by fin_cases a <;> decide +kernel
  exact (Memref.read_access_unit_zero (Elt Ideal) main_v45 hz' (fun a => by rw [congrFun hz' a]; simp) (pool_result V c)).symm

/-- The result array after the third call. -/
theorem region2_value (c : Dev nD) :
    (dat2 (F := Ideal) V c).arrAt 4 cfg2.N = Cert.Gcn.poolSum (V c main_v43) (V c main_v41) (V c main_v42) (V c main_v44) :=
  (dat2 V c).arrAt_eq_of_cover 4 (pool_result V c) (pool_flushed_eq V c) fun i =>
    ⟨pool_last, (flush2_4 pool_last).mpr rfl, by
      show i ∈ ((View.whole main_v45).slice (win2_4.rect pool_last)).set
      rw [View.set_slice_whole, Rect.mem_set_unit]
      intro a
      have h0 : (i 0 : Nat) < 256 := (i 0).isLt
      have h1 : (i 1 : Nat) < 64 := (i 1).isLt
      match a with
      | ⟨0, _⟩ =>
        show win2_4.index pool_last 0 * win2_4.size 0 ≤ (i 0 : Nat)
          ∧ (i 0 : Nat) < win2_4.index pool_last 0 * win2_4.size 0 + win2_4.xsize (grid2.coords pool_last) 0
        rw [show win2_4.index pool_last 0 * win2_4.size 0 = 0 from by decide +kernel,
          show win2_4.xsize (grid2.coords pool_last) 0 = 256 from by decide +kernel]
        omega
      | ⟨1, _⟩ =>
        show win2_4.index pool_last 1 * win2_4.size 1 ≤ (i 1 : Nat)
          ∧ (i 1 : Nat) < win2_4.index pool_last 1 * win2_4.size 1 + win2_4.xsize (grid2.coords pool_last) 1
        rw [show win2_4.index pool_last 1 * win2_4.size 1 = 0 from by decide +kernel,
          show win2_4.xsize (grid2.coords pool_last) 1 = 64 from by decide +kernel]
        omega⟩

end Final

end Cert.KernelIdeal.KV

end
-- ==== Proof.R3.lean ====
/-
  The linear head as ONE function of whole arrays: a single grid point whose blocks are the whole arrays, so the
  result array is `p · Wl + bl`.
-/
import proofs.«401887_j19069654794648_2_alg».proof.Proof.Gen.KernelIdeal.Frame
import proofs.«401887_j19069654794648_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Idealize.ShloMosaic Idealize.ShloMosaic.TcCoe Idealize.SL.Sem Idealize.ShloMosaic.ValueIdx
open Cert.KernelIdeal Cert.KernelIdeal.Gen
open Idealize.ShloMosaic.Pipeline (Dat Cfg Window)
open scoped BigOperators

-- the TensorCore's buffer contents when the region is entered
variable (V : (c : Dev nD) → (b : Ref sig .tc) → Buf (Elt Ideal) ((c : Thread nD τ).loc b))

/-! ## The body's arithmetic at an index -/

theorem lhs_D3_0 (i : S256x2.Idx) (q : dot_S256x64_S64x2_S256x2_1_0_0_1_n_n.contr.Idx) :
    (dot_S256x64_S64x2_S256x2_1_0_0_1_n_n.lhsIdx i q 0).val = (i 0).val := by
  unfold DotDims.lhsIdx
  rw [dif_neg (show ¬(0 : Fin S256x64.rank) ∈ dot_S256x64_S64x2_S256x2_1_0_0_1_n_n.lhsBatch by decide), dif_pos (show (0 : Fin S256x64.rank) ∈ dot_S256x64_S64x2_S256x2_1_0_0_1_n_n.lhsNonContracting by decide)]
  rfl
theorem lhs_D3_1 (i : S256x2.Idx) (q : dot_S256x64_S64x2_S256x2_1_0_0_1_n_n.contr.Idx) :
    (dot_S256x64_S64x2_S256x2_1_0_0_1_n_n.lhsIdx i q 1).val = (q ⟨0, by decide⟩).val :=
  dot_S256x64_S64x2_S256x2_1_0_0_1_n_n.lhsIdx_val_of_single rfl i q
theorem rhs_D3_0 (i : S256x2.Idx) (q : dot_S256x64_S64x2_S256x2_1_0_0_1_n_n.contr.Idx) :
    (dot_S256x64_S64x2_S256x2_1_0_0_1_n_n.rhsIdx i q 0).val = (q ⟨0, by decide⟩).val :=
  dot_S256x64_S64x2_S256x2_1_0_0_1_n_n.rhsIdx_val_of_single rfl i q
theorem rhs_D3_1 (i : S256x2.Idx) (q : dot_S256x64_S64x2_S256x2_1_0_0_1_n_n.contr.Idx) :
    (dot_S256x64_S64x2_S256x2_1_0_0_1_n_n.rhsIdx i q 1).val = (i 1).val := by
  unfold DotDims.rhsIdx
  rw [dif_neg (show ¬(1 : Fin S64x2.rank) ∈ dot_S256x64_S64x2_S256x2_1_0_0_1_n_n.rhsBatch by decide), dif_pos (show (1 : Fin S64x2.rank) ∈ dot_S256x64_S64x2_S256x2_1_0_0_1_n_n.rhsNonContracting by decide)]
  rfl

/-- The matrix product into a zero accumulator, at `(g, q)`: the sum over the 64 contracted columns. -/
theorem matmul_head_apply (x : FVec Ideal S256x64 .bf16) (w : FVec Ideal S64x2 .bf16) (g : Fin 256) (q : Fin 2) :
    matmul dot_S256x64_S64x2_S256x2_1_0_0_1_n_n none x w (constant (F := Ideal) S256x2 .f32 0x00000000#32) (ix2 g q)
      = ∑ k : Fin 64, x (ix2 g k) * w (ix2 k q) := by
  show FloatOps.matmul dot_S256x64_S64x2_S256x2_1_0_0_1_n_n none x w (constant S256x2 .f32 0x00000000#32) (ix2 g q) = _
  rw [Ideal.matmul_constant_zero_apply, ← Equiv.sum_comp (ValueIdx.contrEquiv1 dot_S256x64_S64x2_S256x2_1_0_0_1_n_n 64 rfl rfl).symm]
  refine Finset.sum_congr rfl fun k _ => ?_
  have hk := ValueIdx.contrEquiv1_symm_val dot_S256x64_S64x2_S256x2_1_0_0_1_n_n 64 rfl rfl k
  have el : dot_S256x64_S64x2_S256x2_1_0_0_1_n_n.lhsIdx (ix2 g q) ((ValueIdx.contrEquiv1 dot_S256x64_S64x2_S256x2_1_0_0_1_n_n 64 rfl rfl).symm k) = ix2 g k := funext fun a => Fin.ext (by
    match a with
    | ⟨0, _⟩ => exact lhs_D3_0 _ _
    | ⟨1, _⟩ => exact (lhs_D3_1 _ _).trans hk)
  have er : dot_S256x64_S64x2_S256x2_1_0_0_1_n_n.rhsIdx (ix2 g q) ((ValueIdx.contrEquiv1 dot_S256x64_S64x2_S256x2_1_0_0_1_n_n 64 rfl rfl).symm k) = ix2 k q := funext fun a => Fin.ext (by
    match a with
    | ⟨0, _⟩ => exact (rhs_D3_0 _ _).trans hk
    | ⟨1, _⟩ => exact rhs_D3_1 _ _)
  rw [el, er]

/-- The bias row laid along every row, at `(g, q)`. -/
theorem bias_head_apply (b : FVec Ideal S1x2 .f32) (g : Fin 256) (q : Fin 2) :
    broadcastTo S256x2 (shapeCast S1x2 b shapeCasts_S1x2_S1x2) broadcasts_S1x2_S256x2 (ix2 g q) = b (ix2 0 q) := by
  rw [shapeCast_self]
  exact broadcastTo_apply b broadcasts_S1x2_S256x2 (ix2 g q) (ix2 (0 : Fin 1) q) (by
    intro a
    match a with
    | ⟨0, _⟩ => rfl
    | ⟨1, _⟩ => rfl)

/-- The body's arithmetic at `(g, q)`: row `g` of the pooled features times column `q` of the weights, plus the bias. -/
theorem pay_head_apply (x0 : Vec Ideal S256x64 .f32) (x1 : Vec Ideal S64x2 .f32) (x2 : Vec Ideal S1x2 .f32)
    (g : Fin 256) (q : Fin 2) :
    k3_pay1 (F := Ideal) x0 x1 x2 (ix2 g q) = (∑ k : Fin 64, x0 (ix2 g k) * x1 (ix2 k q)) + x2 (ix2 0 q) := by
  unfold k3_pay1
  rw [shapeCast_self]
  refine (addf_apply _ _ _).trans ?_
  rw [bias_head_apply]
  refine congrArg (· + x2 (ix2 0 q)) ?_
  exact matmul_head_apply _ _ g q

/-! ## From the one block to the array -/

theorem hz3 : (![0, 0] : Fin 2 → Nat) = fun _ => 0 := funext fun a => by fin_cases a <;> rfl

/-- The body's arithmetic as one function of its three blocks. -/
theorem pay_head_eq (x0 : Vec Ideal S256x64 .f32) (x1 : Vec Ideal S64x2 .f32) (x2 : Vec Ideal S1x2 .f32) :
    k3_pay1 (F := Ideal) x0 x1 x2 = Cert.Gcn.head x0 x1 x2 := by
  funext j
  obtain ⟨g, q, rfl⟩ : ∃ (g : Fin 256) (q : Fin 2), j = ix2 g q := ⟨j 0, j 1, eq_ix2 j⟩
  exact pay_head_apply x0 x1 x2 g q

/-- At the one grid point the pooled features' block is the whole array. -/
theorem iblk_pooled (c : Dev nD) : iblk3 (F := Ideal) V c 0 t3_0 = V c main_v54 := by
  unfold iblk3
  have hz' : (fun a => win3_0.index t3_0 a * main_v54.ty.shape.size a) = fun _ => 0 :=
    funext fun a => by fin_cases a <;> decide
  exact Memref.read_access_unit_zero (Elt Ideal) main_v54 hz' (fun a => by rw [congrFun hz' a]; simp) (V c main_v54)

/-- … the weights' block the whole matrix … -/
theorem iblk_weights (c : Dev nD) : iblk3 (F := Ideal) V c 1 t3_0 = V c main_arg7 := by
  unfold iblk3
  have hz' : (fun a => win3_1.index t3_0 a * main_arg7.ty.shape.size a) = fun _ => 0 :=
    funext fun a => by fin_cases a <;> decide
  exact Memref.read_access_unit_zero (Elt Ideal) main_arg7 hz' (fun a => by rw [congrFun hz' a]; simp) (V c main_arg7)

/-- … and the bias' block the whole row. -/
theorem iblk_bias (c : Dev nD) : iblk3 (F := Ideal) V c 2 t3_0 = V c main_v55 := by
  unfold iblk3
  have hz' : (fun a => win3_2.index t3_0 a * main_v55.ty.shape.size a) = fun _ => 0 :=
    funext fun a => by fin_cases a <;> decide
  exact Memref.read_access_unit_zero (Elt Ideal) main_v55 hz' (fun a => by rw [congrFun hz' a]; simp) (V c main_v55)

/-- What the one point writes back is the whole of `p · Wl + bl`. -/
theorem flushed_head (c : Dev nD) (t : Fin cfg3.N) :
    (dat3 (F := Ideal) V c).flushed 3 t
      = ((cfg3.win 3).blk t).view.read (Elt Ideal) (Cert.Gcn.head (V c main_v54) (V c main_arg7) (V c main_v55)) := by
  obtain rfl := fin_N3 t
  show (cfg3.win 3).cut (grid3.coords t3_0) ((dat3 V c).after 3 t3_0) = _
  rw [after3_3]
  unfold out3_3
  rw [View.canon_unit_zero hz3]
  simp only [View.ld_unit_zero (S := S256x64) hz3, View.ld_unit_zero (S := S64x2) hz3, View.ld_unit_zero (S := S1x2) hz3]
  rw [iblk_pooled, iblk_weights, iblk_bias, pay_head_eq]
  have hz' : (fun a => win3_3.index t3_0 a * main_v56.ty.shape.size a) = fun _ => 0 :=
    funext fun a => by fin_cases a <;> decide
  exact (Memref.read_access_unit_zero (Elt Ideal) main_v56 hz' (fun a => by rw [congrFun hz' a]; simp)
    (Cert.Gcn.head (V c main_v54) (V c main_arg7) (V c main_v55))).symm

/-- The result array after the fourth call. -/
theorem region3_value (c : Dev nD) :
    (dat3 (F := Ideal) V c).arrAt 3 cfg3.N = Cert.Gcn.head (V c main_v54) (V c main_arg7) (V c main_v55) := by
  refine (dat3 V c).arrAt_eq_of_cover 3 (Cert.Gcn.head (V c main_v54) (V c main_arg7) (V c main_v55))
    (fun t _ => flushed_head V c t) fun i => ⟨t3_0, flush3_3 t3_0, ?_⟩
  -- every index of the result lies in the one point's block, which is the whole array
  show i ∈ ((View.whole main_v56).slice (win3_3.rect t3_0)).set
  rw [View.set_slice_whole, Rect.mem_set_unit]
  intro a
  have h0 : (i 0 : Nat) < 256 := (i 0).isLt
  have h1 : (i 1 : Nat) < 2 := (i 1).isLt
  match a with
  | ⟨0, _⟩ =>
    show win3_3.index t3_0 0 * win3_3.size 0 ≤ (i 0 : Nat) ∧ (i 0 : Nat) < win3_3.index t3_0 0 * win3_3.size 0 + win3_3.xsize (grid3.coords t3_0) 0
    rw [show win3_3.index t3_0 0 * win3_3.size 0 = 0 from by decide, show win3_3.xsize (grid3.coords t3_0) 0 = 256 from by decide]
    omega
  | ⟨1, _⟩ =>
    show win3_3.index t3_0 1 * win3_3.size 1 ≤ (i 1 : Nat) ∧ (i 1 : Nat) < win3_3.index t3_0 1 * win3_3.size 1 + win3_3.xsize (grid3.coords t3_0) 1
    rw [show win3_3.index t3_0 1 * win3_3.size 1 = 0 from by decide, show win3_3.xsize (grid3.coords t3_0) 1 = 2 from by decide]
    omega

end Cert.KernelIdeal.KV

end
-- ==== Proof.KHost.lean ====
/-
  The kernel program's result buffer as a function of its nine arguments: the host operations between the four calls
  read at the buffer contents each stretch starts from, the four calls by their whole-array values, composed in program
  order.
-/
import proofs.«401887_j19069654794648_2_alg».proof.Proof.R0
import proofs.«401887_j19069654794648_2_alg».proof.Proof.R1
import proofs.«401887_j19069654794648_2_alg».proof.Proof.R2
import proofs.«401887_j19069654794648_2_alg».proof.Proof.R3
import Idealize.ShloMosaic.Lib.StableHlo.Run

set_option maxRecDepth 16384

noncomputable section

namespace Cert.KernelIdeal.KV

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-! ## What each stretch of host operations writes

A buffer that a stretch does not write holds after the stretch what it held before. -/

abbrev L0 : List (Ref sig .tc) :=
  [main_v0, main_v1, main_v2, main_v3, main_v4, main_v5, main_v6, main_cst, main_v7, main_cst_0, main_v8, main_v9,
    main_v10, main_cst_1, main_v11, main_v12, main_v13, main_cst_2]
abbrev L0_1 : List (Ref sig .tc) := [main_call0_v0, main_call0_v1, main_v14]
abbrev L0_2 : List (Ref sig .tc) := [main_v15]
abbrev L1 : List (Ref sig .tc) :=
  [main_c, main_v17, main_v18, main_c_3, main_v19, main_v20, main_v21, main_v22, main_v23, main_v24, main_cst_4,
    main_v25, main_v26, main_v27, main_v28]
abbrev L2 : List (Ref sig .tc) :=
  [main_c_5, main_v30, main_v31, main_c_6, main_v32, main_v33, main_v34, main_v35, main_v36, main_v37, main_cst_7,
    main_v38, main_v39, main_v40, main_c_8]
abbrev L2_1 : List (Ref sig .tc) := [main_call1_v0, main_v41]
abbrev L2_2 : List (Ref sig .tc) := [main_c_9]
abbrev L2_3 : List (Ref sig .tc) := [main_call2_v0, main_v42]
abbrev L2_4 : List (Ref sig .tc) := [main_c_10]
abbrev L2_5 : List (Ref sig .tc) := [main_call3_v0, main_v43]
abbrev L2_6 : List (Ref sig .tc) := [main_v44]
abbrev L3 : List (Ref sig .tc) :=
  [main_cst_11, main_v46, main_cst_12, main_v47, main_v48, main_v49, main_cst_13, main_v50, main_v51, main_v52, main_v53,
    main_v54, main_v55]
/-- The twelve stretches' written buffers. -/
abbrev Lhost : List (List (Ref sig .tc)) := [L0, L0_1, L0_2, L1, L2, L2_1, L2_2, L2_3, L2_4, L2_5, L2_6, L3]

/-- Each operation of a stretch writes one buffer, and that buffer is in the stretch's list. -/
macro "writes_in_list" : tactic =>
  `(tactic| (
    simp only [hostOps0, hostOps0_1, hostOps0_2, hostOps1, hostOps2, hostOps2_1, hostOps2_2, hostOps2_3, hostOps2_4,
      hostOps2_5, hostOps2_6, hostOps3, List.Forall, StableHlo.nullary_writes, StableHlo.unary_writes,
      StableHlo.binary_writes, StableHlo.ternary_writes, StableHlo.reshape_writes, Finset.singleton_subset_iff,
      List.mem_toFinset]
    repeat' apply And.intro
    all_goals exact List.mem_map_of_mem (by decide)))

theorem w0 : (hostOps0 (F := Ideal)).Forall fun op => op.writes ⊆ (L0.map (Proc.devRef (τ := τ) .tc)).toFinset := by
  writes_in_list
theorem w0_1 : (hostOps0_1 (F := Ideal)).Forall fun op => op.writes ⊆ (L0_1.map (Proc.devRef (τ := τ) .tc)).toFinset := by
  writes_in_list
theorem w0_2 : (hostOps0_2 (F := Ideal)).Forall fun op => op.writes ⊆ (L0_2.map (Proc.devRef (τ := τ) .tc)).toFinset := by
  writes_in_list
theorem w1 : (hostOps1 (F := Ideal)).Forall fun op => op.writes ⊆ (L1.map (Proc.devRef (τ := τ) .tc)).toFinset := by
  writes_in_list
theorem w2 : (hostOps2 (F := Ideal)).Forall fun op => op.writes ⊆ (L2.map (Proc.devRef (τ := τ) .tc)).toFinset := by
  writes_in_list
theorem w2_1 : (hostOps2_1 (F := Ideal)).Forall fun op => op.writes ⊆ (L2_1.map (Proc.devRef (τ := τ) .tc)).toFinset := by
  writes_in_list
theorem w2_2 : (hostOps2_2 (F := Ideal)).Forall fun op => op.writes ⊆ (L2_2.map (Proc.devRef (τ := τ) .tc)).toFinset := by
  writes_in_list
theorem w2_3 : (hostOps2_3 (F := Ideal)).Forall fun op => op.writes ⊆ (L2_3.map (Proc.devRef (τ := τ) .tc)).toFinset := by
  writes_in_list
theorem w2_4 : (hostOps2_4 (F := Ideal)).Forall fun op => op.writes ⊆ (L2_4.map (Proc.devRef (τ := τ) .tc)).toFinset := by
  writes_in_list
theorem w2_5 : (hostOps2_5 (F := Ideal)).Forall fun op => op.writes ⊆ (L2_5.map (Proc.devRef (τ := τ) .tc)).toFinset := by
  writes_in_list
theorem w2_6 : (hostOps2_6 (F := Ideal)).Forall fun op => op.writes ⊆ (L2_6.map (Proc.devRef (τ := τ) .tc)).toFinset := by
  writes_in_list
theorem w3 : (hostOps3 (F := Ideal)).Forall fun op => op.writes ⊆ (L3.map (Proc.devRef (τ := τ) .tc)).toFinset := by
  writes_in_list

theorem keep0 (W : Valuation τ sig (Elt Ideal)) (r : Ref sig .tc) (hr : r ∉ L0) :
    StableHlo.after hostOps0 W (Proc.devRef .tc r) = W (Proc.devRef .tc r) := StableHlo.after_of_writes_sub _ _ w0 hr
theorem keep0_1 (W : Valuation τ sig (Elt Ideal)) (r : Ref sig .tc) (hr : r ∉ L0_1) :
    StableHlo.after hostOps0_1 W (Proc.devRef .tc r) = W (Proc.devRef .tc r) := StableHlo.after_of_writes_sub _ _ w0_1 hr
theorem keep0_2 (W : Valuation τ sig (Elt Ideal)) (r : Ref sig .tc) (hr : r ∉ L0_2) :
    StableHlo.after hostOps0_2 W (Proc.devRef .tc r) = W (Proc.devRef .tc r) := StableHlo.after_of_writes_sub _ _ w0_2 hr
theorem keep1 (W : Valuation τ sig (Elt Ideal)) (r : Ref sig .tc) (hr : r ∉ L1) :
    StableHlo.after hostOps1 W (Proc.devRef .tc r) = W (Proc.devRef .tc r) := StableHlo.after_of_writes_sub _ _ w1 hr
theorem keep2 (W : Valuation τ sig (Elt Ideal)) (r : Ref sig .tc) (hr : r ∉ L2) :
    StableHlo.after hostOps2 W (Proc.devRef .tc r) = W (Proc.devRef .tc r) := StableHlo.after_of_writes_sub _ _ w2 hr
theorem keep2_1 (W : Valuation τ sig (Elt Ideal)) (r : Ref sig .tc) (hr : r ∉ L2_1) :
    StableHlo.after hostOps2_1 W (Proc.devRef .tc r) = W (Proc.devRef .tc r) := StableHlo.after_of_writes_sub _ _ w2_1 hr
theorem keep2_2 (W : Valuation τ sig (Elt Ideal)) (r : Ref sig .tc) (hr : r ∉ L2_2) :
    StableHlo.after hostOps2_2 W (Proc.devRef .tc r) = W (Proc.devRef .tc r) := StableHlo.after_of_writes_sub _ _ w2_2 hr
theorem keep2_3 (W : Valuation τ sig (Elt Ideal)) (r : Ref sig .tc) (hr : r ∉ L2_3) :
    StableHlo.after hostOps2_3 W (Proc.devRef .tc r) = W (Proc.devRef .tc r) := StableHlo.after_of_writes_sub _ _ w2_3 hr
theorem keep2_4 (W : Valuation τ sig (Elt Ideal)) (r : Ref sig .tc) (hr : r ∉ L2_4) :
    StableHlo.after hostOps2_4 W (Proc.devRef .tc r) = W (Proc.devRef .tc r) := StableHlo.after_of_writes_sub _ _ w2_4 hr
theorem keep2_5 (W : Valuation τ sig (Elt Ideal)) (r : Ref sig .tc) (hr : r ∉ L2_5) :
    StableHlo.after hostOps2_5 W (Proc.devRef .tc r) = W (Proc.devRef .tc r) := StableHlo.after_of_writes_sub _ _ w2_5 hr
theorem keep2_6 (W : Valuation τ sig (Elt Ideal)) (r : Ref sig .tc) (hr : r ∉ L2_6) :
    StableHlo.after hostOps2_6 W (Proc.devRef .tc r) = W (Proc.devRef .tc r) := StableHlo.after_of_writes_sub _ _ w2_6 hr
theorem keep3 (W : Valuation τ sig (Elt Ideal)) (r : Ref sig .tc) (hr : r ∉ L3) :
    StableHlo.after hostOps3 W (Proc.devRef .tc r) = W (Proc.devRef .tc r) := StableHlo.after_of_writes_sub _ _ w3 hr

/-! ## What each stretch computes, from any contents `W` it starts at

Every buffer a stretch reads enters as a variable with the equation that says what `W` holds there. -/

theorem ops0_v5 (W : Valuation τ sig (Elt Ideal)) (e : IVec S2x3200000 32) (h1 : W (Proc.devRef .tc main_arg1) = e) :
    (StableHlo.after hostOps0 W (Proc.devRef .tc main_v5) : IVec S3300000 32) = Cert.Gcn.srcs e := by
  subst h1; after_results <;> rfl

theorem ops0_v6 (W : Valuation τ sig (Elt Ideal)) (e : IVec S2x3200000 32) (h1 : W (Proc.devRef .tc main_arg1) = e) :
    (StableHlo.after hostOps0 W (Proc.devRef .tc main_v6) : IVec S3300000 32) = Cert.Gcn.tgts e := by
  subst h1; after_results <;> rfl

theorem ops0_v12 (W : Valuation τ sig (Elt Ideal)) (e : IVec S2x3200000 32) (h1 : W (Proc.devRef .tc main_arg1) = e) :
    (StableHlo.after hostOps0 W (Proc.devRef .tc main_v12) : IVec S100000 1)
      = cmpf .ogt (Cert.Gcn.deg e)
          (broadcastInDim S100000 ![] bcast_S_S100000 (constant (F := Ideal) S_ .f32 0x00000000#32)) := by
  subst h1; after_results <;> rfl

theorem ops0_v13 (W : Valuation τ sig (Elt Ideal)) (e : IVec S2x3200000 32) (h1 : W (Proc.devRef .tc main_arg1) = e) :
    (StableHlo.after hostOps0 W (Proc.devRef .tc main_v13) : FVec Ideal S100000 .f32)
      = Host.rsqrt (F := Ideal) (Cert.Gcn.deg e) := by
  subst h1; after_results <;> rfl

theorem ops0_cst_2 (W : Valuation τ sig (Elt Ideal)) :
    (StableHlo.after hostOps0 W (Proc.devRef .tc main_cst_2) : FVec Ideal S_ .f32)
      = constant (F := Ideal) S_ .f32 0x00000000#32 := by
  after_results <;> rfl

theorem ops0_1_v14 (W : Valuation τ sig (Elt Ideal)) (p : IVec S100000 1) (a : FVec Ideal S100000 .f32)
    (z : FVec Ideal S_ .f32) (h12 : W (Proc.devRef .tc main_v12) = p) (h13 : W (Proc.devRef .tc main_v13) = a)
    (hz : W (Proc.devRef .tc main_cst_2) = z) :
    (StableHlo.after hostOps0_1 W (Proc.devRef .tc main_v14) : FVec Ideal S100000 .f32)
      = select p a (broadcastInDim S100000 ![] bcast_S_S100000 z) := by
  subst h12 h13 hz; after_results <;> rfl

theorem ops0_2_v15 (W : Valuation τ sig (Elt Ideal)) (a : FVec Ideal S100000 .f32)
    (h14 : W (Proc.devRef .tc main_v14) = a) :
    (StableHlo.after hostOps0_2 W (Proc.devRef .tc main_v15) : FVec Ideal S100000x1 .f32)
      = shapeCast S100000x1 a shapeCasts_S100000_S100000x1 := by
  subst h14; after_results <;> rfl

/-- Rows of `hp` gathered at the node numbers `s` and summed into the node numbers `t`. -/
def aggOf (hp : FVec Ideal S100000x64 .bf16) (s t : IVec S3300000 32) : FVec Ideal S100000x64 .f32 :=
  Host.scatterAdd (F := Ideal) scatter_S100000x64_S3300000x1_S3300000x64_1_0_0_1
    (broadcastInDim S100000x64 ![] bcast_S_S100000x64 (constant (F := Ideal) S_ .f32 0x00000000#32))
    (Cert.Gcn.col t)
    (extf .f32 (Host.gather gather_S100000x64_S3300000x1_S3300000x64_1_0_n_n_0_1_164 hp (Cert.Gcn.col (Cert.Gcn.wrap s))) bitsLt_bf16_f32)

theorem agg_eq (hp : FVec Ideal S100000x64 .bf16) (e : IVec S2x3200000 32) :
    aggOf hp (Cert.Gcn.srcs e) (Cert.Gcn.tgts e) = Cert.Gcn.agg hp e := rfl

theorem ops1_v27 (W : Valuation τ sig (Elt Ideal)) (hp : FVec Ideal S100000x64 .bf16) (s t : IVec S3300000 32)
    (h16 : W (Proc.devRef .tc main_v16) = hp) (h5 : W (Proc.devRef .tc main_v5) = s)
    (h6 : W (Proc.devRef .tc main_v6) = t) :
    (StableHlo.after hostOps1 W (Proc.devRef .tc main_v27) : FVec Ideal S100000x64 .f32) = aggOf hp s t := by
  subst h16 h5 h6; after_results <;> rfl

theorem ops1_v28 (W : Valuation τ sig (Elt Ideal)) (b : FVec Ideal S64 .f32) (h4 : W (Proc.devRef .tc main_arg4) = b) :
    (StableHlo.after hostOps1 W (Proc.devRef .tc main_v28) : FVec Ideal S1x64 .f32) = Cert.Gcn.row64 b := by
  subst h4; after_results <;> rfl

theorem ops2_v40 (W : Valuation τ sig (Elt Ideal)) (hp : FVec Ideal S100000x64 .bf16) (s t : IVec S3300000 32)
    (h29 : W (Proc.devRef .tc main_v29) = hp) (h5 : W (Proc.devRef .tc main_v5) = s)
    (h6 : W (Proc.devRef .tc main_v6) = t) :
    (StableHlo.after hostOps2 W (Proc.devRef .tc main_v40) : FVec Ideal S100000x64 .f32) = aggOf hp s t := by
  subst h29 h5 h6; after_results <;> rfl

theorem ops2_c_8 (W : Valuation τ sig (Elt Ideal)) :
    (StableHlo.after hostOps2 W (Proc.devRef .tc main_c_8) : IVec S_ 32) = constantI S_ 32 0#32 := by
  after_results <;> rfl

theorem ops2_1_v41 (W : Valuation τ sig (Elt Ideal)) (a : FVec Ideal S100000x64 .f32) (z : IVec S_ 32)
    (h40 : W (Proc.devRef .tc main_v40) = a) (hz : W (Proc.devRef .tc main_c_8) = z) :
    (StableHlo.after hostOps2_1 W (Proc.devRef .tc main_v41) : FVec Ideal S102400x64 .f32)
      = pad S102400x64 ![0, 0] ![2400, 0] ![0, 0] a (sitofp (F := Ideal) .f32 z) pads_S100000x64_S102400x64_024000_000 h_S_ := by
  subst h40 hz; after_results <;> rfl

theorem ops2_2_c_9 (W : Valuation τ sig (Elt Ideal)) :
    (StableHlo.after hostOps2_2 W (Proc.devRef .tc main_c_9) : IVec S_ 32) = constantI S_ 32 0#32 := by
  after_results <;> rfl

theorem ops2_3_v42 (W : Valuation τ sig (Elt Ideal)) (d : FVec Ideal S100000x1 .f32) (z : IVec S_ 32)
    (h15 : W (Proc.devRef .tc main_v15) = d) (hz : W (Proc.devRef .tc main_c_9) = z) :
    (StableHlo.after hostOps2_3 W (Proc.devRef .tc main_v42) : FVec Ideal S102400x1 .f32)
      = pad S102400x1 ![0, 0] ![2400, 0] ![0, 0] d (sitofp (F := Ideal) .f32 z) pads_S100000x1_S102400x1_024000_000 h_S_ := by
  subst h15 hz; after_results <;> rfl

theorem ops2_4_c_10 (W : Valuation τ sig (Elt Ideal)) :
    (StableHlo.after hostOps2_4 W (Proc.devRef .tc main_c_10) : IVec S_ 32) = constantI S_ 32 4294967295#32 := by
  after_results <;> rfl

theorem ops2_5_v43 (W : Valuation τ sig (Elt Ideal)) (bt : IVec S100000 32) (z : IVec S_ 32)
    (h2 : W (Proc.devRef .tc main_arg2) = bt) (hz : W (Proc.devRef .tc main_c_10) = z) :
    (StableHlo.after hostOps2_5 W (Proc.devRef .tc main_v43) : IVec S102400 32)
      = pad S102400 ![0] ![2400] ![0] bt (id z) pads_S100000_S102400_024000 h_S_ := by
  subst h2 hz; after_results <;> rfl

theorem ops2_6_v44 (W : Valuation τ sig (Elt Ideal)) (b : FVec Ideal S64 .f32) (h6 : W (Proc.devRef .tc main_arg6) = b) :
    (StableHlo.after hostOps2_6 W (Proc.devRef .tc main_v44) : FVec Ideal S1x64 .f32) = Cert.Gcn.row64 b := by
  subst h6; after_results <;> rfl

theorem ops3_v54 (W : Valuation τ sig (Elt Ideal)) (s : FVec Ideal S256x64 .f32) (bt : IVec S100000 32)
    (h45 : W (Proc.devRef .tc main_v45) = s) (h2 : W (Proc.devRef .tc main_arg2) = bt) :
    (StableHlo.after hostOps3 W (Proc.devRef .tc main_v54) : FVec Ideal S256x64 .f32)
      = Host.divf (F := Ideal) s (Cert.Gcn.cntb bt) := by
  subst h45 h2; after_results <;> rfl

theorem ops3_v55 (W : Valuation τ sig (Elt Ideal)) (b : FVec Ideal S2 .f32) (h8 : W (Proc.devRef .tc main_arg8) = b) :
    (StableHlo.after hostOps3 W (Proc.devRef .tc main_v55) : FVec Ideal S1x2 .f32) = Cert.Gcn.row2 b := by
  subst h8; after_results <;> rfl

/-! ## The nine arguments' launch contents -/

abbrev ax (c : Dev nD) : FVec Ideal S100000x128 .f32 := m ((c : Thread nD τ).loc main_arg0)
abbrev ae (c : Dev nD) : IVec S2x3200000 32 := m ((c : Thread nD τ).loc main_arg1)
abbrev abt (c : Dev nD) : IVec S100000 32 := m ((c : Thread nD τ).loc main_arg2)
abbrev aw1 (c : Dev nD) : FVec Ideal S128x64 .f32 := m ((c : Thread nD τ).loc main_arg3)
abbrev ab1 (c : Dev nD) : FVec Ideal S64 .f32 := m ((c : Thread nD τ).loc main_arg4)
abbrev aw2 (c : Dev nD) : FVec Ideal S64x64 .f32 := m ((c : Thread nD τ).loc main_arg5)
abbrev ab2 (c : Dev nD) : FVec Ideal S64 .f32 := m ((c : Thread nD τ).loc main_arg6)
abbrev awl (c : Dev nD) : FVec Ideal S64x2 .f32 := m ((c : Thread nD τ).loc main_arg7)
abbrev abl (c : Dev nD) : FVec Ideal S2 .f32 := m ((c : Thread nD τ).loc main_arg8)

/-! ## A buffer no host operation writes, up to each boundary

`r` is in no stretch's list; a call leaves `r` alone when `r` is none of its windows' arrays. -/

theorem up3 (c : Dev nD) (r : Ref sig .tc) (hr : ∀ L ∈ Lhost, r ∉ L) :
    W3 (F := Ideal) m ρ c (Proc.devRef .tc r) = W0 m ρ c (Proc.devRef .tc r) :=
  (keep0_2 (W2 m ρ c) r (hr _ (by decide))).trans
    ((keep0_1 (W1 m ρ c) r (hr _ (by decide))).trans (keep0 (W0 m ρ c) r (hr _ (by decide))))

theorem up4 (c : Dev nD) (r : Ref sig .tc) (hr : ∀ L ∈ Lhost, r ∉ L) (n0 : ∀ w, Pipeline.arrRef spec0 w ≠ r) :
    W4 (F := Ideal) m ρ c (Proc.devRef .tc r) = W0 m ρ c (Proc.devRef .tc r) :=
  (W4_of_ne m ρ c r n0).trans (up3 m ρ c r hr)

theorem up5 (c : Dev nD) (r : Ref sig .tc) (hr : ∀ L ∈ Lhost, r ∉ L) (n0 : ∀ w, Pipeline.arrRef spec0 w ≠ r) :
    W5 (F := Ideal) m ρ c (Proc.devRef .tc r) = W0 m ρ c (Proc.devRef .tc r) :=
  (keep1 (W4 m ρ c) r (hr _ (by decide))).trans (up4 m ρ c r hr n0)

theorem up6 (c : Dev nD) (r : Ref sig .tc) (hr : ∀ L ∈ Lhost, r ∉ L) (n0 : ∀ w, Pipeline.arrRef spec0 w ≠ r)
    (n1 : ∀ w, Pipeline.arrRef spec1 w ≠ r) :
    W6 (F := Ideal) m ρ c (Proc.devRef .tc r) = W0 m ρ c (Proc.devRef .tc r) :=
  (W6_of_ne m ρ c r n1).trans (up5 m ρ c r hr n0)

theorem up11 (c : Dev nD) (r : Ref sig .tc) (hr : ∀ L ∈ Lhost, r ∉ L) (n0 : ∀ w, Pipeline.arrRef spec0 w ≠ r)
    (n1 : ∀ w, Pipeline.arrRef spec1 w ≠ r) :
    W11 (F := Ideal) m ρ c (Proc.devRef .tc r) = W0 m ρ c (Proc.devRef .tc r) :=
  (keep2_4 (W10 m ρ c) r (hr _ (by decide))).trans
    ((keep2_3 (W9 m ρ c) r (hr _ (by decide))).trans
      ((keep2_2 (W8 m ρ c) r (hr _ (by decide))).trans
        ((keep2_1 (W7 m ρ c) r (hr _ (by decide))).trans
          ((keep2 (W6 m ρ c) r (hr _ (by decide))).trans (up6 m ρ c r hr n0 n1)))))

theorem up12 (c : Dev nD) (r : Ref sig .tc) (hr : ∀ L ∈ Lhost, r ∉ L) (n0 : ∀ w, Pipeline.arrRef spec0 w ≠ r)
    (n1 : ∀ w, Pipeline.arrRef spec1 w ≠ r) :
    W12 (F := Ideal) m ρ c (Proc.devRef .tc r) = W0 m ρ c (Proc.devRef .tc r) :=
  (keep2_5 (W11 m ρ c) r (hr _ (by decide))).trans (up11 m ρ c r hr n0 n1)

theorem up14 (c : Dev nD) (r : Ref sig .tc) (hr : ∀ L ∈ Lhost, r ∉ L) (n0 : ∀ w, Pipeline.arrRef spec0 w ≠ r)
    (n1 : ∀ w, Pipeline.arrRef spec1 w ≠ r) (n2 : ∀ w, Pipeline.arrRef spec2 w ≠ r) :
    W14 (F := Ideal) m ρ c (Proc.devRef .tc r) = W0 m ρ c (Proc.devRef .tc r) :=
  (W14_of_ne m ρ c r n2).trans ((keep2_6 (W12 m ρ c) r (hr _ (by decide))).trans (up12 m ρ c r hr n0 n1))

theorem up15 (c : Dev nD) (r : Ref sig .tc) (hr : ∀ L ∈ Lhost, r ∉ L) (n0 : ∀ w, Pipeline.arrRef spec0 w ≠ r)
    (n1 : ∀ w, Pipeline.arrRef spec1 w ≠ r) (n2 : ∀ w, Pipeline.arrRef spec2 w ≠ r) :
    W15 (F := Ideal) m ρ c (Proc.devRef .tc r) = W0 m ρ c (Proc.devRef .tc r) :=
  (keep3 (W14 m ρ c) r (hr _ (by decide))).trans (up14 m ρ c r hr n0 n1 n2)

/-! ## The first call: its three inputs at entry, its result at exit -/

theorem V3_arg0 (c : Dev nD) : V3 (F := Ideal) m ρ c main_arg0 = ax m c := up3 m ρ c main_arg0 (by decide)
theorem V3_arg3 (c : Dev nD) : V3 (F := Ideal) m ρ c main_arg3 = aw1 m c := up3 m ρ c main_arg3 (by decide)

theorem W1_v5 (c : Dev nD) : (W1 (F := Ideal) m ρ c (Proc.devRef .tc main_v5) : IVec S3300000 32) = Cert.Gcn.srcs (ae m c) :=
  ops0_v5 (W0 m ρ c) (ae m c) rfl
theorem W1_v6 (c : Dev nD) : (W1 (F := Ideal) m ρ c (Proc.devRef .tc main_v6) : IVec S3300000 32) = Cert.Gcn.tgts (ae m c) :=
  ops0_v6 (W0 m ρ c) (ae m c) rfl

/-- The column of `dinv` as the first call finds it. -/
theorem V3_v15 (c : Dev nD) : (V3 (F := Ideal) m ρ c main_v15 : FVec Ideal S100000x1 .f32) = Cert.Gcn.dcol (ae m c) :=
  ops0_2_v15 (W2 m ρ c) _
    (ops0_1_v14 (W1 m ρ c) _ _ _ (ops0_v12 (W0 m ρ c) (ae m c) rfl) (ops0_v13 (W0 m ρ c) (ae m c) rfl)
      (ops0_cst_2 (W0 m ρ c)))

theorem W4_v16 (c : Dev nD) :
    (W4 (F := Ideal) m ρ c (Proc.devRef .tc main_v16) : FVec Ideal S100000x64 .bf16)
      = Cert.Gcn.lin1 (ax m c) (aw1 m c) (Cert.Gcn.dcol (ae m c)) := by
  refine (W4_arr m ρ c 3).trans ((region0_value (V3 m ρ) c).trans ?_)
  rw [V3_arg0, V3_arg3, V3_v15]

theorem W4_v5 (c : Dev nD) : (W4 (F := Ideal) m ρ c (Proc.devRef .tc main_v5) : IVec S3300000 32) = Cert.Gcn.srcs (ae m c) :=
  (W4_of_ne m ρ c main_v5 (by decide)).trans
    ((keep0_2 (W2 m ρ c) main_v5 (by decide)).trans ((keep0_1 (W1 m ρ c) main_v5 (by decide)).trans (W1_v5 m ρ c)))
theorem W4_v6 (c : Dev nD) : (W4 (F := Ideal) m ρ c (Proc.devRef .tc main_v6) : IVec S3300000 32) = Cert.Gcn.tgts (ae m c) :=
  (W4_of_ne m ρ c main_v6 (by decide)).trans
    ((keep0_2 (W2 m ρ c) main_v6 (by decide)).trans ((keep0_1 (W1 m ρ c) main_v6 (by decide)).trans (W1_v6 m ρ c)))

/-- The first call reads the column through an input window: the array is as entered. -/
theorem W4_v15 (c : Dev nD) : (W4 (F := Ideal) m ρ c (Proc.devRef .tc main_v15) : FVec Ideal S100000x1 .f32) = Cert.Gcn.dcol (ae m c) :=
  ((W4_arr m ρ c 2).trans (((dat0 (V3 m ρ) c).arrAt_in 2 rfl _).trans (A_eq0 (V3 m ρ) c 2))).trans (V3_v15 m ρ c)

/-! ## The second call -/

theorem V5_v27 (c : Dev nD) :
    (V5 (F := Ideal) m ρ c main_v27 : FVec Ideal S100000x64 .f32)
      = Cert.Gcn.agg (Cert.Gcn.lin1 (ax m c) (aw1 m c) (Cert.Gcn.dcol (ae m c))) (ae m c) :=
  (ops1_v27 (W4 m ρ c) _ _ _ (W4_v16 m ρ c) (W4_v5 m ρ c) (W4_v6 m ρ c)).trans (agg_eq _ _)

theorem V5_v15 (c : Dev nD) : (V5 (F := Ideal) m ρ c main_v15 : FVec Ideal S100000x1 .f32) = Cert.Gcn.dcol (ae m c) :=
  (keep1 (W4 m ρ c) main_v15 (by decide)).trans (W4_v15 m ρ c)

theorem V5_v28 (c : Dev nD) : (V5 (F := Ideal) m ρ c main_v28 : FVec Ideal S1x64 .f32) = Cert.Gcn.row64 (ab1 m c) :=
  ops1_v28 (W4 m ρ c) _ (up4 m ρ c main_arg4 (by decide) (by decide))

theorem V5_arg5 (c : Dev nD) : V5 (F := Ideal) m ρ c main_arg5 = aw2 m c :=
  up5 m ρ c main_arg5 (by decide) (by decide)

/-- The second call's result. -/
abbrev h2 (c : Dev nD) : FVec Ideal S100000x64 .bf16 :=
  Cert.Gcn.mid (Cert.Gcn.agg (Cert.Gcn.lin1 (ax m c) (aw1 m c) (Cert.Gcn.dcol (ae m c))) (ae m c)) (Cert.Gcn.dcol (ae m c))
    (Cert.Gcn.row64 (ab1 m c)) (aw2 m c)

theorem W6_v29 (c : Dev nD) : (W6 (F := Ideal) m ρ c (Proc.devRef .tc main_v29) : FVec Ideal S100000x64 .bf16) = h2 m c := by
  refine (W6_arr m ρ c 4).trans ((region1_value (V5 m ρ) c).trans ?_)
  rw [V5_v27, V5_v15, V5_v28, V5_arg5]

theorem W6_v5 (c : Dev nD) : (W6 (F := Ideal) m ρ c (Proc.devRef .tc main_v5) : IVec S3300000 32) = Cert.Gcn.srcs (ae m c) :=
  (W6_of_ne m ρ c main_v5 (by decide)).trans ((keep1 (W4 m ρ c) main_v5 (by decide)).trans (W4_v5 m ρ c))
theorem W6_v6 (c : Dev nD) : (W6 (F := Ideal) m ρ c (Proc.devRef .tc main_v6) : IVec S3300000 32) = Cert.Gcn.tgts (ae m c) :=
  (W6_of_ne m ρ c main_v6 (by decide)).trans ((keep1 (W4 m ρ c) main_v6 (by decide)).trans (W4_v6 m ρ c))

theorem W6_v15 (c : Dev nD) : (W6 (F := Ideal) m ρ c (Proc.devRef .tc main_v15) : FVec Ideal S100000x1 .f32) = Cert.Gcn.dcol (ae m c) :=
  ((W6_arr m ρ c 1).trans (((dat1 (V5 m ρ) c).arrAt_in 1 rfl _).trans (A_eq1 (V5 m ρ) c 1))).trans (V5_v15 m ρ c)

/-! ## The third call: its four inputs are padded by host operations -/

theorem V13_v41 (c : Dev nD) :
    (V13 (F := Ideal) m ρ c main_v41 : FVec Ideal S102400x64 .f32) = Cert.Gcn.padA (Cert.Gcn.agg (h2 m c) (ae m c)) :=
  (keep2_6 (W12 m ρ c) main_v41 (by decide)).trans
    ((keep2_5 (W11 m ρ c) main_v41 (by decide)).trans
      ((keep2_4 (W10 m ρ c) main_v41 (by decide)).trans
        ((keep2_3 (W9 m ρ c) main_v41 (by decide)).trans
          ((keep2_2 (W8 m ρ c) main_v41 (by decide)).trans
            (ops2_1_v41 (W7 m ρ c) _ _
              ((ops2_v40 (W6 m ρ c) _ _ _ (W6_v29 m ρ c) (W6_v5 m ρ c) (W6_v6 m ρ c)).trans (agg_eq _ _))
              (ops2_c_8 (W6 m ρ c)))))))

theorem V13_v42 (c : Dev nD) :
    (V13 (F := Ideal) m ρ c main_v42 : FVec Ideal S102400x1 .f32) = Cert.Gcn.padD (Cert.Gcn.dcol (ae m c)) :=
  (keep2_6 (W12 m ρ c) main_v42 (by decide)).trans
    ((keep2_5 (W11 m ρ c) main_v42 (by decide)).trans
      ((keep2_4 (W10 m ρ c) main_v42 (by decide)).trans
        (ops2_3_v42 (W9 m ρ c) _ _
          ((keep2_2 (W8 m ρ c) main_v15 (by decide)).trans
            ((keep2_1 (W7 m ρ c) main_v15 (by decide)).trans
              ((keep2 (W6 m ρ c) main_v15 (by decide)).trans (W6_v15 m ρ c))))
          (ops2_2_c_9 (W8 m ρ c)))))

theorem V13_v43 (c : Dev nD) : (V13 (F := Ideal) m ρ c main_v43 : IVec S102400 32) = Cert.Gcn.padB (abt m c) :=
  (keep2_6 (W12 m ρ c) main_v43 (by decide)).trans
    (ops2_5_v43 (W11 m ρ c) _ _ (up11 m ρ c main_arg2 (by decide) (by decide) (by decide)) (ops2_4_c_10 (W10 m ρ c)))

theorem V13_v44 (c : Dev nD) : (V13 (F := Ideal) m ρ c main_v44 : FVec Ideal S1x64 .f32) = Cert.Gcn.row64 (ab2 m c) :=
  ops2_6_v44 (W12 m ρ c) _ (up12 m ρ c main_arg6 (by decide) (by decide) (by decide))

/-- The third call's result. -/
abbrev s3 (c : Dev nD) : FVec Ideal S256x64 .f32 :=
  Cert.Gcn.poolSum (Cert.Gcn.padB (abt m c)) (Cert.Gcn.padA (Cert.Gcn.agg (h2 m c) (ae m c)))
    (Cert.Gcn.padD (Cert.Gcn.dcol (ae m c))) (Cert.Gcn.row64 (ab2 m c))

theorem W14_v45 (c : Dev nD) : (W14 (F := Ideal) m ρ c (Proc.devRef .tc main_v45) : FVec Ideal S256x64 .f32) = s3 m c := by
  refine (W14_arr m ρ c 4).trans ((region2_value (V13 m ρ) c).trans ?_)
  rw [V13_v43, V13_v41, V13_v42, V13_v44]

/-! ## The fourth call -/

theorem V15_v54 (c : Dev nD) :
    (V15 (F := Ideal) m ρ c main_v54 : FVec Ideal S256x64 .f32) = Host.divf (F := Ideal) (s3 m c) (Cert.Gcn.cntb (abt m c)) :=
  ops3_v54 (W14 m ρ c) _ _ (W14_v45 m ρ c) (up14 m ρ c main_arg2 (by decide) (by decide) (by decide) (by decide))

theorem V15_v55 (c : Dev nD) : (V15 (F := Ideal) m ρ c main_v55 : FVec Ideal S1x2 .f32) = Cert.Gcn.row2 (abl m c) :=
  ops3_v55 (W14 m ρ c) _ (up14 m ρ c main_arg8 (by decide) (by decide) (by decide) (by decide))

theorem V15_arg7 (c : Dev nD) : V15 (F := Ideal) m ρ c main_arg7 = awl m c :=
  up15 m ρ c main_arg7 (by decide) (by decide) (by decide) (by decide)

theorem out_eq (c : Dev nD) :
    W16 (F := Ideal) m ρ c (Proc.devRef .tc main_v56)
      = Cert.Gcn.head (Host.divf (F := Ideal) (s3 m c) (Cert.Gcn.cntb (abt m c))) (awl m c) (Cert.Gcn.row2 (abl m c)) := by
  refine (W16_arr m ρ c 3).trans ((region3_value (V15 m ρ) c).trans ?_)
  rw [V15_v54, V15_arg7, V15_v55]

/-- The result buffer at the last boundary is `kernelOut` of the launch contents of the nine arguments. -/
theorem kernel_value (c : Dev nD) :
    W16 (F := Ideal) m ρ c (Proc.devRef .tc main_v56) = Cert.Gcn.kernelOut
      (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7))
      (m ((c : Thread nD τ).loc main_arg8)) :=
  (out_eq m ρ c).trans rfl

end Cert.KernelIdeal.KV

end
-- ==== Proof.RefSide.lean ====
/-
  The reference program read back: its run and its operations read one at a time.
-/
import proofs.«401887_j19069654794648_2_alg».proof.Proof.RefRun
import proofs.«401887_j19069654794648_2_alg».proof.Proof.RefRead
-- ==== Proof.IdxFacts.lean ====
/-
  Gathers and scatter-adds along one axis, read at an index.

  A gather of rows reads, for output row `u`, the operand's row numbered by the `u`-th start index, taken as a signed
  number and clamped into `[0, N - 1]`.  A scatter-add sends update row `u` to the operand's row numbered by the
  `u`-th index taken as a signed number, and DROPS the update when that number is outside `[0, N)`: no clamping.
  A negative node number wrapped by `+ N` and then clamped is the number itself whenever it already lies in `[0, N)`.
-/
import proofs.«401887_j19069654794648_2_alg».proof.Proof.Spec
import proofs.«401887_j19069654794648_2_alg».proof.Proof.Gen.ReferenceIdeal
import Idealize.ShloMosaic.Lib.ValueIdx
import Idealize.ShloMosaic.Lib.Pipeline.Value

noncomputable section

namespace Cert.Gcn

open Idealize.ShloMosaic Idealize.ShloMosaic.ValueIdx Cert.KernelIdeal Cert.KernelIdeal.Facts₀
open scoped BigOperators

/-- The row a start index names: the word read signed, clamped into `[0, 99999]`. -/
def clampRow (b : BitVec 32) : Fin 100000 := ⟨min b.toInt.toNat 99999, by omega⟩

/-- A row gather of a `100000 × 64` table at `3300000` start indices, read at `(u, q)`. -/
theorem gather2_apply {α : Type} (x : S100000x64.Idx → α) (idx : IVec S3300000x1 32) (u : Fin 3300000) (q : Fin 64) :
    Host.gather gather_S100000x64_S3300000x1_S3300000x64_1_0_n_n_0_1_164 x idx (ix2 u q)
      = x (ix2 (clampRow (idx (ix2 u 0))) q) := by
  unfold Host.gather
  congr 1
  funext a
  refine Fin.ext ?_
  -- the operand coordinate on each axis is start + batching coordinate + offset coordinate
  match a with
  | ⟨0, _⟩ =>
    -- axis 0 is collapsed and named by the start index map: only the clamped start remains
    show gather_S100000x64_S3300000x1_S3300000x64_1_0_n_n_0_1_164.start (ix2 u q) idx 0
      + gather_S100000x64_S3300000x1_S3300000x64_1_0_n_n_0_1_164.batchCoord (ix2 u q) 0
      + gather_S100000x64_S3300000x1_S3300000x64_1_0_n_n_0_1_164.offCoord (ix2 u q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x64_S3300000x1_S3300000x64_1_0_n_n_0_1_164.startIndexMap from List.mem_singleton.mpr rfl)]
    -- the start index of result row `u` is read at `(u, 0)`
    have hsi : gather_S100000x64_S3300000x1_S3300000x64_1_0_n_n_0_1_164.siIdx (ix2 u q)
        ⟨List.idxOf (0 : Fin 2) gather_S100000x64_S3300000x1_S3300000x64_1_0_n_n_0_1_164.startIndexMap,
          List.idxOf_lt_length_iff.2 (List.mem_singleton.mpr rfl)⟩ = ix2 u 0 := by
      funext b; refine Fin.ext ?_
      match b with
      | ⟨0, _⟩ => rfl
      | ⟨1, _⟩ => rfl
    rw [hsi]
    rfl
  | ⟨1, _⟩ =>
    -- axis 1 is the one offset axis: no start, the result's column
    show gather_S100000x64_S3300000x1_S3300000x64_1_0_n_n_0_1_164.start (ix2 u q) idx 1
      + gather_S100000x64_S3300000x1_S3300000x64_1_0_n_n_0_1_164.batchCoord (ix2 u q) 1
      + gather_S100000x64_S3300000x1_S3300000x64_1_0_n_n_0_1_164.offCoord (ix2 u q) 1 = _
    rw [GatherDims.batchCoord_eq_zero _ _ _ List.not_mem_nil]
    unfold GatherDims.start
    rw [dif_neg (by decide)]
    simp only [Nat.add_zero, Nat.zero_add]
    rfl

/-- An element gather of a length-`100000` table at `3300000` start indices, read at `u`. -/
theorem gather1_apply {α : Type} (x : S100000.Idx → α) (idx : IVec S3300000x1 32) (u : Fin 3300000) :
    Host.gather Cert.ReferenceIdeal.gather_S100000_S3300000x1_S3300000_n_0_n_n_0_1_1 x idx (ix1 u)
      = x (ix1 (clampRow (idx (ix2 u 0)))) := by
  unfold Host.gather
  congr 1
  funext a
  obtain rfl : a = 0 := Subsingleton.elim _ _
  refine Fin.ext ?_
  -- the one operand axis is collapsed and named by the start index map: only the clamped start remains
  show Cert.ReferenceIdeal.gather_S100000_S3300000x1_S3300000_n_0_n_n_0_1_1.start (ix1 u) idx 0
    + Cert.ReferenceIdeal.gather_S100000_S3300000x1_S3300000_n_0_n_n_0_1_1.batchCoord (ix1 u) 0
    + Cert.ReferenceIdeal.gather_S100000_S3300000x1_S3300000_n_0_n_n_0_1_1.offCoord (ix1 u) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ Cert.ReferenceIdeal.gather_S100000_S3300000x1_S3300000_n_0_n_n_0_1_1.startIndexMap
    from List.mem_singleton.mpr rfl)]
  -- the start index of result element `u` is read at `(u, 0)`
  have hsi : Cert.ReferenceIdeal.gather_S100000_S3300000x1_S3300000_n_0_n_n_0_1_1.siIdx (ix1 u)
      ⟨List.idxOf (0 : Fin 1) Cert.ReferenceIdeal.gather_S100000_S3300000x1_S3300000_n_0_n_n_0_1_1.startIndexMap,
        List.idxOf_lt_length_iff.2 (List.mem_singleton.mpr rfl)⟩ = ix2 u 0 := by
    funext b; refine Fin.ext ?_
    match b with
    | ⟨0, _⟩ => rfl
    | ⟨1, _⟩ => rfl
  rw [hsi]
  rfl

/-! ## A scatter of rows, for any sizes

Update row `u` of a `U × C` array goes whole to the row of an `N × C` operand that the `u`-th index names: on the
row axis the position is the index read signed (no window coordinate), on the column axis it is the update's column
(no start).  The update lands exactly when the signed index is a row number. -/

/-- The dimension numbers of a scatter of rows: update row `u` goes whole to the operand's row its one index names. -/
abbrev rowScatter (N U C : Nat) (wf : ScatterDims.WF ⟨2, ![N, C]⟩ ⟨2, ![U, 1]⟩ ⟨2, ![U, C]⟩ [1] [0] [0] 1) :
    ScatterDims ⟨2, ![N, C]⟩ ⟨2, ![U, 1]⟩ ⟨2, ![U, C]⟩ where
  updateWindowDims := [1]
  insertedWindowDims := [0]
  scatterDimsToOperandDims := [0]
  indexVectorDim := 1
  wf := wf

section RowScatter
variable {N U C w : Nat} (wf : ScatterDims.WF ⟨2, ![N, C]⟩ ⟨2, ![U, 1]⟩ ⟨2, ![U, C]⟩ [1] [0] [0] 1)
  (idx : IVec ⟨2, ![U, 1]⟩ w) (u : Fin U) (q' : Fin C)

/-- On the row axis the window starts at the `u`-th index, read signed. -/
theorem rowScatter_start0 : (rowScatter N U C wf).start (ix2 u q') idx 0 = (idx (ix2 u 0)).toInt := by
  unfold ScatterDims.start
  rw [dif_pos (show (0 : Fin 2) ∈ (rowScatter N U C wf).scatterDimsToOperandDims from List.mem_singleton.mpr rfl)]
  have hsi : (rowScatter N U C wf).siIdx (ix2 u q')
      ⟨List.idxOf (0 : Fin 2) (rowScatter N U C wf).scatterDimsToOperandDims,
        List.idxOf_lt_length_iff.2 (List.mem_singleton.mpr rfl)⟩ = ix2 u 0 := by
    funext b; refine Fin.ext ?_
    match b with
    | ⟨0, _⟩ => rfl
    | ⟨1, _⟩ => rfl
  rw [hsi]

/-- On the column axis the window starts at `0`. -/
theorem rowScatter_start1 : (rowScatter N U C wf).start (ix2 u q') idx 1 = 0 := by
  unfold ScatterDims.start
  rw [dif_neg (show (1 : Fin 2) ∉ ([0] : List (Fin 2)) by decide)]

/-- The row axis is inserted: no window coordinate there. -/
theorem rowScatter_window0 : (rowScatter N U C wf).window (ix2 u q') 0 = 0 := by
  unfold ScatterDims.window
  have hm : (0 : Fin 2) ∉ (rowScatter N U C wf).sKept :=
    show (0 : Fin 2) ∉ (List.finRange 2).filter (· ∉ ([0] : List (Fin 2))) by decide
  rw [dif_neg hm]

/-- The column axis carries the update's column. -/
theorem rowScatter_window1 : (rowScatter N U C wf).window (ix2 u q') 1 = q'.val := by
  unfold ScatterDims.window
  have hm : (1 : Fin 2) ∈ (rowScatter N U C wf).sKept :=
    show (1 : Fin 2) ∈ (List.finRange 2).filter (· ∉ ([0] : List (Fin 2))) by decide
  rw [dif_pos hm]
  rfl

/-- Update `(u, q')` lands at `(r, q)` exactly when the `u`-th index, read signed, is `r` and the columns agree. -/
theorem rowScatter_hit (r : Fin N) (q : Fin C) :
    (rowScatter N U C wf).resultIdx? (ix2 u q') idx = some (ix2 r q)
      ↔ (idx (ix2 u 0)).toInt = (r.val : Int) ∧ q' = q := by
  have h0 : (rowScatter N U C wf).start (ix2 u q') idx 0 + ((rowScatter N U C wf).window (ix2 u q') 0 : Int)
      = (idx (ix2 u 0)).toInt := by
    rw [rowScatter_start0, rowScatter_window0]; simp
  have h1 : (rowScatter N U C wf).start (ix2 u q') idx 1 + ((rowScatter N U C wf).window (ix2 u q') 1 : Int)
      = (q'.val : Int) := by
    rw [rowScatter_start1, rowScatter_window1]; simp
  unfold ScatterDims.resultIdx?
  split
  · -- the position is inside the operand on both axes: compare it with `(r, q)` coordinate by coordinate
    rename_i h
    have hr0 := h 0
    rw [h0] at hr0
    rw [Option.some.injEq]
    constructor
    · intro e
      have e0 : ((rowScatter N U C wf).start (ix2 u q') idx 0 + ((rowScatter N U C wf).window (ix2 u q') 0 : Int)).toNat
          = r.val := congrArg (fun f => (f 0).val) e
      have e1 : ((rowScatter N U C wf).start (ix2 u q') idx 1 + ((rowScatter N U C wf).window (ix2 u q') 1 : Int)).toNat
          = q.val := congrArg (fun f => (f 1).val) e
      rw [h0] at e0
      rw [h1] at e1
      refine ⟨by omega, Fin.ext (by omega)⟩
    · rintro ⟨e0, e1⟩
      funext a
      refine Fin.ext ?_
      match a with
      | ⟨0, _⟩ =>
        show ((rowScatter N U C wf).start (ix2 u q') idx 0 + ((rowScatter N U C wf).window (ix2 u q') 0 : Int)).toNat = r.val
        rw [h0, e0]; exact Int.toNat_natCast _
      | ⟨1, _⟩ =>
        show ((rowScatter N U C wf).start (ix2 u q') idx 1 + ((rowScatter N U C wf).window (ix2 u q') 1 : Int)).toNat = q.val
        rw [h1, e1]; exact Int.toNat_natCast _
  · -- the position leaves the operand on some axis: then the signed index is no row number
    rename_i h
    constructor
    · intro e; exact absurd e (by simp)
    · rintro ⟨e0, e1⟩
      refine absurd ?_ h
      intro a
      match a with
      | ⟨0, _⟩ =>
        show 0 ≤ (rowScatter N U C wf).start (ix2 u q') idx 0 + ((rowScatter N U C wf).window (ix2 u q') 0 : Int)
          ∧ (rowScatter N U C wf).start (ix2 u q') idx 0 + ((rowScatter N U C wf).window (ix2 u q') 0 : Int) < (N : Int)
        rw [h0, e0]; have := r.isLt; omega
      | ⟨1, _⟩ =>
        show 0 ≤ (rowScatter N U C wf).start (ix2 u q') idx 1 + ((rowScatter N U C wf).window (ix2 u q') 1 : Int)
          ∧ (rowScatter N U C wf).start (ix2 u q') idx 1 + ((rowScatter N U C wf).window (ix2 u q') 1 : Int) < (C : Int)
        rw [h1]; have := q'.isLt; omega

end RowScatter

/-- Update `(u, q')` of a row scatter into a `100000 × 64` table lands at `(r, q)` exactly when the `u`-th index,
    read signed, is `r` and the columns agree. -/
theorem scatter2_hit (idx : IVec S3300000x1 32) (u : Fin 3300000) (q' : Fin 64) (r : Fin 100000) (q : Fin 64) :
    scatter_S100000x64_S3300000x1_S3300000x64_1_0_0_1.resultIdx? (ix2 u q') idx = some (ix2 r q)
      ↔ (idx (ix2 u 0)).toInt = (r.val : Int) ∧ q' = q :=
  rowScatter_hit scatter_S100000x64_S3300000x1_S3300000x64_1_0_0_1_wf idx u q' r q

/-- The same for the per-graph scatter of `100000` node rows into a `256 × 64` table. -/
theorem scatter4_hit (idx : IVec S100000x1 32) (n : Fin 100000) (q' : Fin 64) (g : Fin 256) (q : Fin 64) :
    Cert.ReferenceIdeal.scatter_S256x64_S100000x1_S100000x64_1_0_0_1.resultIdx? (ix2 n q') idx = some (ix2 g q)
      ↔ (idx (ix2 n 0)).toInt = (g.val : Int) ∧ q' = q :=
  rowScatter_hit Cert.ReferenceIdeal.Facts₀.scatter_S256x64_S100000x1_S100000x64_1_0_0_1_wf idx n q' g q

/-- The one-column array of index vectors holds the list's entries. -/
theorem col_apply (v : IVec S3300000 32) (u : Fin 3300000) : col v (ix2 u 0) = v (ix1 u) := by
  unfold col
  -- the list's one axis has more than one entry, so it is read at the row coordinate
  refine broadcastInDim_apply _ _ v (ix2 u 0) (ix1 u) ?_
  intro a
  obtain rfl : a = 0 := Subsingleton.elim _ _
  rw [if_neg (by decide)]
  rfl

/-- The same for the node-to-graph list. -/
theorem colB_apply (bt : IVec S100000 32) (n : Fin 100000) :
    broadcastInDim S100000x1 ![0] bcast_S100000_S100000x1_0 bt (ix2 n 0) = bt (ix1 n) := by
  refine broadcastInDim_apply _ _ bt (ix2 n 0) (ix1 n) ?_
  intro a
  obtain rfl : a = 0 := Subsingleton.elim _ _
  rw [if_neg (by decide)]
  rfl

/-- A node number already in `[0, N)` is unchanged by wrapping and clamping. -/
theorem clampRow_wrap (v : IVec S3300000 32) (u : Fin 3300000) (r : Fin 100000)
    (h : (v (ix1 u)).toInt = (r.val : Int)) : clampRow (wrap v (ix1 u)) = r := by
  -- at one entry the wrap is a select on "the entry is negative" between the entry plus `N` and the entry
  have hw : wrap v (ix1 u) = Scalar.select (IntOp.cmpi .slt (v (ix1 u)) 0#32)
      (IntOp.addi (v (ix1 u)) 100000#32) (v (ix1 u)) := rfl
  -- the entry reads as `r ≥ 0`, so it is not negative
  have hs : (v (ix1 u)).slt 0#32 = false := by
    rw [BitVec.slt_eq_decide, BitVec.toInt_zero, h]
    exact decide_eq_false (by omega)
  have hc : IntOp.cmpi .slt (v (ix1 u)) 0#32 = 0#1 := by
    show BitVec.ofBool ((v (ix1 u)).slt 0#32) = 0#1
    rw [hs]; rfl
  rw [hw, hc, select_zero]
  -- and clamping `r < N` into `[0, N - 1]` leaves it
  refine Fin.ext ?_
  show min (v (ix1 u)).toInt.toNat 99999 = r.val
  rw [h, Int.toNat_natCast]
  have := r.isLt
  omega

end Cert.Gcn

end
-- ==== Proof.Layer.lean ====
/-
  One convolution layer: the reference's arrangement and the kernel's are one function.

  For a target node `v` and a feature `q` the reference sums, over the edges `u` of `A` whose target is `v`,
  `h (src u) q · (dv (src u) · dv (tgt u))`; the kernel sums `h (src u) q · dv (src u)` over the same edges and
  multiplies the sum by `dv v`.  On the selected edges `tgt u = v`, so the second factor is `dv v`; it moves out of
  every term by associativity and commutativity, and out of the sum because `dv v` is a non-negative real number:
  multiplication by such a number distributes over addition of extended reals, infinities included.
-/
import proofs.«401887_j19069654794648_2_alg».proof.Proof.IdxFacts
import Mathlib.Data.EReal.Operations
import Idealize.ShloMosaic.Lib.IdealHost

noncomputable section

namespace Cert.Gcn

open Idealize.ShloMosaic Idealize.ShloMosaic.ValueIdx Cert.KernelIdeal Cert.KernelIdeal.Facts₀
open scoped BigOperators

/-- Multiplication by a non-negative real (never `⊤`) distributes over a finite sum of extended reals. -/
theorem mul_sum_of_nonneg {ι : Type} (s : Finset ι) (f : ι → EReal) (c : EReal) (h0 : 0 ≤ c) (ht : c ≠ ⊤) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- The guarded reciprocal square root of one extended real: where `x > 0` it is `0` (at `⊤`) or the positive real
    `(√x)⁻¹`; elsewhere the guard puts `0`. -/
theorem guarded_rsqrt_nonneg (x : EReal) :
    0 ≤ Scalar.select (Ideal.cmp .ogt x 0) (Ideal.rsqrt x) (0 : EReal)
      ∧ Scalar.select (Ideal.cmp .ogt x 0) (Ideal.rsqrt x) (0 : EReal) ≠ ⊤ := by
  by_cases hx : (0 : EReal) < x
  · have hb : Ideal.cmp .ogt x 0 = 1#1 := by simp [Ideal.cmp, hx]
    rw [hb, select_one]
    induction x using EReal.rec with
    | bot => simp at hx
    | top => simp
    | coe r =>
      have hr : 0 < r := by exact_mod_cast hx
      rw [Ideal.rsqrt_coe, if_neg (not_lt.mpr hr.le), if_neg hr.ne']
      refine ⟨?_, EReal.coe_ne_top _⟩
      exact_mod_cast (inv_nonneg.mpr (Real.sqrt_nonneg r))
  · have hb : Ideal.cmp .ogt x 0 = 0#1 := by simp [Ideal.cmp, hx]
    rw [hb, select_zero]
    simp

/-- The same for a whole array of degrees, read at one node. -/
theorem guarded_vec_nonneg (d : FVec Ideal S100000 .f32) (v : S100000.Idx) :
    0 ≤ select (cmpf .ogt d (broadcastInDim S100000 ![] bcast_S_S100000 (constant S_ .f32 0x00000000#32)))
          (Host.rsqrt d) (broadcastInDim S100000 ![] bcast_S_S100000 (constant S_ .f32 0x00000000#32)) v
      ∧ select (cmpf .ogt d (broadcastInDim S100000 ![] bcast_S_S100000 (constant S_ .f32 0x00000000#32)))
          (Host.rsqrt d) (broadcastInDim S100000 ![] bcast_S_S100000 (constant S_ .f32 0x00000000#32)) v ≠ ⊤ := by
  have hzero : broadcastInDim S100000 ![] bcast_S_S100000 (constant (F := Ideal) S_ .f32 0x00000000#32) v = 0 := by
    rw [broadcastInDim_scalar_apply, constant_apply, Ideal.ofBits_zero_f32]
  rw [select_apply, cmpf_apply, hzero, Ideal.cmpf_def]
  exact guarded_rsqrt_nonneg (d v)

/-- `dinv` is a non-negative real at every node: the reciprocal square root is taken only where the degree is
    positive, and `0` stands elsewhere. -/
theorem dinv_nonneg (e : IVec S2x3200000 32) (v : S100000.Idx) : 0 ≤ dinv e v ∧ dinv e v ≠ ⊤ :=
  guarded_vec_nonneg (deg e) v

/-- Rows of `h` scaled by a per-row factor. -/
def scaleRows (h : FVec Ideal S100000x64 .f32) (dv : FVec Ideal S100000 .f32) : FVec Ideal S100000x64 .bf16 :=
  unc2 fun r q => h (ix2 r q) * dv (ix1 r)

/-- THE LAYER IDENTITY at one index: the sum of edge messages weighted by `dv (src) · dv (tgt)` is `dv v` times
    the sum of the pre-scaled rows. -/
theorem layer_pt (h : FVec Ideal S100000x64 .f32) (dv : FVec Ideal S100000 .f32)
    (hdv : ∀ v, 0 ≤ dv v ∧ dv v ≠ ⊤) (sI tI : IVec S3300000 32) (z : FVec Ideal S100000x64 .f32) (hz : ∀ i, z i = 0)
    (r : Fin 100000) (q : Fin 64) :
    Host.scatterAdd scatter_S100000x64_S3300000x1_S3300000x64_1_0_0_1 z (col tI)
        (fun u : S3300000x64.Idx =>
          Host.gather gather_S100000x64_S3300000x1_S3300000x64_1_0_n_n_0_1_164 h (col (wrap sI)) u
            * (Host.gather Cert.ReferenceIdeal.gather_S100000_S3300000x1_S3300000_n_0_n_n_0_1_1 dv (col (wrap sI)) (ix1 (u 0))
               * Host.gather Cert.ReferenceIdeal.gather_S100000_S3300000x1_S3300000_n_0_n_n_0_1_1 dv (col (wrap tI)) (ix1 (u 0))))
        (ix2 r q)
      = dv (ix1 r) * Host.scatterAdd scatter_S100000x64_S3300000x1_S3300000x64_1_0_0_1 z (col tI)
          (Host.gather gather_S100000x64_S3300000x1_S3300000x64_1_0_n_n_0_1_164 (scaleRows h dv) (col (wrap sI)))
          (ix2 r q) := by
  simp only [Host.scatterAdd, Ideal.hostScatterAdd_def, Ideal.hostScatterAdd]
  rw [hz, zero_add, zero_add, mul_sum_of_nonneg _ _ _ (hdv _).1 (hdv _).2]
  refine Finset.sum_congr rfl fun j hj => ?_
  obtain ⟨u, q', rfl⟩ : ∃ (u : Fin 3300000) (q' : Fin 64), j = ix2 u q' := ⟨j 0, j 1, eq_ix2 j⟩
  rw [Finset.mem_filter, scatter2_hit, col_apply] at hj
  obtain ⟨-, hu, rfl⟩ := hj
  change Host.gather gather_S100000x64_S3300000x1_S3300000x64_1_0_n_n_0_1_164 h (col (wrap sI)) (ix2 u q')
      * (Host.gather Cert.ReferenceIdeal.gather_S100000_S3300000x1_S3300000_n_0_n_n_0_1_1 dv (col (wrap sI)) (ix1 u)
         * Host.gather Cert.ReferenceIdeal.gather_S100000_S3300000x1_S3300000_n_0_n_n_0_1_1 dv (col (wrap tI)) (ix1 u))
    = dv (ix1 r) * Host.gather gather_S100000x64_S3300000x1_S3300000x64_1_0_n_n_0_1_164 (scaleRows h dv) (col (wrap sI)) (ix2 u q')
  rw [gather2_apply, gather2_apply, gather1_apply, gather1_apply, col_apply, col_apply, clampRow_wrap tI u r hu]
  change h _ * (dv _ * dv (ix1 r)) = dv (ix1 r) * (h _ * dv _)
  rw [mul_comm (dv (ix1 r)), mul_assoc]

end Cert.Gcn

end
-- ==== Proof.Pool.lean ====
/-
  The mean pool's numerator: a per-graph scatter-add of node rows is the kernel's one-hot sum over the padded nodes.

  The scatter-add puts node `n`'s row into graph `g` exactly when the node's graph number, read signed, is `g`; for
  `g < 256` that is the word equality the one-hot mask tests.  The 2400 padding nodes carry graph number `-1`, which
  matches no `g`, so their terms are `0 · (…) = 0` whatever their rows hold.
-/
import proofs.«401887_j19069654794648_2_alg».proof.Proof.IdxFacts
import Idealize.ShloMosaic.Lib.KernelVsHost

noncomputable section

namespace Cert.Gcn

open Idealize.ShloMosaic Idealize.ShloMosaic.ValueIdx Cert.KernelIdeal Cert.KernelIdeal.Facts₀
open scoped BigOperators

/-- A word read signed is the small number `g` exactly when it is the word of `g`. -/
theorem toInt_eq_small (w : BitVec 32) (g : Fin 256) :
    w.toInt = (g.val : Int) ↔ w = BitVec.ofNat 32 g.val := by
  have hg := g.isLt
  constructor
  · intro h
    apply BitVec.eq_of_toNat_eq
    rw [BitVec.toNat_ofNat]
    have hw := w.isLt
    rw [BitVec.toInt_eq_toNat_cond] at h
    split at h <;> omega
  · rintro rfl
    rw [BitVec.toInt_eq_toNat_cond, BitVec.toNat_ofNat]
    have : g.val % 2 ^ 32 = g.val := Nat.mod_eq_of_lt (by omega)
    rw [this]
    split <;> omega

/-- The padding value `-1` is the word of no graph number below 256. -/
theorem neg_one_ne_small (g : Fin 256) : (4294967295#32 : BitVec 32) ≠ BitVec.ofNat 32 g.val := by
  intro h
  have := congrArg BitVec.toNat h
  simp only [BitVec.toNat_ofNat] at this
  have hg := g.isLt
  omega

/-- A sum over the 102400 padded nodes is the sum over the 100000 nodes plus the sum over the 2400 padding nodes. -/
theorem sum_padded (f : Fin 102400 → EReal) :
    ∑ n, f n = ∑ n : Fin 100000, f ⟨n.val, by omega⟩ + ∑ n : Fin 2400, f ⟨100000 + n.val, by omega⟩ :=
  Fin.sum_univ_add (M := EReal) (a := 100000) (b := 2400) f

/-- The padded graph numbers at a node are the node's own. -/
theorem padB_node (bt : IVec S100000 32) (n : Fin 100000) :
    padB bt (ix1 (⟨n.val, by omega⟩ : Fin 102400)) = bt (ix1 n) := by
  unfold padB
  exact pad_apply_of_inside _ _ _ bt _ pads_S100000_S102400_024000 h_S_ _ (ix1 n) (by
    intro a; fin_cases a; simp [ix1])

/-- The padded graph numbers at a padding node are `-1`. -/
theorem padB_padding (bt : IVec S100000 32) (n : Fin 2400) :
    padB bt (ix1 (⟨100000 + n.val, by omega⟩ : Fin 102400)) = 4294967295#32 := by
  unfold padB
  rw [pad_apply_of_not_inside _ _ _ bt _ pads_S100000_S102400_024000 h_S_ _ 0 (by
    simp [ix1, Shape.size])]
  rfl

/-- The padded features at a node are the node's own. -/
theorem padA_node (a : FVec Ideal S100000x64 .f32) (n : Fin 100000) (q : Fin 64) :
    padA a (ix2 (⟨n.val, by omega⟩ : Fin 102400) q) = a (ix2 n q) := by
  unfold padA
  exact pad_apply_of_inside _ _ _ a _ pads_S100000x64_S102400x64_024000_000 h_S_ _ (ix2 n q) (by
    intro c; fin_cases c <;> simp [ix2])

/-- The padded column at a node is the node's own. -/
theorem padD_node (d : FVec Ideal S100000x1 .f32) (n : Fin 100000) :
    padD d (ix2 (⟨n.val, by omega⟩ : Fin 102400) 0) = d (ix2 n 0) := by
  unfold padD
  exact pad_apply_of_inside _ _ _ d _ pads_S100000x1_S102400x1_024000_000 h_S_ _ (ix2 n 0) (by
    intro c; fin_cases c <;> simp [ix2])

/-- A sum over columns that keeps only the column `q`, under a side condition on the row. -/
theorem sum_col_pick (P : Prop) [Decidable P] (q : Fin 64) (f : Fin 64 → EReal) :
    (∑ q' : Fin 64, if P ∧ q' = q then f q' else 0) = if P then f q else 0 := by
  by_cases hP : P
  · simp only [hP, true_and, if_true]
    exact Finset.sum_ite_eq' Finset.univ q f |>.trans (by simp)
  · simp only [hP, false_and, if_false]
    exact Finset.sum_const_zero

/-- The reference's per-graph sums of the activation equal the kernel's one-hot sums over the padded node axis. -/
theorem pool_pt (a : FVec Ideal S100000x64 .f32) (d : FVec Ideal S100000x1 .f32) (b : FVec Ideal S1x64 .f32)
    (bt : IVec S100000 32) (z : FVec Ideal S256x64 .f32) (hz : ∀ i, z i = 0) (g : Fin 256) (q : Fin 64) :
    Host.scatterAdd Cert.ReferenceIdeal.scatter_S256x64_S100000x1_S100000x64_1_0_0_1 z
        (broadcastInDim S100000x1 ![0] bcast_S100000_S100000x1_0 bt) (act a d b) (ix2 g q)
      = poolSum (padB bt) (padA a) (padD d) b (ix2 g q) := by
  -- the scatter-add at `(g, q)`: the sum of the updates that land there
  have hL : Host.scatterAdd Cert.ReferenceIdeal.scatter_S256x64_S100000x1_S100000x64_1_0_0_1 z
        (broadcastInDim S100000x1 ![0] bcast_S100000_S100000x1_0 bt) (act a d b) (ix2 g q)
      = ∑ n : Fin 100000, if bt (ix1 n) = BitVec.ofNat 32 g.val
          then max (d (ix2 n 0) * a (ix2 n q) + b (ix2 0 q)) 0 else 0 := by
    unfold Host.scatterAdd
    rw [Ideal.hostScatterAdd_def]
    unfold Ideal.hostScatterAdd
    rw [hz, zero_add, Finset.sum_filter, sum_idx2]
    refine Finset.sum_congr rfl fun n _ => ?_
    have hin : ∀ q' : Fin 64,
        (if Cert.ReferenceIdeal.scatter_S256x64_S100000x1_S100000x64_1_0_0_1.resultIdx? (ix2 n q')
              (broadcastInDim S100000x1 ![0] bcast_S100000_S100000x1_0 bt) = some (ix2 g q)
          then act a d b (ix2 n q') else 0)
        = if (bt (ix1 n) = BitVec.ofNat 32 g.val) ∧ q' = q
          then max (d (ix2 n 0) * a (ix2 n q') + b (ix2 0 q')) 0 else 0 := by
      intro q'
      refine if_congr ?_ rfl rfl
      rw [scatter4_hit, colB_apply, toInt_eq_small]
    rw [Finset.sum_congr rfl fun q' _ => hin q']
    exact sum_col_pick _ q fun q' => max (d (ix2 n 0) * a (ix2 n q') + b (ix2 0 q')) 0
  -- the one-hot sum over the padded nodes: the padding nodes contribute nothing
  have hR : poolSum (padB bt) (padA a) (padD d) b (ix2 g q)
      = ∑ n : Fin 100000, if bt (ix1 n) = BitVec.ofNat 32 g.val
          then max (d (ix2 n 0) * a (ix2 n q) + b (ix2 0 q)) 0 else 0 := by
    show (∑ n : Fin 102400, onehot (padB bt (ix1 n)) g
        * max (padD d (ix2 n 0) * padA a (ix2 n q) + b (ix2 0 q)) 0) = _
    rw [sum_padded]
    have hpad : (∑ n : Fin 2400, onehot (padB bt (ix1 (⟨100000 + n.val, by omega⟩ : Fin 102400))) g
        * max (padD d (ix2 (⟨100000 + n.val, by omega⟩ : Fin 102400) 0)
            * padA a (ix2 (⟨100000 + n.val, by omega⟩ : Fin 102400) q) + b (ix2 0 q)) 0) = 0 := by
      refine Finset.sum_eq_zero fun n _ => ?_
      rw [padB_padding, onehot, if_neg (neg_one_ne_small g), zero_mul]
    rw [hpad, add_zero]
    refine Finset.sum_congr rfl fun n _ => ?_
    rw [padB_node, padA_node, padD_node, onehot]
    split
    · rw [one_mul]
    · rw [zero_mul]
  rw [hL, hR]

end Cert.Gcn

end
-- ==== Proof.RefBridge.lean ====
/-
  The reference program's result is the kernel program's result, as functions of the nine arguments.

  Read stage by stage: the degree, `dinv` and the edge index lists are the same operations in both programs; each
  convolution layer is the layer identity; the pool's numerator is the one-hot sum; the node counts, the division and the
  linear head are the same operations again, a product with a weight matrix being the plain sum over the contracted axis.
-/
import proofs.«401887_j19069654794648_2_alg».proof.Proof.RefRead
import proofs.«401887_j19069654794648_2_alg».proof.Proof.Layer
import proofs.«401887_j19069654794648_2_alg».proof.Proof.Pool
import Idealize.ShloMosaic.Lib.Pipeline.Value
import Idealize.ShloMosaic.PureOps.Ideal.Laws

noncomputable section

namespace Cert.Gcn

open Idealize.ShloMosaic Idealize.ShloMosaic.ValueIdx Cert.KernelIdeal Cert.KernelIdeal.Facts₀
open Cert.ReferenceIdeal.ReadP
open scoped BigOperators

/-! ## The index lists, the degree and `dinv`: the same operations in both programs -/

theorem ref_srcs (x1 : IVec S2x3200000 32) : val_main_v6 (F := Ideal) x1 = srcs x1 := by
  unfold val_main_v6 val_main_v1 val_main_v0 val_main_v5 srcs
  rfl

theorem ref_tgts (x1 : IVec S2x3200000 32) : val_main_v7 (F := Ideal) x1 = tgts x1 := by
  unfold val_main_v7 val_main_v3 val_main_v2 val_main_v5 tgts
  rfl

theorem ref_srcs' (x1 : IVec S2x3200000 32) : val_main_v50 (F := Ideal) x1 = srcs x1 := by
  unfold val_main_v50 val_main_v1 val_main_v0 val_main_v49 srcs
  rfl

theorem ref_tgts' (x1 : IVec S2x3200000 32) : val_main_v51 (F := Ideal) x1 = tgts x1 := by
  unfold val_main_v51 val_main_v3 val_main_v2 val_main_v49 tgts
  rfl

theorem ref_dinv (x1 : IVec S2x3200000 32) : val_main_v15 (F := Ideal) x1 = dinv x1 := by
  unfold val_main_v15 val_main_v13 val_main_v14 val_main_call0_v1 val_main_call0_v0 val_main_cst_2 val_main_v12 val_main_cst_1 val_main_v11 val_main_v9 val_main_cst_0 val_main_v10 val_main_v8 val_main_cst dinv deg col
  rw [ref_tgts]
  rfl

theorem ref_dinv' (x1 : IVec S2x3200000 32) : val_main_v59 (F := Ideal) x1 = dinv x1 := by
  unfold val_main_v59 val_main_v57 val_main_v58 val_main_call2_v1 val_main_call2_v0 val_main_cst_12 val_main_v56 val_main_cst_11 val_main_v55 val_main_v53 val_main_cst_10 val_main_v54 val_main_v52 val_main_cst_9 dinv deg col
  rw [ref_tgts']
  rfl

theorem ref_v21 (x1 : IVec S2x3200000 32) : val_main_v21 (F := Ideal) x1 = col (wrap (srcs x1)) := by
  unfold val_main_v21 val_main_v20 val_main_v17 val_main_v19 val_main_v18 val_main_c_3 val_main_v16 val_main_c col wrap
  rw [ref_srcs]

theorem ref_v28 (x1 : IVec S2x3200000 32) : val_main_v28 (F := Ideal) x1 = col (wrap (tgts x1)) := by
  unfold val_main_v28 val_main_v27 val_main_v24 val_main_v26 val_main_v25 val_main_c_5 val_main_v23 val_main_c_4 col wrap
  rw [ref_tgts]

theorem ref_v36 (x1 : IVec S2x3200000 32) : val_main_v36 (F := Ideal) x1 = col (wrap (srcs x1)) := by
  unfold val_main_v36 val_main_v35 val_main_v32 val_main_v34 val_main_v33 val_main_c_7 val_main_v31 val_main_c_6 col wrap
  rw [ref_srcs]

theorem ref_v42 (x1 : IVec S2x3200000 32) : val_main_v42 (F := Ideal) x1 = col (tgts x1) := by
  unfold val_main_v42 col
  rw [ref_tgts]

theorem ref_v65 (x1 : IVec S2x3200000 32) : val_main_v65 (F := Ideal) x1 = col (wrap (srcs x1)) := by
  unfold val_main_v65 val_main_v64 val_main_v61 val_main_v63 val_main_v62 val_main_c_14 val_main_v60 val_main_c_13 col wrap
  rw [ref_srcs']

theorem ref_v72 (x1 : IVec S2x3200000 32) : val_main_v72 (F := Ideal) x1 = col (wrap (tgts x1)) := by
  unfold val_main_v72 val_main_v71 val_main_v68 val_main_v70 val_main_v69 val_main_c_16 val_main_v67 val_main_c_15 col wrap
  rw [ref_tgts']

theorem ref_v80 (x1 : IVec S2x3200000 32) : val_main_v80 (F := Ideal) x1 = col (wrap (srcs x1)) := by
  unfold val_main_v80 val_main_v79 val_main_v76 val_main_v78 val_main_v77 val_main_c_18 val_main_v75 val_main_c_17 col wrap
  rw [ref_srcs']

theorem ref_v86 (x1 : IVec S2x3200000 32) : val_main_v86 (F := Ideal) x1 = col (tgts x1) := by
  unfold val_main_v86 col
  rw [ref_tgts']

theorem ref_cntb (x2 : IVec S100000 32) : val_main_v102 (F := Ideal) x2 = cntb x2 := by
  unfold val_main_v102 val_main_v101 val_main_v100 val_main_v99 val_main_cst_23 val_main_v98 val_main_v97 val_main_v96 val_main_cst_22 val_main_v95 val_main_cst_21 cntb cnt
  rfl

/-! ## Small readings: zero arrays, the bias row, the `dinv` column; the two programs' gather and scatter dimension numbers are the same -/

theorem ref_v41_apply (i : S100000x64.Idx) : val_main_v41 (F := Ideal) i = 0 := by
  rw [val_main_v41_apply, val_main_cst_8_apply]; exact Ideal.ofBits_zero_f32

theorem ref_v85_apply (i : S100000x64.Idx) : val_main_v85 (F := Ideal) i = 0 := by
  rw [val_main_v85_apply, val_main_cst_19_apply]; exact Ideal.ofBits_zero_f32

theorem ref_v92_apply (i : S256x64.Idx) : val_main_v92 (F := Ideal) i = 0 := by
  rw [val_main_v92_apply, val_main_cst_20_apply]; exact Ideal.ofBits_zero_f32

theorem zero_v41 : val_main_v41 (F := Ideal)
    = (broadcastInDim S100000x64 ![] bcast_S_S100000x64 (constant S_ .f32 0x00000000#32) : FVec Ideal S100000x64 .f32) := by
  unfold val_main_v41 val_main_cst_8; rfl

theorem zero_v85 : val_main_v85 (F := Ideal)
    = (broadcastInDim S100000x64 ![] bcast_S_S100000x64 (constant S_ .f32 0x00000000#32) : FVec Ideal S100000x64 .f32) := by
  unfold val_main_v85 val_main_cst_19; rfl

theorem scat2_rec : Cert.ReferenceIdeal.scatter_S100000x64_S3300000x1_S3300000x64_1_0_0_1
    = scatter_S100000x64_S3300000x1_S3300000x64_1_0_0_1 := rfl

theorem gath2_rec : Cert.ReferenceIdeal.gather_S100000x64_S3300000x1_S3300000x64_1_0_n_n_0_1_164
    = gather_S100000x64_S3300000x1_S3300000x64_1_0_n_n_0_1_164 := rfl

theorem dcol_apply (x1 : IVec S2x3200000 32) (r : Fin 100000) : dcol x1 (ix2 r 0) = dinv x1 (ix1 r) := by
  unfold dcol
  generalize dinv x1 = y
  exact shapeCast_apply y shapeCasts_S100000_S100000x1 (ix2 r 0) (ix1 r) (by
    rw [Shape.rowMajor_val_two, Shape.rowMajor_val_one]; show r.val = r.val * 1 + 0; omega)

theorem row64_apply (b : FVec Ideal S64 .f32) (q : Fin 64) : row64 b (ix2 0 q) = b (ix1 q) := by
  unfold row64
  exact shapeCast_apply b shapeCasts_S64_S1x64 (ix2 0 q) (ix1 q) (by
    rw [Shape.rowMajor_val_two, Shape.rowMajor_val_one]; show q.val = 0 * 64 + q.val; omega)

theorem extf_id {s : Shape} (G : FVec Ideal s .bf16) (h : FTy.bf16.bits < FTy.f32.bits) : extf .f32 G h = G :=
  funext fun i => extf_apply G h i

/-! ## Layer one -/

theorem lidx4 (r : Fin 100000) (q : Fin 64) (k : Fin 128) : lidx_main_v4 (ix2 r q) k = ix2 r k :=
  funext fun a => by match a with | ⟨0, _⟩ => rfl | ⟨1, _⟩ => rfl

theorem ridx4 (r : Fin 100000) (q : Fin 64) (k : Fin 128) : ridx_main_v4 (ix2 r q) k = ix2 k q :=
  funext fun a => by match a with | ⟨0, _⟩ => rfl | ⟨1, _⟩ => rfl

/-- The first product with the weights, its rows scaled by `dinv`, is the kernel's stage one. -/
theorem scale_lin1 (x0 : FVec Ideal S100000x128 .f32) (x1 : IVec S2x3200000 32) (x3 : FVec Ideal S128x64 .f32) :
    scaleRows (val_main_v4 (F := Ideal) x0 x3) (dinv x1) = lin1 x0 x3 (dcol x1) := by
  funext i
  obtain ⟨r, q, rfl⟩ : ∃ (r : Fin 100000) (q : Fin 64), i = ix2 r q := ⟨i 0, i 1, eq_ix2 i⟩
  show val_main_v4 (F := Ideal) x0 x3 (ix2 r q) * dinv x1 (ix1 r)
    = (∑ k : Fin 128, x0 (ix2 r k) * x3 (ix2 k q)) * dcol x1 (ix2 r 0)
  rw [val_main_v4_apply, dcol_apply]
  simp only [lidx4, ridx4]

/-- The per-edge messages of layer one, as the layer identity reads them. -/
theorem ref_v40 (x0 : FVec Ideal S100000x128 .f32) (x1 : IVec S2x3200000 32) (x3 : FVec Ideal S128x64 .f32) :
    val_main_v40 (F := Ideal) x0 x1 x3
      = fun u : S3300000x64.Idx =>
          Host.gather gather_S100000x64_S3300000x1_S3300000x64_1_0_n_n_0_1_164 (val_main_v4 (F := Ideal) x0 x3) (col (wrap (srcs x1))) u
            * (Host.gather Cert.ReferenceIdeal.gather_S100000_S3300000x1_S3300000_n_0_n_n_0_1_1 (dinv x1) (col (wrap (srcs x1))) (ix1 (u 0))
               * Host.gather Cert.ReferenceIdeal.gather_S100000_S3300000x1_S3300000_n_0_n_n_0_1_1 (dinv x1) (col (wrap (tgts x1))) (ix1 (u 0))) := by
  funext u
  rw [val_main_v40_apply, val_main_v39_apply, val_main_v38_apply, val_main_v30_apply]
  unfold val_main_v37 val_main_v22 val_main_v29
  rw [ref_v36, ref_v21, ref_v28, ref_dinv, gath2_rec]
  have e : idx_main_v38 (idx_main_v39 u) = ix1 (u 0) := funext fun a => by match a with | ⟨0, _⟩ => rfl
  rw [e]
  rfl

theorem agg1_eq (x0 : FVec Ideal S100000x128 .f32) (x1 : IVec S2x3200000 32) (x3 : FVec Ideal S128x64 .f32) :
    agg1 x0 x1 x3 = Host.scatterAdd scatter_S100000x64_S3300000x1_S3300000x64_1_0_0_1 (val_main_v41 (F := Ideal)) (col (tgts x1))
      (Host.gather gather_S100000x64_S3300000x1_S3300000x64_1_0_n_n_0_1_164 (scaleRows (val_main_v4 (F := Ideal) x0 x3) (dinv x1)) (col (wrap (srcs x1)))) := by
  unfold agg1 agg hp1
  rw [extf_id, scale_lin1, ← zero_v41]
  rfl

theorem ref_v43 (x0 : FVec Ideal S100000x128 .f32) (x1 : IVec S2x3200000 32) (x3 : FVec Ideal S128x64 .f32)
    (r : Fin 100000) (q : Fin 64) :
    val_main_v43 (F := Ideal) x0 x1 x3 (ix2 r q) = dinv x1 (ix1 r) * agg1 x0 x1 x3 (ix2 r q) := by
  unfold val_main_v43
  rw [ref_v42, ref_v40, scat2_rec, agg1_eq]
  exact layer_pt (val_main_v4 (F := Ideal) x0 x3) (dinv x1) (dinv_nonneg x1) (srcs x1) (tgts x1)
    (val_main_v41 (F := Ideal)) ref_v41_apply r q

theorem bias45 (x4 : FVec Ideal S64 .f32) (r : Fin 100000) (q : Fin 64) :
    val_main_v45 (F := Ideal) x4 (ix2 r q) = x4 (ix1 q) := by
  rw [val_main_v45_apply, val_main_v44_apply]
  exact congrArg x4 (funext fun a => by match a with | ⟨0, _⟩ => rfl)

/-- Layer one's activation, at an index. -/
theorem ref_act1 (x0 : FVec Ideal S100000x128 .f32) (x1 : IVec S2x3200000 32) (x3 : FVec Ideal S128x64 .f32)
    (x4 : FVec Ideal S64 .f32) (r : Fin 100000) (q : Fin 64) :
    val_main_v47 (F := Ideal) x0 x1 x3 x4 (ix2 r q) = act (agg1 x0 x1 x3) (dcol x1) (row64 x4) (ix2 r q) := by
  rw [val_main_v47_apply, val_main_v46_apply, val_main_call1_v0_apply, val_main_call1_cst_apply, bias45, ref_v43]
  show max (dinv x1 (ix1 r) * agg1 x0 x1 x3 (ix2 r q) + x4 (ix1 q)) (Ideal.ofBits .f32 0x00000000#32)
    = max (dcol x1 (ix2 r 0) * agg1 x0 x1 x3 (ix2 r q) + row64 x4 (ix2 0 q)) 0
  rw [dcol_apply, row64_apply, Ideal.ofBits_zero_f32]

/-! ## Layer two -/

theorem lidx48 (r : Fin 100000) (q : Fin 64) (k : Fin 64) : lidx_main_v48 (ix2 r q) k = ix2 r k :=
  funext fun a => by match a with | ⟨0, _⟩ => rfl | ⟨1, _⟩ => rfl

theorem ridx48 (r : Fin 100000) (q : Fin 64) (k : Fin 64) : ridx_main_v48 (ix2 r q) k = ix2 k q :=
  funext fun a => by match a with | ⟨0, _⟩ => rfl | ⟨1, _⟩ => rfl

/-- The second product with the weights, its rows scaled by `dinv`, is the kernel's stage two. -/
theorem scale_mid (x0 : FVec Ideal S100000x128 .f32) (x1 : IVec S2x3200000 32) (x3 : FVec Ideal S128x64 .f32)
    (x4 : FVec Ideal S64 .f32) (x5 : FVec Ideal S64x64 .f32) :
    scaleRows (val_main_v48 (F := Ideal) x0 x1 x3 x4 x5) (dinv x1) = hp2 x0 x1 x3 x4 x5 := by
  funext i
  obtain ⟨r, q, rfl⟩ : ∃ (r : Fin 100000) (q : Fin 64), i = ix2 r q := ⟨i 0, i 1, eq_ix2 i⟩
  show val_main_v48 (F := Ideal) x0 x1 x3 x4 x5 (ix2 r q) * dinv x1 (ix1 r)
    = (∑ k : Fin 64, act (agg1 x0 x1 x3) (dcol x1) (row64 x4) (ix2 r k) * x5 (ix2 k q)) * dcol x1 (ix2 r 0)
  rw [val_main_v48_apply, dcol_apply]
  simp only [lidx48, ridx48, ref_act1]

/-- The per-edge messages of layer two. -/
theorem ref_v84 (x0 : FVec Ideal S100000x128 .f32) (x1 : IVec S2x3200000 32) (x3 : FVec Ideal S128x64 .f32)
    (x4 : FVec Ideal S64 .f32) (x5 : FVec Ideal S64x64 .f32) :
    val_main_v84 (F := Ideal) x0 x1 x3 x4 x5
      = fun u : S3300000x64.Idx =>
          Host.gather gather_S100000x64_S3300000x1_S3300000x64_1_0_n_n_0_1_164 (val_main_v48 (F := Ideal) x0 x1 x3 x4 x5) (col (wrap (srcs x1))) u
            * (Host.gather Cert.ReferenceIdeal.gather_S100000_S3300000x1_S3300000_n_0_n_n_0_1_1 (dinv x1) (col (wrap (srcs x1))) (ix1 (u 0))
               * Host.gather Cert.ReferenceIdeal.gather_S100000_S3300000x1_S3300000_n_0_n_n_0_1_1 (dinv x1) (col (wrap (tgts x1))) (ix1 (u 0))) := by
  funext u
  rw [val_main_v84_apply, val_main_v83_apply, val_main_v82_apply, val_main_v74_apply]
  unfold val_main_v81 val_main_v66 val_main_v73
  rw [ref_v80, ref_v65, ref_v72, ref_dinv', gath2_rec]
  have e : idx_main_v82 (idx_main_v83 u) = ix1 (u 0) := funext fun a => by match a with | ⟨0, _⟩ => rfl
  rw [e]
  rfl

theorem agg2_eq (x0 : FVec Ideal S100000x128 .f32) (x1 : IVec S2x3200000 32) (x3 : FVec Ideal S128x64 .f32)
    (x4 : FVec Ideal S64 .f32) (x5 : FVec Ideal S64x64 .f32) :
    agg2 x0 x1 x3 x4 x5 = Host.scatterAdd scatter_S100000x64_S3300000x1_S3300000x64_1_0_0_1 (val_main_v85 (F := Ideal)) (col (tgts x1))
      (Host.gather gather_S100000x64_S3300000x1_S3300000x64_1_0_n_n_0_1_164 (scaleRows (val_main_v48 (F := Ideal) x0 x1 x3 x4 x5) (dinv x1)) (col (wrap (srcs x1)))) := by
  unfold agg2 agg
  rw [extf_id, scale_mid, ← zero_v85]
  rfl

theorem ref_v87 (x0 : FVec Ideal S100000x128 .f32) (x1 : IVec S2x3200000 32) (x3 : FVec Ideal S128x64 .f32)
    (x4 : FVec Ideal S64 .f32) (x5 : FVec Ideal S64x64 .f32) (r : Fin 100000) (q : Fin 64) :
    val_main_v87 (F := Ideal) x0 x1 x3 x4 x5 (ix2 r q) = dinv x1 (ix1 r) * agg2 x0 x1 x3 x4 x5 (ix2 r q) := by
  unfold val_main_v87
  rw [ref_v86, ref_v84, scat2_rec, agg2_eq]
  exact layer_pt (val_main_v48 (F := Ideal) x0 x1 x3 x4 x5) (dinv x1) (dinv_nonneg x1) (srcs x1) (tgts x1)
    (val_main_v85 (F := Ideal)) ref_v85_apply r q

theorem bias89 (x6 : FVec Ideal S64 .f32) (r : Fin 100000) (q : Fin 64) :
    val_main_v89 (F := Ideal) x6 (ix2 r q) = x6 (ix1 q) := by
  rw [val_main_v89_apply, val_main_v88_apply]
  exact congrArg x6 (funext fun a => by match a with | ⟨0, _⟩ => rfl)

/-- Layer two's activation, at an index. -/
theorem ref_act2 (x0 : FVec Ideal S100000x128 .f32) (x1 : IVec S2x3200000 32) (x3 : FVec Ideal S128x64 .f32)
    (x4 : FVec Ideal S64 .f32) (x5 : FVec Ideal S64x64 .f32) (x6 : FVec Ideal S64 .f32) (r : Fin 100000) (q : Fin 64) :
    val_main_v91 (F := Ideal) x0 x1 x3 x4 x5 x6 (ix2 r q)
      = act (agg2 x0 x1 x3 x4 x5) (dcol x1) (row64 x6) (ix2 r q) := by
  rw [val_main_v91_apply, val_main_v90_apply, val_main_call3_v0_apply, val_main_call3_cst_apply, bias89, ref_v87]
  show max (dinv x1 (ix1 r) * agg2 x0 x1 x3 x4 x5 (ix2 r q) + x6 (ix1 q)) (Ideal.ofBits .f32 0x00000000#32)
    = max (dcol x1 (ix2 r 0) * agg2 x0 x1 x3 x4 x5 (ix2 r q) + row64 x6 (ix2 0 q)) 0
  rw [dcol_apply, row64_apply, Ideal.ofBits_zero_f32]

theorem ref_act2_fn (x0 : FVec Ideal S100000x128 .f32) (x1 : IVec S2x3200000 32) (x3 : FVec Ideal S128x64 .f32)
    (x4 : FVec Ideal S64 .f32) (x5 : FVec Ideal S64x64 .f32) (x6 : FVec Ideal S64 .f32) :
    val_main_v91 (F := Ideal) x0 x1 x3 x4 x5 x6 = act (agg2 x0 x1 x3 x4 x5) (dcol x1) (row64 x6) := by
  funext i
  obtain ⟨r, q, rfl⟩ : ∃ (r : Fin 100000) (q : Fin 64), i = ix2 r q := ⟨i 0, i 1, eq_ix2 i⟩
  exact ref_act2 x0 x1 x3 x4 x5 x6 r q

/-! ## The pool, the division by the node counts, and the head -/

theorem ref_v93 (x2 : IVec S100000 32) :
    val_main_v93 (F := Ideal) x2 = broadcastInDim S100000x1 ![0] bcast_S100000_S100000x1_0 x2 := by
  unfold val_main_v93; rfl

theorem ref_sums (x0 : FVec Ideal S100000x128 .f32) (x1 : IVec S2x3200000 32) (x2 : IVec S100000 32)
    (x3 : FVec Ideal S128x64 .f32) (x4 : FVec Ideal S64 .f32) (x5 : FVec Ideal S64x64 .f32) (x6 : FVec Ideal S64 .f32)
    (g : Fin 256) (q : Fin 64) :
    val_main_v94 (F := Ideal) x0 x1 x2 x3 x4 x5 x6 (ix2 g q) = sums x0 x1 x2 x3 x4 x5 x6 (ix2 g q) := by
  unfold val_main_v94 sums
  rw [ref_act2_fn, ref_v93]
  exact pool_pt (agg2 x0 x1 x3 x4 x5) (dcol x1) (row64 x6) x2 (val_main_v92 (F := Ideal)) ref_v92_apply g q

theorem ref_pooled (x0 : FVec Ideal S100000x128 .f32) (x1 : IVec S2x3200000 32) (x2 : IVec S100000 32)
    (x3 : FVec Ideal S128x64 .f32) (x4 : FVec Ideal S64 .f32) (x5 : FVec Ideal S64x64 .f32) (x6 : FVec Ideal S64 .f32)
    (g : Fin 256) (q : Fin 64) :
    val_main_v103 (F := Ideal) x0 x1 x2 x3 x4 x5 x6 (ix2 g q) = pooled x0 x1 x2 x3 x4 x5 x6 (ix2 g q) := by
  rw [val_main_v103_apply, ref_sums, ref_cntb]
  rfl

theorem lidx104 (g : Fin 256) (q : Fin 2) (k : Fin 64) : lidx_main_v104 (ix2 g q) k = ix2 g k :=
  funext fun a => by match a with | ⟨0, _⟩ => rfl | ⟨1, _⟩ => rfl

theorem ridx104 (g : Fin 256) (q : Fin 2) (k : Fin 64) : ridx_main_v104 (ix2 g q) k = ix2 k q :=
  funext fun a => by match a with | ⟨0, _⟩ => rfl | ⟨1, _⟩ => rfl

theorem row2_apply (b : FVec Ideal S2 .f32) (q : Fin 2) : row2 b (ix2 0 q) = b (ix1 q) := by
  unfold row2
  exact shapeCast_apply b shapeCasts_S2_S1x2 (ix2 0 q) (ix1 q) (by
    rw [Shape.rowMajor_val_two, Shape.rowMajor_val_one]; show q.val = 0 * 2 + q.val; omega)

theorem bias106 (x8 : FVec Ideal S2 .f32) (g : Fin 256) (q : Fin 2) :
    val_main_v106 (F := Ideal) x8 (ix2 g q) = x8 (ix1 q) := by
  rw [val_main_v106_apply, val_main_v105_apply]
  exact congrArg x8 (funext fun a => by match a with | ⟨0, _⟩ => rfl)

/-- The reference's result term, read through its stages, is `kernelOut`. -/
theorem ref_value (x0 : FVec Ideal S100000x128 .f32) (x1 : IVec S2x3200000 32) (x2 : IVec S100000 32)
    (x3 : FVec Ideal S128x64 .f32) (x4 : FVec Ideal S64 .f32) (x5 : FVec Ideal S64x64 .f32) (x6 : FVec Ideal S64 .f32)
    (x7 : FVec Ideal S64x2 .f32) (x8 : FVec Ideal S2 .f32) :
    Cert.ReferenceIdeal.ReadP.val_main_v107 (F := Ideal) x0 x1 x2 x3 x4 x5 x6 x7 x8
      = kernelOut x0 x1 x2 x3 x4 x5 x6 x7 x8 := by
  funext i
  obtain ⟨g, q, rfl⟩ : ∃ (g : Fin 256) (q : Fin 2), i = ix2 g q := ⟨i 0, i 1, eq_ix2 i⟩
  rw [val_main_v107_apply, val_main_v104_apply, bias106]
  show (∑ k : Fin 64, val_main_v103 (F := Ideal) x0 x1 x2 x3 x4 x5 x6 (lidx_main_v104 (ix2 g q) k) * x7 (ridx_main_v104 (ix2 g q) k)) + x8 (ix1 q)
    = (∑ k : Fin 64, pooled x0 x1 x2 x3 x4 x5 x6 (ix2 g k) * x7 (ix2 k q)) + row2 x8 (ix2 0 q)
  rw [row2_apply]
  simp only [lidx104, ridx104, ref_pooled]

end Cert.Gcn

end
-- ==== Proof.lean ====
/-
  The certificate of a two-layer graph convolution with a mean pool and a linear head, computed by four dense
  kernels around gathers and per-target sums along the edges, against the plain formulation.

  The two programs differ in ONE arrangement per layer: the reference weights each edge message by
  `dinv (src) · dinv (tgt)` before summing the messages per target; the kernel scales every row by its own `dinv`
  before the gather and the per-target sum by `dinv (tgt)` after it.  Since `dinv` is a non-negative real number at
  every node, multiplication by it distributes over the extended-real sum, and the two arrangements agree; the pool's
  per-graph sum is the kernel's one-hot sum over the padded nodes (a padding node belongs to no graph); everything else
  is the same operations on both sides, a change of float format being the identity on the extended reals.

  The three frames are the programs' runs with the results dropped; the idealization's ledger is empty.
-/
import proofs.«401887_j19069654794648_2_alg».proof.Defs
import proofs.«401887_j19069654794648_2_alg».proof.Proof.Gen.Kernel
import proofs.«401887_j19069654794648_2_alg».proof.Proof.Gen.Kernel.Skeleton
import proofs.«401887_j19069654794648_2_alg».proof.Proof.Gen.Kernel.Launch
import proofs.«401887_j19069654794648_2_alg».proof.Proof.Gen.Kernel.Points
import proofs.«401887_j19069654794648_2_alg».proof.Proof.Gen.Kernel.Frame
import proofs.«401887_j19069654794648_2_alg».proof.Proof.Gen.KernelIdeal
import proofs.«401887_j19069654794648_2_alg».proof.Proof.Gen.KernelIdeal.Skeleton
import proofs.«401887_j19069654794648_2_alg».proof.Proof.Gen.KernelIdeal.Launch
import proofs.«401887_j19069654794648_2_alg».proof.Proof.Gen.KernelIdeal.Points
import proofs.«401887_j19069654794648_2_alg».proof.Proof.Gen.KernelIdeal.Frame
import proofs.«401887_j19069654794648_2_alg».proof.Proof.Gen.ReferenceIdeal
import proofs.«401887_j19069654794648_2_alg».proof.Proof.Gen.Pre_finite_inputs
import proofs.«401887_j19069654794648_2_alg».proof.Proof.KRun
import proofs.«401887_j19069654794648_2_alg».proof.Proof.KHost
import proofs.«401887_j19069654794648_2_alg».proof.Proof.RefSide
import proofs.«401887_j19069654794648_2_alg».proof.Proof.RefBridge
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end at `kernelOut` of arguments that agree. -/
theorem algebraic : Cert.algebraic_KernelIdeal_ReferenceIdeal := by
  intro m ρ m' ρ' _ hagree
  refine ⟨fun c => Cert.Gcn.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KV.kernel_value m ρ c), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v107_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]
    exact Cert.Gcn.ref_value _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
